-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S100000 : Shape := ⟨1, ![100000]⟩
abbrev S2x400000 : Shape := ⟨2, ![2, 400000]⟩
abbrev S100000x128 : Shape := ⟨2, ![100000, 128]⟩
abbrev S64x128 : Shape := ⟨2, ![64, 128]⟩
abbrev S128 : Shape := ⟨1, ![128]⟩
abbrev S128x32 : Shape := ⟨2, ![128, 32]⟩
abbrev S32 : Shape := ⟨1, ![32]⟩
abbrev S128x128 : Shape := ⟨2, ![128, 128]⟩
abbrev S_ : Shape := ⟨0, ![]⟩
abbrev S1x400000 : Shape := ⟨2, ![1, 400000]⟩
abbrev S400000 : Shape := ⟨1, ![400000]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S64x128 : S_.BroadcastsInDim S64x128 (![] : Fin 0 → Fin S64x128.rank)
  reducesTo_S64x128_S_d0_1 : S64x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S128x128 : S_.BroadcastsInDim S128x128 (![] : Fin 0 → Fin S128x128.rank)
  reducesTo_S128x128_S_d0_1 : S128x128.ReducesTo [0, 1] S_
  bcast_S_S100000 : S_.BroadcastsInDim S100000 (![] : Fin 0 → Fin S100000.rank)
  reducesTo_S100000_S_d0 : S100000.ReducesTo [0] S_
  slices_S2x400000_S1x400000_0_0 : S2x400000.Slices ![0, 0] S1x400000
  shapeCasts_S1x400000_S400000 : S1x400000.ShapeCasts S400000
  bcast_S_S400000 : S_.BroadcastsInDim S400000 (![] : Fin 0 → Fin S400000.rank)
  reducesTo_S400000_S_d0 : S400000.ReducesTo [0] S_

variable [Facts]

def fn_part7 {F : FTy → Type} [FloatOps F] (main_arg4 : IVec S2x400000 32) (main_v118 : IVec S_ 1) (main_v120 : IVec S400000 32) : IVec S_ 1 :=
  let main_c_45 : IVec S_ 32 := constantI S_ 32 0#32
  let main_v121 : IVec S400000 32 := broadcastInDim S400000 ![] bcast_S_S400000 main_c_45
  let main_v122 : IVec S400000 1 := cmpi .sge main_v120 main_v121
  let main_v123 : IVec S1x400000 32 := (extractStridedSlice S1x400000 ![0, 0] · slices_S2x400000_S1x400000_0_0) main_arg4
  let main_v124 : IVec S400000 32 := shapeCast S400000 main_v123 shapeCasts_S1x400000_S400000
  let main_c_46 : IVec S_ 32 := constantI S_ 32 100000#32
  let main_v125 : IVec S400000 32 := broadcastInDim S400000 ![] bcast_S_S400000 main_c_46
  let main_v126 : IVec S400000 1 := cmpi .slt main_v124 main_v125
  let main_v127 : IVec S400000 1 := andi main_v122 main_v126
  let main_c_47 : IVec S_ 1 := constantI S_ 1 1#1
  let main_v128 : IVec S_ 1 := (fun x v => Host.reduce IntOp.andi x v reducesTo_S400000_S_d0 h_S_) main_v127 main_c_47
  let main_v129 : IVec S_ 1 := andi main_v118 main_v128
  main_v129

def fn_part6 {F : FTy → Type} [FloatOps F] (main_arg2 : IVec S100000 32) (main_arg3 : IVec S2x400000 32) (main_arg4 : IVec S2x400000 32) (main_v100 : IVec S_ 1) (main_v101 : IVec S100000 32) : IVec S_ 1 :=
  let main_v102 : IVec S100000 1 := cmpi .sge main_arg2 main_v101
  let main_c_40 : IVec S_ 32 := constantI S_ 32 100000#32
  let main_v103 : IVec S100000 32 := broadcastInDim S100000 ![] bcast_S_S100000 main_c_40
  let main_v104 : IVec S100000 1 := cmpi .slt main_arg2 main_v103
  let main_v105 : IVec S100000 1 := andi main_v102 main_v104
  let main_c_41 : IVec S_ 1 := constantI S_ 1 1#1
  let main_v106 : IVec S_ 1 := (fun x v => Host.reduce IntOp.andi x v reducesTo_S100000_S_d0 h_S_) main_v105 main_c_41
  let main_v107 : IVec S_ 1 := andi main_v100 main_v106
  let main_v108 : IVec S1x400000 32 := (extractStridedSlice S1x400000 ![0, 0] · slices_S2x400000_S1x400000_0_0) main_arg3
  let main_v109 : IVec S400000 32 := shapeCast S400000 main_v108 shapeCasts_S1x400000_S400000
  let main_c_42 : IVec S_ 32 := constantI S_ 32 0#32
  let main_v110 : IVec S400000 32 := broadcastInDim S400000 ![] bcast_S_S400000 main_c_42
  let main_v111 : IVec S400000 1 := cmpi .sge main_v109 main_v110
  let main_v112 : IVec S1x400000 32 := (extractStridedSlice S1x400000 ![0, 0] · slices_S2x400000_S1x400000_0_0) main_arg3
  let main_v113 : IVec S400000 32 := shapeCast S400000 main_v112 shapeCasts_S1x400000_S400000
  let main_c_43 : IVec S_ 32 := constantI S_ 32 100000#32
  let main_v114 : IVec S400000 32 := broadcastInDim S400000 ![] bcast_S_S400000 main_c_43
  let main_v115 : IVec S400000 1 := cmpi .slt main_v113 main_v114
  let main_v116 : IVec S400000 1 := andi main_v111 main_v115
  let main_c_44 : IVec S_ 1 := constantI S_ 1 1#1
  let main_v117 : IVec S_ 1 := (fun x v => Host.reduce IntOp.andi x v reducesTo_S400000_S_d0 h_S_) main_v116 main_c_44
  let main_v118 : IVec S_ 1 := andi main_v107 main_v117
  let main_v119 : IVec S1x400000 32 := (extractStridedSlice S1x400000 ![0, 0] · slices_S2x400000_S1x400000_0_0) main_arg4
  let main_v120 : IVec S400000 32 := shapeCast S400000 main_v119 shapeCasts_S1x400000_S400000
  fn_part7 (F := F) main_arg4 main_v118 main_v120

def fn_part5 {F : FTy → Type} [FloatOps F] (main_arg1 : IVec S100000 32) (main_arg2 : IVec S100000 32) (main_arg3 : IVec S2x400000 32) (main_arg4 : IVec S2x400000 32) (main_arg22 : FVec F S128 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg22
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_c_36 : IVec S_ 32 := constantI S_ 32 0#32
  let main_v94 : IVec S100000 32 := broadcastInDim S100000 ![] bcast_S_S100000 main_c_36
  let main_v95 : IVec S100000 1 := cmpi .sge main_arg1 main_v94
  let main_c_37 : IVec S_ 32 := constantI S_ 32 100000#32
  let main_v96 : IVec S100000 32 := broadcastInDim S100000 ![] bcast_S_S100000 main_c_37
  let main_v97 : IVec S100000 1 := cmpi .slt main_arg1 main_v96
  let main_v98 : IVec S100000 1 := andi main_v95 main_v97
  let main_c_38 : IVec S_ 1 := constantI S_ 1 1#1
  let main_v99 : IVec S_ 1 := (fun x v => Host.reduce IntOp.andi x v reducesTo_S100000_S_d0 h_S_) main_v98 main_c_38
  let main_v100 : IVec S_ 1 := andi main_v93 main_v99
  let main_c_39 : IVec S_ 32 := constantI S_ 32 0#32
  let main_v101 : IVec S100000 32 := broadcastInDim S100000 ![] bcast_S_S100000 main_c_39
  fn_part6 (F := F) main_arg2 main_arg3 main_arg4 main_v100 main_v101

def fn_part4 {F : FTy → Type} [FloatOps F] (main_arg1 : IVec S100000 32) (main_arg2 : IVec S100000 32) (main_arg3 : IVec S2x400000 32) (main_arg4 : IVec S2x400000 32) (main_arg18 : FVec F S128x128 .f32) (main_arg19 : FVec F S128 .f32) (main_arg20 : FVec F S128x128 .f32) (main_arg21 : FVec F S128x128 .f32) (main_arg22 : FVec F S128 .f32) (main_v63 : IVec S_ 1) (main_v67 : IVec S_ 1) : IVec S_ 1 :=
  let main_v68 : IVec S_ 1 := andi main_v63 main_v67
  let main_v69 : FVec F S128x128 .f32 := Host.absf main_arg18
  let main_cst_26 : FVec F S_ .f32 := constant S_ .f32 0x7F800000#32
  let main_v70 : FVec F S128x128 .f32 := broadcastInDim S128x128 ![] bcast_S_S128x128 main_cst_26
  let main_v71 : IVec S128x128 1 := cmpf .olt main_v69 main_v70
  let main_c_27 : IVec S_ 1 := constantI S_ 1 1#1
  let main_v72 : IVec S_ 1 := (fun x v => Host.reduce IntOp.andi x v reducesTo_S128x128_S_d0_1 h_S_) main_v71 main_c_27
  let main_v73 : IVec S_ 1 := andi main_v68 main_v72
  let main_v74 : FVec F S128 .f32 := Host.absf main_arg19
  let main_cst_28 : FVec F S_ .f32 := constant S_ .f32 0x7F800000#32
  let main_v75 : FVec F S128 .f32 := broadcastInDim S128 ![] bcast_S_S128 main_cst_28
  let main_v76 : IVec S128 1 := cmpf .olt main_v74 main_v75
  let main_c_29 : IVec S_ 1 := constantI S_ 1 1#1
  let main_v77 : IVec S_ 1 := (fun x v => Host.reduce IntOp.andi x v reducesTo_S128_S_d0 h_S_) main_v76 main_c_29
  let main_v78 : IVec S_ 1 := andi main_v73 main_v77
  let main_v79 : FVec F S128x128 .f32 := Host.absf main_arg20
  let main_cst_30 : FVec F S_ .f32 := constant S_ .f32 0x7F800000#32
  let main_v80 : FVec F S128x128 .f32 := broadcastInDim S128x128 ![] bcast_S_S128x128 main_cst_30
  let main_v81 : IVec S128x128 1 := cmpf .olt main_v79 main_v80
  let main_c_31 : IVec S_ 1 := constantI S_ 1 1#1
  let main_v82 : IVec S_ 1 := (fun x v => Host.reduce IntOp.andi x v reducesTo_S128x128_S_d0_1 h_S_) main_v81 main_c_31
  let main_v83 : IVec S_ 1 := andi main_v78 main_v82
  let main_v84 : FVec F S128x128 .f32 := Host.absf main_arg21
  let main_cst_32 : FVec F S_ .f32 := constant S_ .f32 0x7F800000#32
  fn_part5 (F := F) main_arg1 main_arg2 main_arg3 main_arg4 main_arg22 main_v83 main_v84 main_cst_32

def fn_part3 {F : FTy → Type} [FloatOps F] (main_arg1 : IVec S100000 32) (main_arg2 : IVec S100000 32) (main_arg3 : IVec S2x400000 32) (main_arg4 : IVec S2x400000 32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_v48 : IVec S_ 1) (main_v49 : FVec F S128x128 .f32) (main_v50 : FVec F S128x128 .f32) : IVec S_ 1 :=
  let main_v51 : IVec S128x128 1 := cmpf .olt main_v49 main_v50
  let main_c_19 : IVec S_ 1 := constantI S_ 1 1#1
  let main_v52 : IVec S_ 1 := (fun x v => Host.reduce IntOp.andi x v reducesTo_S128x128_S_d0_1 h_S_) main_v51 main_c_19
  let main_v53 : IVec S_ 1 := andi main_v48 main_v52
  let main_v54 : FVec F S128x128 .f32 := Host.absf main_arg15
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg16
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128x128 .f32 := Host.absf main_arg17
  let main_cst_24 : FVec F S_ .f32 := constant S_ .f32 0x7F800000#32
  let main_v65 : FVec F S128x128 .f32 := broadcastInDim S128x128 ![] bcast_S_S128x128 main_cst_24
  let main_v66 : IVec S128x128 1 := cmpf .olt main_v64 main_v65
  let main_c_25 : IVec S_ 1 := constantI S_ 1 1#1
  let main_v67 : IVec S_ 1 := (fun x v => Host.reduce IntOp.andi x v reducesTo_S128x128_S_d0_1 h_S_) main_v66 main_c_25
  fn_part4 (F := F) main_arg1 main_arg2 main_arg3 main_arg4 main_arg18 main_arg19 main_arg20 main_arg21 main_arg22 main_v63 main_v67

def fn_part2 {F : FTy → Type} [FloatOps F] (main_arg1 : IVec S100000 32) (main_arg2 : IVec S100000 32) (main_arg3 : IVec S2x400000 32) (main_arg4 : IVec S2x400000 32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_v33 : IVec S_ 1) : IVec S_ 1 :=
  let main_v34 : FVec F S128x128 .f32 := Host.absf main_arg11
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg12
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128 .f32 := Host.absf main_arg13
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  let main_v49 : FVec F S128x128 .f32 := Host.absf main_arg14
  let main_cst_18 : FVec F S_ .f32 := constant S_ .f32 0x7F800000#32
  let main_v50 : FVec F S128x128 .f32 := broadcastInDim S128x128 ![] bcast_S_S128x128 main_cst_18
  fn_part3 (F := F) main_arg1 main_arg2 main_arg3 main_arg4 main_arg15 main_arg16 main_arg17 main_arg18 main_arg19 main_arg20 main_arg21 main_arg22 main_v48 main_v49 main_v50

def fn_part1 {F : FTy → Type} [FloatOps F] (main_arg1 : IVec S100000 32) (main_arg2 : IVec S100000 32) (main_arg3 : IVec S2x400000 32) (main_arg4 : IVec S2x400000 32) (main_arg8 : FVec F S128 .f32) (main_arg9 : FVec F S128x32 .f32) (main_arg10 : FVec F S32 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  let main_v19 : FVec F S128 .f32 := Host.absf main_arg8
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x32 .f32 := Host.absf main_arg9
  let main_cst_8 : FVec F S_ .f32 := constant S_ .f32 0x7F800000#32
  let main_v25 : FVec F S128x32 .f32 := broadcastInDim S128x32 ![] bcast_S_S128x32 main_cst_8
  let main_v26 : IVec S128x32 1 := cmpf .olt main_v24 main_v25
  let main_c_9 : IVec S_ 1 := constantI S_ 1 1#1
  let main_v27 : IVec S_ 1 := (fun x v => Host.reduce IntOp.andi x v reducesTo_S128x32_S_d0_1 h_S_) main_v26 main_c_9
  let main_v28 : IVec S_ 1 := andi main_v23 main_v27
  let main_v29 : FVec F S32 .f32 := Host.absf main_arg10
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg1 main_arg2 main_arg3 main_arg4 main_arg11 main_arg12 main_arg13 main_arg14 main_arg15 main_arg16 main_arg17 main_arg18 main_arg19 main_arg20 main_arg21 main_arg22 main_v33

def fn {F : FTy → Type} [FloatOps F] (main_arg0 : FVec F S100000x64 .f32) (main_arg1 : IVec S100000 32) (main_arg2 : IVec S100000 32) (main_arg3 : IVec S2x400000 32) (main_arg4 : IVec S2x400000 32) (main_arg5 : FVec F S100000x128 .f32) (main_arg6 : FVec F S100000x128 .f32) (main_arg7 : FVec F S64x128 .f32) (main_arg8 : FVec F S128 .f32) (main_arg9 : FVec F S128x32 .f32) (main_arg10 : FVec F S32 .f32) (main_arg11 : FVec F S128x128 .f32) (main_arg12 : FVec F S128x128 .f32) (main_arg13 : FVec F S128 .f32) (main_arg14 : FVec F S128x128 .f32) (main_arg15 : FVec F S128x128 .f32) (main_arg16 : FVec F S128 .f32) (main_arg17 : FVec F S128x128 .f32) (main_arg18 : FVec F S128x128 .f32) (main_arg19 : FVec F S128 .f32) (main_arg20 : FVec F S128x128 .f32) (main_arg21 : FVec F S128x128 .f32) (main_arg22 : FVec F S128 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x128 .f32 := Host.absf main_arg5
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg6
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S64x128 .f32 := Host.absf main_arg7
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_arg1 main_arg2 main_arg3 main_arg4 main_arg8 main_arg9 main_arg10 main_arg11 main_arg12 main_arg13 main_arg14 main_arg15 main_arg16 main_arg17 main_arg18 main_arg19 main_arg20 main_arg21 main_arg22 main_v13 main_v16
-- ==== Kernel.lean ====
abbrev S100000x64 : Shape := ⟨2, ![100000, 64]⟩
abbrev S100000 : Shape := ⟨1, ![100000]⟩
abbrev S2x400000 : Shape := ⟨2, ![2, 400000]⟩
abbrev S100000x128 : Shape := ⟨2, ![100000, 128]⟩
abbrev S64x128 : Shape := ⟨2, ![64, 128]⟩
abbrev S128 : Shape := ⟨1, ![128]⟩
abbrev S128x32 : Shape := ⟨2, ![128, 32]⟩
abbrev S32 : Shape := ⟨1, ![32]⟩
abbrev S128x128 : Shape := ⟨2, ![128, 128]⟩
abbrev S_ : Shape := ⟨0, ![]⟩
abbrev S100000x1 : Shape := ⟨2, ![100000, 1]⟩
abbrev S1 : Shape := ⟨1, ![1]⟩
abbrev S1x1 : Shape := ⟨2, ![1, 1]⟩
abbrev S10000x64 : Shape := ⟨2, ![10000, 64]⟩
abbrev S10000x128 : Shape := ⟨2, ![10000, 128]⟩
abbrev S1x128 : Shape := ⟨2, ![1, 128]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩
abbrev S10000x1 : Shape := ⟨2, ![10000, 1]⟩
abbrev S100000x32 : Shape := ⟨2, ![100000, 32]⟩
abbrev S10000x32 : Shape := ⟨2, ![10000, 32]⟩
abbrev S1x32 : Shape := ⟨2, ![1, 32]⟩

abbrev nBuf : Space → Nat
  | .hbm => 188
  | .vmem => 43
  | .smem => 0
  | _ => 0

abbrev hbmTy0_0 (i : Nat) : BufTy := match i % 128 with
  | 0 => ⟨S100000x64, .f32⟩
  | 1 => ⟨S100000, .i32⟩
  | 2 => ⟨S100000, .i32⟩
  | 3 => ⟨S2x400000, .i32⟩
  | 4 => ⟨S2x400000, .i32⟩
  | 5 => ⟨S100000x128, .f32⟩
  | 6 => ⟨S100000x128, .f32⟩
  | 7 => ⟨S64x128, .f32⟩
  | 8 => ⟨S128, .f32⟩
  | 9 => ⟨S128x32, .f32⟩
  | 10 => ⟨S32, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S_, .i32⟩
  | 24 => ⟨S100000, .i32⟩
  | 25 => ⟨S100000, .i1⟩
  | 26 => ⟨S_, .i32⟩
  | 27 => ⟨S100000, .i32⟩
  | 28 => ⟨S100000, .i32⟩
  | 29 => ⟨S100000, .i32⟩
  | 30 => ⟨S100000x1, .i32⟩
  | 31 => ⟨S1, .i32⟩
  | 32 => ⟨S_, .i32⟩
  | 33 => ⟨S100000x1, .i32⟩
  | 34 => ⟨S100000x1, .i1⟩
  | 35 => ⟨S1x1, .i32⟩
  | 36 => ⟨S100000x1, .i32⟩
  | 37 => ⟨S100000x1, .i1⟩
  | 38 => ⟨S100000x1, .i1⟩
  | 39 => ⟨S_, .i1⟩
  | 40 => ⟨S100000, .i1⟩
  | 41 => ⟨S100000x128, .f32⟩
  | 42 => ⟨S100000x128, .i1⟩
  | 43 => ⟨S_, .f32⟩
  | 44 => ⟨S100000x128, .f32⟩
  | 45 => ⟨S100000x128, .f32⟩
  | 46 => ⟨S100000x128, .f32⟩
  | 47 => ⟨S_, .i32⟩
  | 48 => ⟨S100000, .i32⟩
  | 49 => ⟨S100000, .i1⟩
  | 50 => ⟨S_, .i32⟩
  | 51 => ⟨S100000, .i32⟩
  | 52 => ⟨S100000, .i32⟩
  | 53 => ⟨S100000, .i32⟩
  | 54 => ⟨S100000x1, .i32⟩
  | 55 => ⟨S1, .i32⟩
  | 56 => ⟨S_, .i32⟩
  | 57 => ⟨S100000x1, .i32⟩
  | 58 => ⟨S100000x1, .i1⟩
  | 59 => ⟨S1x1, .i32⟩
  | 60 => ⟨S100000x1, .i32⟩
  | 61 => ⟨S100000x1, .i1⟩
  | 62 => ⟨S100000x1, .i1⟩
  | 63 => ⟨S_, .i1⟩
  | 64 => ⟨S100000, .i1⟩
  | 65 => ⟨S100000x128, .f32⟩
  | 66 => ⟨S100000x128, .i1⟩
  | 67 => ⟨S_, .f32⟩
  | 68 => ⟨S100000x128, .f32⟩
  | 69 => ⟨S100000x128, .f32⟩
  | 70 => ⟨S1x400000, .i32⟩
  | 71 => ⟨S400000, .i32⟩
  | 72 => ⟨S1x400000, .i32⟩
  | 73 => ⟨S400000, .i32⟩
  | 74 => ⟨S1x400000, .i32⟩
  | 75 => ⟨S400000, .i32⟩
  | 76 => ⟨S1x400000, .i32⟩
  | 77 => ⟨S400000, .i32⟩
  | 78 => ⟨S_, .f32⟩
  | 79 => ⟨S400000, .f32⟩
  | 80 => ⟨S_, .f32⟩
  | 81 => ⟨S100000, .f32⟩
  | 82 => ⟨S400000x1, .i32⟩
  | 83 => ⟨S100000, .f32⟩
  | 84 => ⟨S_, .f32⟩
  | 85 => ⟨S400000, .f32⟩
  | 86 => ⟨S_, .f32⟩
  | 87 => ⟨S100000, .f32⟩
  | 88 => ⟨S400000x1, .i32⟩
  | 89 => ⟨S100000, .f32⟩
  | 90 => ⟨S_, .f32⟩
  | 91 => ⟨S100000, .f32⟩
  | 92 => ⟨S100000, .f32⟩
  | 93 => ⟨S_, .f32⟩
  | 94 => ⟨S100000, .f32⟩
  | 95 => ⟨S100000, .f32⟩
  | 96 => ⟨S100000x1, .f32⟩
  | 97 => ⟨S_, .f32⟩
  | 98 => ⟨S100000, .f32⟩
  | 99 => ⟨S100000, .f32⟩
  | 100 => ⟨S_, .f32⟩
  | 101 => ⟨S100000, .f32⟩
  | 102 => ⟨S100000, .f32⟩
  | 103 => ⟨S100000x1, .f32⟩
  | 104 => ⟨S_, .i32⟩
  | 105 => ⟨S400000, .i32⟩
  | 106 => ⟨S400000, .i1⟩
  | 107 => ⟨S_, .i32⟩
  | 108 => ⟨S400000, .i32⟩
  | 109 => ⟨S400000, .i32⟩
  | 110 => ⟨S400000, .i32⟩
  | 111 => ⟨S400000x1, .i32⟩
  | 112 => ⟨S1, .i32⟩
  | 113 => ⟨S_, .i32⟩
  | 114 => ⟨S400000x1, .i32⟩
  | 115 => ⟨S400000x1, .i1⟩
  | 116 => ⟨S1x1, .i32⟩
  | 117 => ⟨S400000x1, .i32⟩
  | 118 => ⟨S400000x1, .i1⟩
  | 119 => ⟨S400000x1, .i1⟩
  | 120 => ⟨S_, .i1⟩
  | 121 => ⟨S400000, .i1⟩
  | 122 => ⟨S400000x128, .f32⟩
  | 123 => ⟨S400000x128, .i1⟩
  | 124 => ⟨S_, .f32⟩
  | 125 => ⟨S400000x128, .f32⟩
  | 126 => ⟨S400000x128, .f32⟩
  | 127 => ⟨S_, .f32⟩
  | _ => ⟨S100000x64, .f32⟩

abbrev hbmTy0_1 (i : Nat) : BufTy := match i % 128 with
  | 0 => ⟨S100000x128, .f32⟩
  | 1 => ⟨S400000x1, .i32⟩
  | 2 => ⟨S100000x128, .f32⟩
  | 3 => ⟨S100000x128, .f32⟩
  | 4 => ⟨S_, .i32⟩
  | 5 => ⟨S400000, .i32⟩
  | 6 => ⟨S400000, .i1⟩
  | 7 => ⟨S_, .i32⟩
  | 8 => ⟨S400000, .i32⟩
  | 9 => ⟨S400000, .i32⟩
  | 10 => ⟨S400000, .i32⟩
  | 11 => ⟨S400000x1, .i32⟩
  | 12 => ⟨S1, .i32⟩
  | 13 => ⟨S_, .i32⟩
  | 14 => ⟨S400000x1, .i32⟩
  | 15 => ⟨S400000x1, .i1⟩
  | 16 => ⟨S1x1, .i32⟩
  | 17 => ⟨S400000x1, .i32⟩
  | 18 => ⟨S400000x1, .i1⟩
  | 19 => ⟨S400000x1, .i1⟩
  | 20 => ⟨S_, .i1⟩
  | 21 => ⟨S400000, .i1⟩
  | 22 => ⟨S400000x128, .f32⟩
  | 23 => ⟨S400000x128, .i1⟩
  | 24 => ⟨S_, .f32⟩
  | 25 => ⟨S400000x128, .f32⟩
  | 26 => ⟨S400000x128, .f32⟩
  | 27 => ⟨S_, .f32⟩
  | 28 => ⟨S100000x128, .f32⟩
  | 29 => ⟨S400000x1, .i32⟩
  | 30 => ⟨S100000x128, .f32⟩
  | 31 => ⟨S100000x128, .f32⟩
  | 32 => ⟨S_, .i32⟩
  | 33 => ⟨S400000, .i32⟩
  | 34 => ⟨S400000, .i1⟩
  | 35 => ⟨S_, .i32⟩
  | 36 => ⟨S400000, .i32⟩
  | 37 => ⟨S400000, .i32⟩
  | 38 => ⟨S400000, .i32⟩
  | 39 => ⟨S400000x1, .i32⟩
  | 40 => ⟨S1, .i32⟩
  | 41 => ⟨S_, .i32⟩
  | 42 => ⟨S400000x1, .i32⟩
  | 43 => ⟨S400000x1, .i1⟩
  | 44 => ⟨S1x1, .i32⟩
  | 45 => ⟨S400000x1, .i32⟩
  | 46 => ⟨S400000x1, .i1⟩
  | 47 => ⟨S400000x1, .i1⟩
  | 48 => ⟨S_, .i1⟩
  | 49 => ⟨S400000, .i1⟩
  | 50 => ⟨S400000x128, .f32⟩
  | 51 => ⟨S400000x128, .i1⟩
  | 52 => ⟨S_, .f32⟩
  | 53 => ⟨S400000x128, .f32⟩
  | 54 => ⟨S400000x128, .f32⟩
  | 55 => ⟨S_, .f32⟩
  | 56 => ⟨S100000x128, .f32⟩
  | 57 => ⟨S400000x1, .i32⟩
  | 58 => ⟨S100000x128, .f32⟩
  | 59 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x128, .f32⟩
  | .local _ .vmem, ⟨3, _⟩ => ⟨S128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S10000x128, .f32⟩
  | .local _ .vmem, ⟨8, _⟩ => ⟨S10000x128, .f32⟩
  | .local _ .vmem, ⟨9, _⟩ => ⟨S10000x128, .f32⟩
  | .local _ .vmem, ⟨10, _⟩ => ⟨S10000x1, .f32⟩
  | .local _ .vmem, ⟨11, _⟩ => ⟨S10000x1, .f32⟩
  | .local _ .vmem, ⟨12, _⟩ => ⟨S10000x128, .f32⟩
  | .local _ .vmem, ⟨13, _⟩ => ⟨S10000x128, .f32⟩
  | .local _ .vmem, ⟨14, _⟩ => ⟨S128x128, .f32⟩
  | .local _ .vmem, ⟨15, _⟩ => ⟨S128x128, .f32⟩
  | .local _ .vmem, ⟨16, _⟩ => ⟨S128, .f32⟩
  | .local _ .vmem, ⟨17, _⟩ => ⟨S10000x128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x1, .f32⟩
  | .local _ .vmem, ⟨22, _⟩ => ⟨S10000x1, .f32⟩
  | .local _ .vmem, ⟨23, _⟩ => ⟨S10000x128, .f32⟩
  | .local _ .vmem, ⟨24, _⟩ => ⟨S10000x128, .f32⟩
  | .local _ .vmem, ⟨25, _⟩ => ⟨S128x128, .f32⟩
  | .local _ .vmem, ⟨26, _⟩ => ⟨S128x128, .f32⟩
  | .local _ .vmem, ⟨27, _⟩ => ⟨S128, .f32⟩
  | .local _ .vmem, ⟨28, _⟩ => ⟨S10000x128, .f32⟩
  | .local _ .vmem, ⟨29, _⟩ => ⟨S10000x128, .f32⟩
  | .local _ .vmem, ⟨30, _⟩ => ⟨S10000x128, .f32⟩
  | .local _ .vmem, ⟨31, _⟩ => ⟨S10000x128, .f32⟩
  | .local _ .vmem, ⟨32, _⟩ => ⟨S10000x1, .f32⟩
  | .local _ .vmem, ⟨33, _⟩ => ⟨S10000x1, .f32⟩
  | .local _ .vmem, ⟨34, _⟩ => ⟨S10000x128, .f32⟩
  | .local _ .vmem, ⟨35, _⟩ => ⟨S10000x128, .f32⟩
  | .local _ .vmem, ⟨36, _⟩ => ⟨S128x128, .f32⟩
  | .local _ .vmem, ⟨37, _⟩ => ⟨S128x128, .f32⟩
  | .local _ .vmem, ⟨38, _⟩ => ⟨S128, .f32⟩
  | .local _ .vmem, ⟨39, _⟩ => ⟨S128x32, .f32⟩
  | .local _ .vmem, ⟨40, _⟩ => ⟨S32, .f32⟩
  | .local _ .vmem, ⟨41, _⟩ => ⟨S10000x32, .f32⟩
  | .local _ .vmem, ⟨42, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_call0_c : Ref sig .tc := ⟨.hbm, 23, rfl⟩
abbrev main_call0_v0 : Ref sig .tc := ⟨.hbm, 24, rfl⟩
abbrev main_call0_v1 : Ref sig .tc := ⟨.hbm, 25, rfl⟩
abbrev main_call0_c_0 : Ref sig .tc := ⟨.hbm, 26, rfl⟩
abbrev main_call0_v2 : Ref sig .tc := ⟨.hbm, 27, rfl⟩
abbrev main_call0_v3 : Ref sig .tc := ⟨.hbm, 28, rfl⟩
abbrev main_call0_v4 : Ref sig .tc := ⟨.hbm, 29, rfl⟩
abbrev main_call0_v5 : Ref sig .tc := ⟨.hbm, 30, rfl⟩
abbrev main_call0_c_1 : Ref sig .tc := ⟨.hbm, 31, rfl⟩
abbrev main_call0_c_2 : Ref sig .tc := ⟨.hbm, 32, rfl⟩
abbrev main_call0_v6 : Ref sig .tc := ⟨.hbm, 33, rfl⟩
abbrev main_call0_v7 : Ref sig .tc := ⟨.hbm, 34, rfl⟩
abbrev main_call0_v8 : Ref sig .tc := ⟨.hbm, 35, rfl⟩
abbrev main_call0_v9 : Ref sig .tc := ⟨.hbm, 36, rfl⟩
abbrev main_call0_v10 : Ref sig .tc := ⟨.hbm, 37, rfl⟩
abbrev main_call0_v11 : Ref sig .tc := ⟨.hbm, 38, rfl⟩
abbrev main_call0_c_3 : Ref sig .tc := ⟨.hbm, 39, rfl⟩
abbrev main_call0_v12 : Ref sig .tc := ⟨.hbm, 40, rfl⟩
abbrev main_call0_v13 : Ref sig .tc := ⟨.hbm, 41, rfl⟩
abbrev main_call0_v14 : Ref sig .tc := ⟨.hbm, 42, rfl⟩
abbrev main_call0_cst : Ref sig .tc := ⟨.hbm, 43, rfl⟩
abbrev main_call0_v15 : Ref sig .tc := ⟨.hbm, 44, rfl⟩
abbrev main_v0 : Ref sig .tc := ⟨.hbm, 45, rfl⟩
abbrev main_v1 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v2 : Ref sig .tc := ⟨.hbm, 69, rfl⟩
abbrev main_v3 : Ref sig .tc := ⟨.hbm, 70, rfl⟩
abbrev main_v4 : Ref sig .tc := ⟨.hbm, 71, rfl⟩
abbrev main_v5 : Ref sig .tc := ⟨.hbm, 72, rfl⟩
abbrev main_v6 : Ref sig .tc := ⟨.hbm, 73, rfl⟩
abbrev main_v7 : Ref sig .tc := ⟨.hbm, 74, rfl⟩
abbrev main_v8 : Ref sig .tc := ⟨.hbm, 75, rfl⟩
abbrev main_v9 : Ref sig .tc := ⟨.hbm, 76, rfl⟩
abbrev main_v10 : Ref sig .tc := ⟨.hbm, 77, rfl⟩
abbrev main_cst : Ref sig .tc := ⟨.hbm, 78, rfl⟩
abbrev main_v11 : Ref sig .tc := ⟨.hbm, 79, rfl⟩
abbrev main_cst_0 : Ref sig .tc := ⟨.hbm, 80, rfl⟩
abbrev main_v12 : Ref sig .tc := ⟨.hbm, 81, rfl⟩
abbrev main_v13 : Ref sig .tc := ⟨.hbm, 82, rfl⟩
abbrev main_v14 : Ref sig .tc := ⟨.hbm, 83, rfl⟩
abbrev main_cst_1 : Ref sig .tc := ⟨.hbm, 84, rfl⟩
abbrev main_v15 : Ref sig .tc := ⟨.hbm, 85, rfl⟩
abbrev main_cst_2 : Ref sig .tc := ⟨.hbm, 86, rfl⟩
abbrev main_v16 : Ref sig .tc := ⟨.hbm, 87, rfl⟩
abbrev main_v17 : Ref sig .tc := ⟨.hbm, 88, rfl⟩
abbrev main_v18 : Ref sig .tc := ⟨.hbm, 89, rfl⟩
abbrev main_cst_3 : Ref sig .tc := ⟨.hbm, 90, rfl⟩
abbrev main_v19 : Ref sig .tc := ⟨.hbm, 91, rfl⟩
abbrev main_v20 : Ref sig .tc := ⟨.hbm, 92, rfl⟩
abbrev main_cst_4 : Ref sig .tc := ⟨.hbm, 93, rfl⟩
abbrev main_v21 : Ref sig .tc := ⟨.hbm, 94, rfl⟩
abbrev main_v22 : Ref sig .tc := ⟨.hbm, 95, rfl⟩
abbrev main_v23 : Ref sig .tc := ⟨.hbm, 96, rfl⟩
abbrev main_cst_5 : Ref sig .tc := ⟨.hbm, 97, rfl⟩
abbrev main_v24 : Ref sig .tc := ⟨.hbm, 98, rfl⟩
abbrev main_v25 : Ref sig .tc := ⟨.hbm, 99, rfl⟩
abbrev main_cst_6 : Ref sig .tc := ⟨.hbm, 100, rfl⟩
abbrev main_v26 : Ref sig .tc := ⟨.hbm, 101, rfl⟩
abbrev main_v27 : Ref sig .tc := ⟨.hbm, 102, rfl⟩
abbrev main_v28 : Ref sig .tc := ⟨.hbm, 103, rfl⟩
abbrev main_call2_c : Ref sig .tc := ⟨.hbm, 104, rfl⟩
abbrev main_call2_v0 : Ref sig .tc := ⟨.hbm, 105, rfl⟩
abbrev main_call2_v1 : Ref sig .tc := ⟨.hbm, 106, rfl⟩
abbrev main_call2_c_0 : Ref sig .tc := ⟨.hbm, 107, rfl⟩
abbrev main_call2_v2 : Ref sig .tc := ⟨.hbm, 108, rfl⟩
abbrev main_call2_v3 : Ref sig .tc := ⟨.hbm, 109, rfl⟩
abbrev main_call2_v4 : Ref sig .tc := ⟨.hbm, 110, rfl⟩
abbrev main_call2_v5 : Ref sig .tc := ⟨.hbm, 111, rfl⟩
abbrev main_call2_c_1 : Ref sig .tc := ⟨.hbm, 112, rfl⟩
abbrev main_call2_c_2 : Ref sig .tc := ⟨.hbm, 113, rfl⟩
abbrev main_call2_v6 : Ref sig .tc := ⟨.hbm, 114, rfl⟩
abbrev main_call2_v7 : Ref sig .tc := ⟨.hbm, 115, rfl⟩
abbrev main_call2_v8 : Ref sig .tc := ⟨.hbm, 116, rfl⟩
abbrev main_call2_v9 : Ref sig .tc := ⟨.hbm, 117, rfl⟩
abbrev main_call2_v10 : Ref sig .tc := ⟨.hbm, 118, rfl⟩
abbrev main_call2_v11 : Ref sig .tc := ⟨.hbm, 119, rfl⟩
abbrev main_call2_c_3 : Ref sig .tc := ⟨.hbm, 120, rfl⟩
abbrev main_call2_v12 : Ref sig .tc := ⟨.hbm, 121, rfl⟩
abbrev main_call2_v13 : Ref sig .tc := ⟨.hbm, 122, rfl⟩
abbrev main_call2_v14 : Ref sig .tc := ⟨.hbm, 123, rfl⟩
abbrev main_call2_cst : Ref sig .tc := ⟨.hbm, 124, rfl⟩
abbrev main_call2_v15 : Ref sig .tc := ⟨.hbm, 125, rfl⟩
abbrev main_v29 : Ref sig .tc := ⟨.hbm, 126, rfl⟩
abbrev main_cst_7 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_v33 : Ref sig .tc := ⟨.hbm, 131, rfl⟩
abbrev main_call3_c : Ref sig .tc := ⟨.hbm, 132, rfl⟩
abbrev main_call3_v0 : Ref sig .tc := ⟨.hbm, 133, rfl⟩
abbrev main_call3_v1 : Ref sig .tc := ⟨.hbm, 134, rfl⟩
abbrev main_call3_c_0 : Ref sig .tc := ⟨.hbm, 135, rfl⟩
abbrev main_call3_v2 : Ref sig .tc := ⟨.hbm, 136, rfl⟩
abbrev main_call3_v3 : Ref sig .tc := ⟨.hbm, 137, rfl⟩
abbrev main_call3_v4 : Ref sig .tc := ⟨.hbm, 138, rfl⟩
abbrev main_call3_v5 : Ref sig .tc := ⟨.hbm, 139, rfl⟩
abbrev main_call3_c_1 : Ref sig .tc := ⟨.hbm, 140, rfl⟩
abbrev main_call3_c_2 : Ref sig .tc := ⟨.hbm, 141, rfl⟩
abbrev main_call3_v6 : Ref sig .tc := ⟨.hbm, 142, rfl⟩
abbrev main_call3_v7 : Ref sig .tc := ⟨.hbm, 143, rfl⟩
abbrev main_call3_v8 : Ref sig .tc := ⟨.hbm, 144, rfl⟩
abbrev main_call3_v9 : Ref sig .tc := ⟨.hbm, 145, rfl⟩
abbrev main_call3_v10 : Ref sig .tc := ⟨.hbm, 146, rfl⟩
abbrev main_call3_v11 : Ref sig .tc := ⟨.hbm, 147, rfl⟩
abbrev main_call3_c_3 : Ref sig .tc := ⟨.hbm, 148, rfl⟩
abbrev main_call3_v12 : Ref sig .tc := ⟨.hbm, 149, rfl⟩
abbrev main_call3_v13 : Ref sig .tc := ⟨.hbm, 150, rfl⟩
abbrev main_call3_v14 : Ref sig .tc := ⟨.hbm, 151, rfl⟩
abbrev main_call3_cst : Ref sig .tc := ⟨.hbm, 152, rfl⟩
abbrev main_call3_v15 : Ref sig .tc := ⟨.hbm, 153, rfl⟩
abbrev main_v34 : Ref sig .tc := ⟨.hbm, 154, rfl⟩
abbrev main_cst_8 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_v38 : Ref sig .tc := ⟨.hbm, 159, rfl⟩
abbrev main_call4_c : Ref sig .tc := ⟨.hbm, 160, rfl⟩
abbrev main_call4_v0 : Ref sig .tc := ⟨.hbm, 161, rfl⟩
abbrev main_call4_v1 : Ref sig .tc := ⟨.hbm, 162, rfl⟩
abbrev main_call4_c_0 : Ref sig .tc := ⟨.hbm, 163, rfl⟩
abbrev main_call4_v2 : Ref sig .tc := ⟨.hbm, 164, rfl⟩
abbrev main_call4_v3 : Ref sig .tc := ⟨.hbm, 165, rfl⟩
abbrev main_call4_v4 : Ref sig .tc := ⟨.hbm, 166, rfl⟩
abbrev main_call4_v5 : Ref sig .tc := ⟨.hbm, 167, rfl⟩
abbrev main_call4_c_1 : Ref sig .tc := ⟨.hbm, 168, rfl⟩
abbrev main_call4_c_2 : Ref sig .tc := ⟨.hbm, 169, rfl⟩
abbrev main_call4_v6 : Ref sig .tc := ⟨.hbm, 170, rfl⟩
abbrev main_call4_v7 : Ref sig .tc := ⟨.hbm, 171, rfl⟩
abbrev main_call4_v8 : Ref sig .tc := ⟨.hbm, 172, rfl⟩
abbrev main_call4_v9 : Ref sig .tc := ⟨.hbm, 173, rfl⟩
abbrev main_call4_v10 : Ref sig .tc := ⟨.hbm, 174, rfl⟩
abbrev main_call4_v11 : Ref sig .tc := ⟨.hbm, 175, rfl⟩
abbrev main_call4_c_3 : Ref sig .tc := ⟨.hbm, 176, rfl⟩
abbrev main_call4_v12 : Ref sig .tc := ⟨.hbm, 177, rfl⟩
abbrev main_call4_v13 : Ref sig .tc := ⟨.hbm, 178, rfl⟩
abbrev main_call4_v14 : Ref sig .tc := ⟨.hbm, 179, rfl⟩
abbrev main_call4_cst : Ref sig .tc := ⟨.hbm, 180, rfl⟩
abbrev main_call4_v15 : Ref sig .tc := ⟨.hbm, 181, rfl⟩
abbrev main_v39 : Ref sig .tc := ⟨.hbm, 182, rfl⟩
abbrev main_cst_9 : Ref sig .tc := ⟨.hbm, 183, rfl⟩
abbrev main_v40 : Ref sig .tc := ⟨.hbm, 184, rfl⟩
abbrev main_v41 : Ref sig .tc := ⟨.hbm, 185, rfl⟩
abbrev main_v42 : Ref sig .tc := ⟨.hbm, 186, rfl⟩
abbrev main_v43 : Ref sig .tc := ⟨.hbm, 187, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg5_0 : Ref sig .tc := ⟨.vmem, 27, rfl⟩
abbrev cc2_stg6_0 : Ref sig .tc := ⟨.vmem, 28, rfl⟩
abbrev cc2_stg6_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg2_1 : Ref sig .tc := ⟨.vmem, 35, rfl⟩
abbrev cc3_stg3_0 : Ref sig .tc := ⟨.vmem, 36, rfl⟩
abbrev cc3_stg4_0 : Ref sig .tc := ⟨.vmem, 37, rfl⟩
abbrev cc3_stg5_0 : Ref sig .tc := ⟨.vmem, 38, rfl⟩
abbrev cc3_stg6_0 : Ref sig .tc := ⟨.vmem, 39, rfl⟩
abbrev cc3_stg7_0 : Ref sig .tc := ⟨.vmem, 40, rfl⟩
abbrev cc3_stg8_0 : Ref sig .tc := ⟨.vmem, 41, rfl⟩
abbrev cc3_stg8_1 : Ref sig .tc := ⟨.vmem, 42, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem2_1 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem4_0 : DmaSem sig := 26
abbrev cc2_sem5_0 : DmaSem sig := 27
abbrev cc2_sem6_0 : DmaSem sig := 28
abbrev cc2_sem6_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem2_1 : DmaSem sig := 35
abbrev cc3_sem3_0 : DmaSem sig := 36
abbrev cc3_sem4_0 : DmaSem sig := 37
abbrev cc3_sem5_0 : DmaSem sig := 38
abbrev cc3_sem6_0 : DmaSem sig := 39
abbrev cc3_sem7_0 : DmaSem sig := 40
abbrev cc3_sem8_0 : DmaSem sig := 41
abbrev cc3_sem8_1 : DmaSem sig := 42

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S10000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S10000x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_8 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S10000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S128 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S128x32 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S32 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 2 → Memref sig .tc .vmem S10000x32 .f32 := fun | 0 => Memref.whole cc3_stg8_0 | 1 => Memref.whole cc3_stg8_1 | ⟨_ + 2, h⟩ => absurd h (Nat.not_lt.2 (Nat.le_add_left _ _))
abbrev sem3_8 : Fin 2 → DmaSem sig := fun | 0 => cc3_sem8_0 | 1 => cc3_sem8_1 | ⟨_ + 2, h⟩ => absurd h (Nat.not_lt.2 (Nat.le_add_left _ _))
abbrev reads3_8 : Fin grid3.rank → Bool := ![true]

class Facts₀ : Prop where
  bcast_S_S100000 : S_.BroadcastsInDim S100000 (![] : Fin 0 → Fin S100000.rank)
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  reducesTo_S100000x1_S100000_d1 : S100000x1.ReducesTo [1] S100000
  h_S_ : 0 < S_.numel
  bcast_S100000_S100000x128_0 : S100000.BroadcastsInDim S100000x128 (![0] : Fin 1 → Fin S100000x128.rank)
  bcast_S_S100000x128 : S_.BroadcastsInDim S100000x128 (![] : Fin 0 → Fin S100000x128.rank)
  inb_S10000x64_S10000x64_0_0 : ∀ a, (![0, 0] : Fin 2 → Nat) a + S10000x64.size a ≤ S10000x64.size a
  h_S10000x64 : 0 < S10000x64.numel
  inb_S64x128_S64x128_0_0 : ∀ a, (![0, 0] : Fin 2 → Nat) a + S64x128.size a ≤ S64x128.size a
  h_S64x128 : 0 < S64x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S400000x1 : S_.BroadcastsInDim S400000x1 (![] : Fin 0 → Fin S400000x1.rank)
  bcast_S1x1_S400000x1_0_1 : S1x1.BroadcastsInDim S400000x1 (![0, 1] : Fin 2 → Fin S400000x1.rank)
  reducesTo_S400000x1_S400000_d1 : S400000x1.ReducesTo [1] S400000
  bcast_S400000_S400000x128_0 : S400000.BroadcastsInDim S400000x128 (![0] : Fin 1 → Fin S400000x128.rank)
  bcast_S_S400000x128 : S_.BroadcastsInDim S400000x128 (![] : Fin 0 → Fin S400000x128.rank)
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  inb_S128x32_S128x32_0_0 : ∀ a, (![0, 0] : Fin 2 → Nat) a + S128x32.size a ≤ S128x32.size a
  h_S128x32 : 0 < S128x32.numel
  inb_S32_S32_0 : ∀ a, (![0] : Fin 1 → Nat) a + S32.size a ≤ S32.size a
  h_S32 : 0 < S32.numel
  shapeCasts_S32_S1x32 : S32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  gather_S100000x128_S100000x1_S100000x128_1_0_n_n_0_1_1128_wf : GatherDims.WF S100000x128 S100000x1 S100000x128 [1] [0] [] [0] [] 1 ![1, 128]
  dot_S10000x64_S64x128_S10000x128_1_0_0_1_n_n_wf : DotDims.WF S10000x64 S64x128 S10000x128 [1] [0] [0] [1] [] []
  scatter_S100000_S400000x1_S400000_n_0_0_1_wf : ScatterDims.WF S100000 S400000x1 S400000 [] [0] [0] 1
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  dot_S10000x128_S128x128_S10000x128_1_0_0_1_n_n_wf : DotDims.WF S10000x128 S128x128 S10000x128 [1] [0] [0] [1] [] []
  dot_S10000x128_S128x32_S10000x32_1_0_0_1_n_n_wf : DotDims.WF S10000x128 S128x32 S10000x32 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .f32 = 32 ∨ (Rect.block (s := S100000x128) S10000x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S10000x128.size a ≤ S100000x128.size a
  hwx0_4 : ∀ i : grid0.Coords, EltTy.bits .f32 = 32 ∨ (Rect.block (s := S100000x128) S10000x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128.size a ≤ S128.size a
  hwx2_5 : ∀ i : grid2.Coords, EltTy.bits .f32 = 32 ∨ (Rect.block (s := S128) S128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S10000x128.size a ≤ S100000x128.size a
  hwx2_6 : ∀ i : grid2.Coords, EltTy.bits .f32 = 32 ∨ (Rect.block (s := S100000x128) S10000x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S10000x1.size a ≤ S100000x1.size a
  hwx3_1 : ∀ i : grid3.Coords, EltTy.bits .f32 = 32 ∨ (Rect.block (s := S100000x1) S10000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .f32 = 32 ∨ (Rect.block (s := S128x128) S128x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x128.size a ≤ S128x128.size a
  hwx3_4 : ∀ i : grid3.Coords, EltTy.bits .f32 = 32 ∨ (Rect.block (s := S128x128) S128x128.size (cc3_transform_4 i) (hinb3_4 i)).WholeWords (EltTy.packing .f32)
  hstage3_5 : ∀ j, (stage3_5 j).IsWhole
  nbuf3_5 : grid3.bufCount reads3_5 true = 1
  hreads3_5 : ∀ i i' : grid3.Coords, (∀ a, reads3_5 a = true → i a = i' a) → cc3_transform_5 i = cc3_transform_5 i'
  hinb3_5 : ∀ (i : grid3.Coords) a, (cc3_transform_5 i a + 1) * S128.size a ≤ S128.size a
  hwx3_5 : ∀ i : grid3.Coords, EltTy.bits .f32 = 32 ∨ (Rect.block (s := S128) S128.size (cc3_transform_5 i) (hinb3_5 i)).WholeWords (EltTy.packing .f32)
  hstage3_6 : ∀ j, (stage3_6 j).IsWhole
  nbuf3_6 : grid3.bufCount reads3_6 true = 1
  hreads3_6 : ∀ i i' : grid3.Coords, (∀ a, reads3_6 a = true → i a = i' a) → cc3_transform_6 i = cc3_transform_6 i'
  hinb3_6 : ∀ (i : grid3.Coords) a, (cc3_transform_6 i a + 1) * S128x32.size a ≤ S128x32.size a
  hwx3_6 : ∀ i : grid3.Coords, EltTy.bits .f32 = 32 ∨ (Rect.block (s := S128x32) S128x32.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S32.size a ≤ S32.size a
  hwx3_7 : ∀ i : grid3.Coords, EltTy.bits .f32 = 32 ∨ (Rect.block (s := S32) S32.size (cc3_transform_7 i) (hinb3_7 i)).WholeWords (EltTy.packing .f32)
  hstage3_8 : ∀ j, (stage3_8 j).IsWhole
  nbuf3_8 : grid3.bufCount reads3_8 false = 2
  hreads3_8 : ∀ i i' : grid3.Coords, (∀ a, reads3_8 a = true → i a = i' a) → cc3_transform_8 i = cc3_transform_8 i'
  hinb3_8 : ∀ (i : grid3.Coords) a, (cc3_transform_8 i a + 1) * S10000x32.size a ≤ S100000x32.size a
  hwx3_8 : ∀ i : grid3.Coords, EltTy.bits .f32 = 32 ∨ (Rect.block (s := S100000x32) S10000x32.size (cc3_transform_8 i) (hinb3_8 i)).WholeWords (EltTy.packing .f32)

variable [Facts₀]

def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def scatter_S100000_S400000x1_S400000_n_0_0_1 : ScatterDims S100000 S400000x1 S400000 where
  updateWindowDims := []
  insertedWindowDims := [0]
  scatterDimsToOperandDims := [0]
  indexVectorDim := 1
  wf := scatter_S100000_S400000x1_S400000_n_0_0_1_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S10000x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v32) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v23) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v1) S10000x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg14) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg15) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg16) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v33) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v28) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2) S10000x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_arg11) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg12) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg13) S128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v38) S10000x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v42) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v23) S10000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v33) S10000x128.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg20) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg21) S128x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_arg22) S128.size cc3_transform_5 reads3_5 false true 1 stage3_5 sem3_5
    hrank3 hreads3_5 hinb3_5 nbuf3_5 (Memref.isWhole_whole _) hwx3_5 hstage3_5

abbrev win3_6 : Pipeline.Window sig grid3 :=
  Pipeline.Window.ofSpec (Memref.whole main_arg9) S128x32.size cc3_transform_6 reads3_6 false true 1 stage3_6 sem3_6
    hrank3 hreads3_6 hinb3_6 nbuf3_6 (Memref.isWhole_whole _) hwx3_6 hstage3_6

abbrev win3_7 : Pipeline.Window sig grid3 :=
  Pipeline.Window.ofSpec (Memref.whole main_arg10) S32.size cc3_transform_7 reads3_7 false true 1 stage3_7 sem3_7
    hrank3 hreads3_7 hinb3_7 nbuf3_7 (Memref.isWhole_whole _) hwx3_7 hstage3_7

abbrev win3_8 : Pipeline.Window sig grid3 :=
  Pipeline.Window.ofSpec (Memref.whole main_v43) S10000x32.size cc3_transform_8 reads3_8 true false 2 stage3_8 sem3_8
    hrank3 hreads3_8 hinb3_8 nbuf3_8 (Memref.isWhole_whole _) hwx3_8 hstage3_8

abbrev win3 : Fin 9 → Pipeline.Window sig grid3 := fun | 0 => win3_0 | 1 => win3_1 | 2 => win3_2 | 3 => win3_3 | 4 => win3_4 | 5 => win3_5 | 6 => win3_6 | 7 => win3_7 | 8 => win3_8 | ⟨_ + 9, h⟩ => absurd h (Nat.not_lt.2 (Nat.le_add_left _ _))
abbrev spec3 : Fin 9 → Pipeline.WinSpec sig grid3.rank := fun w => (win3 w).toWinSpec

class Facts : Prop extends Facts₀ where

variable [Facts]
-- ==== ReferenceIdeal.lean ====
abbrev S100000x64 : Shape := ⟨2, ![100000, 64]⟩
abbrev S100000 : Shape := ⟨1, ![100000]⟩
abbrev S2x400000 : Shape := ⟨2, ![2, 400000]⟩
abbrev S100000x128 : Shape := ⟨2, ![100000, 128]⟩
abbrev S64x128 : Shape := ⟨2, ![64, 128]⟩
abbrev S128 : Shape := ⟨1, ![128]⟩
abbrev S128x32 : Shape := ⟨2, ![128, 32]⟩
abbrev S32 : Shape := ⟨1, ![32]⟩
abbrev S128x128 : Shape := ⟨2, ![128, 128]⟩
abbrev S1x128 : Shape := ⟨2, ![1, 128]⟩
abbrev S_ : Shape := ⟨0, ![]⟩
abbrev S100000x1 : Shape := ⟨2, ![100000, 1]⟩
abbrev S1x400000 : Shape := ⟨2, ![1, 400000]⟩
abbrev S400000 : Shape := ⟨1, ![400000]⟩
abbrev S400000x1 : Shape := ⟨2, ![400000, 1]⟩
abbrev S400000x128 : Shape := ⟨2, ![400000, 128]⟩
abbrev S100000x32 : Shape := ⟨2, ![100000, 32]⟩
abbrev S1x32 : Shape := ⟨2, ![1, 32]⟩

abbrev nBuf : Space → Nat
  | .hbm => 190
  | .vmem => 0
  | .smem => 0
  | _ => 0

abbrev hbmTy0_0 (i : Nat) : BufTy := match i % 128 with
  | 0 => ⟨S100000x64, .f32⟩
  | 1 => ⟨S100000, .i32⟩
  | 2 => ⟨S100000, .i32⟩
  | 3 => ⟨S2x400000, .i32⟩
  | 4 => ⟨S2x400000, .i32⟩
  | 5 => ⟨S100000x128, .f32⟩
  | 6 => ⟨S100000x128, .f32⟩
  | 7 => ⟨S64x128, .f32⟩
  | 8 => ⟨S128, .f32⟩
  | 9 => ⟨S128x32, .f32⟩
  | 10 => ⟨S32, .f32⟩
  | 11 => ⟨S128x128, .f32⟩
  | 12 => ⟨S128x128, .f32⟩
  | 13 => ⟨S128, .f32⟩
  | 14 => ⟨S128x128, .f32⟩
  | 15 => ⟨S128x128, .f32⟩
  | 16 => ⟨S128, .f32⟩
  | 17 => ⟨S128x128, .f32⟩
  | 18 => ⟨S128x128, .f32⟩
  | 19 => ⟨S128, .f32⟩
  | 20 => ⟨S128x128, .f32⟩
  | 21 => ⟨S128x128, .f32⟩
  | 22 => ⟨S128, .f32⟩
  | 23 => ⟨S100000x128, .f32⟩
  | 24 => ⟨S1x128, .f32⟩
  | 25 => ⟨S100000x128, .f32⟩
  | 26 => ⟨S100000x128, .f32⟩
  | 27 => ⟨S_, .i32⟩
  | 28 => ⟨S100000, .i32⟩
  | 29 => ⟨S100000, .i1⟩
  | 30 => ⟨S_, .i32⟩
  | 31 => ⟨S100000, .i32⟩
  | 32 => ⟨S100000, .i32⟩
  | 33 => ⟨S100000, .i32⟩
  | 34 => ⟨S100000x1, .i32⟩
  | 35 => ⟨S100000x128, .f32⟩
  | 36 => ⟨S100000x128, .f32⟩
  | 37 => ⟨S_, .i32⟩
  | 38 => ⟨S100000, .i32⟩
  | 39 => ⟨S100000, .i1⟩
  | 40 => ⟨S_, .i32⟩
  | 41 => ⟨S100000, .i32⟩
  | 42 => ⟨S100000, .i32⟩
  | 43 => ⟨S100000, .i32⟩
  | 44 => ⟨S100000x1, .i32⟩
  | 45 => ⟨S100000x128, .f32⟩
  | 46 => ⟨S1x400000, .i32⟩
  | 47 => ⟨S400000, .i32⟩
  | 48 => ⟨S1x400000, .i32⟩
  | 49 => ⟨S400000, .i32⟩
  | 50 => ⟨S1x400000, .i32⟩
  | 51 => ⟨S400000, .i32⟩
  | 52 => ⟨S1x400000, .i32⟩
  | 53 => ⟨S400000, .i32⟩
  | 54 => ⟨S_, .i32⟩
  | 55 => ⟨S400000, .i32⟩
  | 56 => ⟨S400000, .i1⟩
  | 57 => ⟨S_, .i32⟩
  | 58 => ⟨S400000, .i32⟩
  | 59 => ⟨S400000, .i32⟩
  | 60 => ⟨S400000, .i32⟩
  | 61 => ⟨S400000x1, .i32⟩
  | 62 => ⟨S400000x128, .f32⟩
  | 63 => ⟨S_, .f32⟩
  | 64 => ⟨S100000x128, .f32⟩
  | 65 => ⟨S400000x1, .i32⟩
  | 66 => ⟨S100000x128, .f32⟩
  | 67 => ⟨S_, .f32⟩
  | 68 => ⟨S400000x1, .f32⟩
  | 69 => ⟨S_, .f32⟩
  | 70 => ⟨S100000x1, .f32⟩
  | 71 => ⟨S400000x1, .i32⟩
  | 72 => ⟨S100000x1, .f32⟩
  | 73 => ⟨S_, .f32⟩
  | 74 => ⟨S100000x1, .f32⟩
  | 75 => ⟨S100000x1, .f32⟩
  | 76 => ⟨S100000x128, .f32⟩
  | 77 => ⟨S100000x128, .f32⟩
  | 78 => ⟨S100000x128, .f32⟩
  | 79 => ⟨S100000x128, .f32⟩
  | 80 => ⟨S100000x128, .f32⟩
  | 81 => ⟨S1x128, .f32⟩
  | 82 => ⟨S100000x128, .f32⟩
  | 83 => ⟨S100000x128, .f32⟩
  | 84 => ⟨S_, .f32⟩
  | 85 => ⟨S100000x128, .f32⟩
  | 86 => ⟨S100000x128, .f32⟩
  | 87 => ⟨S_, .i32⟩
  | 88 => ⟨S400000, .i32⟩
  | 89 => ⟨S400000, .i1⟩
  | 90 => ⟨S_, .i32⟩
  | 91 => ⟨S400000, .i32⟩
  | 92 => ⟨S400000, .i32⟩
  | 93 => ⟨S400000, .i32⟩
  | 94 => ⟨S400000x1, .i32⟩
  | 95 => ⟨S400000x128, .f32⟩
  | 96 => ⟨S_, .f32⟩
  | 97 => ⟨S100000x128, .f32⟩
  | 98 => ⟨S400000x1, .i32⟩
  | 99 => ⟨S100000x128, .f32⟩
  | 100 => ⟨S_, .f32⟩
  | 101 => ⟨S400000x1, .f32⟩
  | 102 => ⟨S_, .f32⟩
  | 103 => ⟨S100000x1, .f32⟩
  | 104 => ⟨S400000x1, .i32⟩
  | 105 => ⟨S100000x1, .f32⟩
  | 106 => ⟨S_, .f32⟩
  | 107 => ⟨S100000x1, .f32⟩
  | 108 => ⟨S100000x1, .f32⟩
  | 109 => ⟨S100000x128, .f32⟩
  | 110 => ⟨S100000x128, .f32⟩
  | 111 => ⟨S100000x128, .f32⟩
  | 112 => ⟨S100000x128, .f32⟩
  | 113 => ⟨S100000x128, .f32⟩
  | 114 => ⟨S1x128, .f32⟩
  | 115 => ⟨S100000x128, .f32⟩
  | 116 => ⟨S100000x128, .f32⟩
  | 117 => ⟨S_, .f32⟩
  | 118 => ⟨S100000x128, .f32⟩
  | 119 => ⟨S100000x128, .f32⟩
  | 120 => ⟨S_, .i32⟩
  | 121 => ⟨S400000, .i32⟩
  | 122 => ⟨S400000, .i1⟩
  | 123 => ⟨S_, .i32⟩
  | 124 => ⟨S400000, .i32⟩
  | 125 => ⟨S400000, .i32⟩
  | 126 => ⟨S400000, .i32⟩
  | 127 => ⟨S400000x1, .i32⟩
  | _ => ⟨S100000x64, .f32⟩

abbrev hbmTy0_1 (i : Nat) : BufTy := match i % 128 with
  | 0 => ⟨S400000x128, .f32⟩
  | 1 => ⟨S_, .f32⟩
  | 2 => ⟨S100000x128, .f32⟩
  | 3 => ⟨S400000x1, .i32⟩
  | 4 => ⟨S100000x128, .f32⟩
  | 5 => ⟨S_, .f32⟩
  | 6 => ⟨S400000x1, .f32⟩
  | 7 => ⟨S_, .f32⟩
  | 8 => ⟨S100000x1, .f32⟩
  | 9 => ⟨S400000x1, .i32⟩
  | 10 => ⟨S100000x1, .f32⟩
  | 11 => ⟨S_, .f32⟩
  | 12 => ⟨S100000x1, .f32⟩
  | 13 => ⟨S100000x1, .f32⟩
  | 14 => ⟨S100000x128, .f32⟩
  | 15 => ⟨S100000x128, .f32⟩
  | 16 => ⟨S100000x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S_, .f32⟩
  | 23 => ⟨S100000x128, .f32⟩
  | 24 => ⟨S100000x128, .f32⟩
  | 25 => ⟨S_, .i32⟩
  | 26 => ⟨S400000, .i32⟩
  | 27 => ⟨S400000, .i1⟩
  | 28 => ⟨S_, .i32⟩
  | 29 => ⟨S400000, .i32⟩
  | 30 => ⟨S400000, .i32⟩
  | 31 => ⟨S400000, .i32⟩
  | 32 => ⟨S400000x1, .i32⟩
  | 33 => ⟨S400000x128, .f32⟩
  | 34 => ⟨S_, .f32⟩
  | 35 => ⟨S100000x128, .f32⟩
  | 36 => ⟨S400000x1, .i32⟩
  | 37 => ⟨S100000x128, .f32⟩
  | 38 => ⟨S_, .f32⟩
  | 39 => ⟨S400000x1, .f32⟩
  | 40 => ⟨S_, .f32⟩
  | 41 => ⟨S100000x1, .f32⟩
  | 42 => ⟨S400000x1, .i32⟩
  | 43 => ⟨S100000x1, .f32⟩
  | 44 => ⟨S_, .f32⟩
  | 45 => ⟨S100000x1, .f32⟩
  | 46 => ⟨S100000x1, .f32⟩
  | 47 => ⟨S100000x128, .f32⟩
  | 48 => ⟨S100000x128, .f32⟩
  | 49 => ⟨S100000x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S_, .f32⟩
  | 56 => ⟨S100000x128, .f32⟩
  | 57 => ⟨S100000x128, .f32⟩
  | 58 => ⟨S100000x32, .f32⟩
  | 59 => ⟨S1x32, .f32⟩
  | 60 => ⟨S100000x32, .f32⟩
  | 61 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_c_1 : Ref sig .tc := ⟨.hbm, 37, rfl⟩
abbrev main_v12 : Ref sig .tc := ⟨.hbm, 38, rfl⟩
abbrev main_v13 : Ref sig .tc := ⟨.hbm, 39, rfl⟩
abbrev main_c_2 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_3 : Ref sig .tc := ⟨.hbm, 54, rfl⟩
abbrev main_v27 : Ref sig .tc := ⟨.hbm, 55, rfl⟩
abbrev main_v28 : Ref sig .tc := ⟨.hbm, 56, rfl⟩
abbrev main_c_4 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_cst : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_cst_5 : Ref sig .tc := ⟨.hbm, 67, rfl⟩
abbrev main_v37 : Ref sig .tc := ⟨.hbm, 68, rfl⟩
abbrev main_cst_6 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_cst_7 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_call0_cst : Ref sig .tc := ⟨.hbm, 84, rfl⟩
abbrev main_call0_v0 : Ref sig .tc := ⟨.hbm, 85, rfl⟩
abbrev main_v51 : Ref sig .tc := ⟨.hbm, 86, rfl⟩
abbrev main_c_8 : Ref sig .tc := ⟨.hbm, 87, rfl⟩
abbrev main_v52 : Ref sig .tc := ⟨.hbm, 88, rfl⟩
abbrev main_v53 : Ref sig .tc := ⟨.hbm, 89, rfl⟩
abbrev main_c_9 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_cst_10 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_cst_11 : Ref sig .tc := ⟨.hbm, 100, rfl⟩
abbrev main_v62 : Ref sig .tc := ⟨.hbm, 101, rfl⟩
abbrev main_cst_12 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_13 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_call1_cst : Ref sig .tc := ⟨.hbm, 117, rfl⟩
abbrev main_call1_v0 : Ref sig .tc := ⟨.hbm, 118, rfl⟩
abbrev main_v76 : Ref sig .tc := ⟨.hbm, 119, rfl⟩
abbrev main_c_14 : Ref sig .tc := ⟨.hbm, 120, rfl⟩
abbrev main_v77 : Ref sig .tc := ⟨.hbm, 121, rfl⟩
abbrev main_v78 : Ref sig .tc := ⟨.hbm, 122, rfl⟩
abbrev main_c_15 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_cst_16 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_cst_17 : Ref sig .tc := ⟨.hbm, 133, rfl⟩
abbrev main_v87 : Ref sig .tc := ⟨.hbm, 134, rfl⟩
abbrev main_cst_18 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_cst_19 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_call2_cst : Ref sig .tc := ⟨.hbm, 150, rfl⟩
abbrev main_call2_v0 : Ref sig .tc := ⟨.hbm, 151, rfl⟩
abbrev main_v101 : Ref sig .tc := ⟨.hbm, 152, rfl⟩
abbrev main_c_20 : Ref sig .tc := ⟨.hbm, 153, rfl⟩
abbrev main_v102 : Ref sig .tc := ⟨.hbm, 154, rfl⟩
abbrev main_v103 : Ref sig .tc := ⟨.hbm, 155, rfl⟩
abbrev main_c_21 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩
abbrev main_cst_22 : Ref sig .tc := ⟨.hbm, 162, rfl⟩
abbrev main_v109 : Ref sig .tc := ⟨.hbm, 163, rfl⟩
abbrev main_v110 : Ref sig .tc := ⟨.hbm, 164, rfl⟩
abbrev main_v111 : Ref sig .tc := ⟨.hbm, 165, rfl⟩
abbrev main_cst_23 : Ref sig .tc := ⟨.hbm, 166, rfl⟩
abbrev main_v112 : Ref sig .tc := ⟨.hbm, 167, rfl⟩
abbrev main_cst_24 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_cst_25 : Ref sig .tc := ⟨.hbm, 172, rfl⟩
abbrev main_v116 : Ref sig .tc := ⟨.hbm, 173, rfl⟩
abbrev main_v117 : Ref sig .tc := ⟨.hbm, 174, rfl⟩
abbrev main_v118 : Ref sig .tc := ⟨.hbm, 175, rfl⟩
abbrev main_v119 : Ref sig .tc := ⟨.hbm, 176, rfl⟩
abbrev main_v120 : Ref sig .tc := ⟨.hbm, 177, rfl⟩
abbrev main_v121 : Ref sig .tc := ⟨.hbm, 178, rfl⟩
abbrev main_v122 : Ref sig .tc := ⟨.hbm, 179, rfl⟩
abbrev main_v123 : Ref sig .tc := ⟨.hbm, 180, rfl⟩
abbrev main_v124 : Ref sig .tc := ⟨.hbm, 181, rfl⟩
abbrev main_v125 : Ref sig .tc := ⟨.hbm, 182, rfl⟩
abbrev main_call3_cst : Ref sig .tc := ⟨.hbm, 183, rfl⟩
abbrev main_call3_v0 : Ref sig .tc := ⟨.hbm, 184, rfl⟩
abbrev main_v126 : Ref sig .tc := ⟨.hbm, 185, rfl⟩
abbrev main_v127 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  slices_S2x400000_S1x400000_0_0 : S2x400000.Slices ![0, 0] S1x400000
  shapeCasts_S1x400000_S400000 : S1x400000.ShapeCasts S400000
  slices_S2x400000_S1x400000_1_0 : S2x400000.Slices ![1, 0] S1x400000
  bcast_S_S400000 : S_.BroadcastsInDim S400000 (![] : Fin 0 → Fin S400000.rank)
  bcast_S400000_S400000x1_0 : S400000.BroadcastsInDim S400000x1 (![0] : Fin 1 → Fin S400000x1.rank)
  bcast_S_S100000x128 : S_.BroadcastsInDim S100000x128 (![] : Fin 0 → Fin S100000x128.rank)
  bcast_S_S400000x1 : S_.BroadcastsInDim S400000x1 (![] : Fin 0 → Fin S400000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x64_S64x128_S100000x128_1_0_0_1_n_n_wf : DotDims.WF S100000x64 S64x128 S100000x128 [1] [0] [0] [1] [] []
  gather_S100000x128_S100000x1_S100000x128_1_0_n_n_0_1_1128_wf : GatherDims.WF S100000x128 S100000x1 S100000x128 [1] [0] [] [0] [] 1 ![1, 128]
  gather_S100000x128_S400000x1_S400000x128_1_0_n_n_0_1_1128_wf : GatherDims.WF S100000x128 S400000x1 S400000x128 [1] [0] [] [0] [] 1 ![1, 128]
  scatter_S100000x128_S400000x1_S400000x128_1_0_0_1_wf : ScatterDims.WF S100000x128 S400000x1 S400000x128 [1] [0] [0] 1
  scatter_S100000x1_S400000x1_S400000x1_1_0_0_1_wf : ScatterDims.WF S100000x1 S400000x1 S400000x1 [1] [0] [0] 1
  dot_S100000x128_S128x128_S100000x128_1_0_0_1_n_n_wf : DotDims.WF S100000x128 S128x128 S100000x128 [1] [0] [0] [1] [] []
  dot_S100000x128_S128x32_S100000x32_1_0_0_1_n_n_wf : DotDims.WF S100000x128 S128x32 S100000x32 [1] [0] [0] [1] [] []

variable [Facts₀]

def dot_S100000x64_S64x128_S100000x128_1_0_0_1_n_n : DotDims S100000x64 S64x128 S100000x128 where
  lhsContracting := [1]
  rhsContracting := [0]
  lhsNonContracting := [0]
  rhsNonContracting := [1]
  lhsBatch := []
  rhsBatch := []
  wf := dot_S100000x64_S64x128_S100000x128_1_0_0_1_n_n_wf
def gather_S100000x128_S100000x1_S100000x128_1_0_n_n_0_1_1128 : GatherDims S100000x128 S100000x1 S100000x128 where
  offsetDims := [1]
  collapsedSliceDims := [0]
  operandBatchingDims := []
  startIndicesBatchingDims := []
  startIndexMap := [0]
  indexVectorDim := 1
  sliceSizes := ![1, 128]
  wf := gather_S100000x128_S100000x1_S100000x128_1_0_n_n_0_1_1128_wf
def gather_S100000x128_S400000x1_S400000x128_1_0_n_n_0_1_1128 : GatherDims S100000x128 S400000x1 S400000x128 where
  offsetDims := [1]
  collapsedSliceDims := [0]
  operandBatchingDims := []
  startIndicesBatchingDims := []
  startIndexMap := [0]
  indexVectorDim := 1
  sliceSizes := ![1, 128]
  wf := gather_S100000x128_S400000x1_S400000x128_1_0_n_n_0_1_1128_wf
def scatter_S100000x128_S400000x1_S400000x128_1_0_0_1 : ScatterDims S100000x128 S400000x1 S400000x128 where
  updateWindowDims := [1]
  insertedWindowDims := [0]
  scatterDimsToOperandDims := [0]
  indexVectorDim := 1
  wf := scatter_S100000x128_S400000x1_S400000x128_1_0_0_1_wf
def scatter_S100000x1_S400000x1_S400000x1_1_0_0_1 : ScatterDims S100000x1 S400000x1 S400000x1 where
  updateWindowDims := [1]
  insertedWindowDims := [0]
  scatterDimsToOperandDims := [0]
  indexVectorDim := 1
  wf := scatter_S100000x1_S400000x1_S400000x1_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf

class Facts : Prop extends Facts₀ where

variable [Facts]
-- ==== Proof.KFun.lean ====
/-
  The idealized kernel program's host side, as functions: what its stretches of host operations compute between the
  four kernel launches, each spelt with the program's own operations so that a boundary's contents read back as
  one of these by unfolding. `take` is a row gather that fills rows whose index is out of range; `segSum` adds
  rows of updates into the 100000 rows their segment ids name; `invDeg` is, per row, one over the larger of the
  number of updates landing there and one; `srcRow` / `dstRow` are the two rows of an edge list.
-/
import proofs.«415858_j28896539968211_2_alg».proof.Proof.Gen.KernelIdeal
import Idealize.ShloMosaic.PureOps

noncomputable section

namespace Cert.KernelIdeal.KFun

open Cert.KernelIdeal Cert.KernelIdeal.Gen Idealize.ShloMosaic

variable {F : FTy → Type} [FloatOps F]

/-- Row 0 of a 2 × 400000 edge list: the source ids. -/
def srcRow (a : IVec S2x400000 32) : IVec S400000 32 :=
  shapeCast S400000 (extractStridedSlice S1x400000 ![0, 0] a slices_S2x400000_S1x400000_0_0) shapeCasts_S1x400000_S400000

/-- Row 1 of a 2 × 400000 edge list: the destination (segment) ids. -/
def dstRow (a : IVec S2x400000 32) : IVec S400000 32 :=
  shapeCast S400000 (extractStridedSlice S1x400000 ![1, 0] a slices_S2x400000_S1x400000_1_0) shapeCasts_S1x400000_S400000

/-- A signed index with the negative ones moved up by the table's 100000 rows. -/
def wrap100 (idx : IVec S100000 32) : IVec S100000 32 :=
  select (cmpi .slt idx (broadcastInDim S100000 ![] bcast_S_S100000 (constantI S_ 32 0#32)))
    (addi idx (broadcastInDim S100000 ![] bcast_S_S100000 (constantI S_ 32 100000#32))) idx

/-- The wrapped indices as the one-column matrix the gather reads its start rows from. -/
def col100 (idx : IVec S100000 32) : IVec S100000x1 32 :=
  broadcastInDim S100000x1 ![0] bcast_S100000_S100000x1_0 (wrap100 idx)

/-- Per position, whether the wrapped index lies in 0 … 99999. -/
def inRange100 (idx : IVec S100000 32) : IVec S100000 1 :=
  Host.reduce IntOp.andi
    (andi (cmpi .sge (col100 idx) (broadcastInDim S100000x1 ![] bcast_S_S100000x1 (constantI S_ 32 0#32)))
      (cmpi .sle (col100 idx)
        (broadcastInDim S100000x1 ![0, 1] bcast_S1x1_S100000x1_0_1 (broadcastInDim S1x1 ![1] bcast_S1_S1x1_1 (constantI S1 32 99999#32)))))
    (constantI S_ 1 1#1) reducesTo_S100000x1_S100000_d1 h_S_

/-- Rows of a 100000-row table taken at 100000 indices: the gathered row where the wrapped index is in range, the fill word elsewhere. -/
def take100 (tbl : FVec F S100000x128 .f32) (idx : IVec S100000 32) : FVec F S100000x128 .f32 :=
  select (broadcastInDim S100000x128 ![0] bcast_S100000_S100000x128_0 (inRange100 idx))
    (Host.gather gather_S100000x128_S100000x1_S100000x128_1_0_n_n_0_1_1128 tbl (col100 idx))
    (broadcastInDim S100000x128 ![] bcast_S_S100000x128 (constant S_ .f32 0x7FC00000#32))

/-- A signed index with the negative ones moved up by the table's 100000 rows. -/
def wrap400 (idx : IVec S400000 32) : IVec S400000 32 :=
  select (cmpi .slt idx (broadcastInDim S400000 ![] bcast_S_S400000 (constantI S_ 32 0#32)))
    (addi idx (broadcastInDim S400000 ![] bcast_S_S400000 (constantI S_ 32 100000#32))) idx

/-- The wrapped indices as the one-column matrix the gather reads its start rows from. -/
def col400 (idx : IVec S400000 32) : IVec S400000x1 32 :=
  broadcastInDim S400000x1 ![0] bcast_S400000_S400000x1_0 (wrap400 idx)

/-- Per position, whether the wrapped index lies in 0 … 99999. -/
def inRange400 (idx : IVec S400000 32) : IVec S400000 1 :=
  Host.reduce IntOp.andi
    (andi (cmpi .sge (col400 idx) (broadcastInDim S400000x1 ![] bcast_S_S400000x1 (constantI S_ 32 0#32)))
      (cmpi .sle (col400 idx)
        (broadcastInDim S400000x1 ![0, 1] bcast_S1x1_S400000x1_0_1 (broadcastInDim S1x1 ![1] bcast_S1_S1x1_1 (constantI S1 32 99999#32)))))
    (constantI S_ 1 1#1) reducesTo_S400000x1_S400000_d1 h_S_

/-- Rows of a 100000-row table taken at 400000 indices: the gathered row where the wrapped index is in range, the fill word elsewhere. -/
def take400 (tbl : FVec F S100000x128 .f32) (idx : IVec S400000 32) : FVec F S400000x128 .f32 :=
  select (broadcastInDim S400000x128 ![0] bcast_S400000_S400000x128_0 (inRange400 idx))
    (Host.gather gather_S100000x128_S400000x1_S400000x128_1_0_n_n_0_1_1128 tbl (col400 idx))
    (broadcastInDim S400000x128 ![] bcast_S_S400000x128 (constant S_ .f32 0x7FC00000#32))

/-- The rows of `upd` summed into the 100000 rows their segment ids name, from zero. -/
def segSum (seg : IVec S400000 32) (upd : FVec F S400000x128 .f32) : FVec F S100000x128 .f32 :=
  Host.scatterAdd scatter_S100000x128_S400000x1_S400000x128_1_0_0_1
    (broadcastInDim S100000x128 ![] bcast_S_S100000x128 (constant S_ .f32 0x00000000#32))
    (broadcastInDim S400000x1 ![0] bcast_S400000_S400000x1_0 seg) upd

/-- Per row, how many of the 400000 segment ids name it. -/
def degree (seg : IVec S400000 32) : FVec F S100000 .f32 :=
  Host.scatterAdd scatter_S100000_S400000x1_S400000_n_0_0_1
    (broadcastInDim S100000 ![] bcast_S_S100000 (constant S_ .f32 0x00000000#32))
    (broadcastInDim S400000x1 ![0] bcast_S400000_S400000x1_0 seg)
    (broadcastInDim S400000 ![] bcast_S_S400000 (constant S_ .f32 0x3F800000#32))

/-- Per row, one over the larger of its degree and one, as a one-column matrix. -/
def invDeg (seg : IVec S400000 32) : FVec F S100000x1 .f32 :=
  broadcastInDim S100000x1 ![0] bcast_S100000_S100000x1_0
    (Host.divf (broadcastInDim S100000 ![] bcast_S_S100000 (constant S_ .f32 0x3F800000#32))
      (maximumf (degree seg) (broadcastInDim S100000 ![] bcast_S_S100000 (constant S_ .f32 0x3F800000#32))))

end Cert.KernelIdeal.KFun

end
-- ==== Proof.Spec.lean ====
/-
  The three dense stages of the two programs, as functions on the extended reals, entry by entry.

  A matrix is a function of its index; `dotAt x w p q` is entry (p, q) of the product x · w, the sum over the
  contracted coordinate. The input encoding adds a bias row and an embedding row to a product; a SAGE combine
  scales each aggregated row by one number of its own (the reciprocal degree), multiplies by the left weights,
  adds the destination features times the right weights and the bias row, and clips below at zero; the output
  projection is one more product plus a bias row. Every formula is row-local: row p of the result reads row p of
  the row-indexed operands only, which is why a block of rows of the result is the same formula of the blocks.
-/
import Idealize.ShloMosaic.Lib.ValueIdx
import Idealize.ShloMosaic.PureOps.Ideal.Laws

noncomputable section

namespace Cert.Spec

open Idealize.ShloMosaic Idealize.ShloMosaic.ValueIdx

/-- An n × d matrix of extended reals, as a function of its index. -/
abbrev Mat (n d : Nat) : Type := (⟨2, ![n, d]⟩ : Shape).Idx → EReal
/-- A row of d extended reals. -/
abbrev Row (d : Nat) : Type := (⟨1, ![d]⟩ : Shape).Idx → EReal

/-- Entry (p, q) of the product x · w. -/
def dotAt {n k d : Nat} (x : Mat n k) (w : Mat k d) (p : Fin n) (q : Fin d) : EReal :=
  ∑ κ : Fin k, x (ix2 p κ) * w (ix2 κ q)

/-- Entry (p, q) of x · w + b + e: the material encoding. -/
def encAt {n : Nat} (x : Mat n 64) (w : Mat 64 128) (b : Row 128) (e : Mat n 128) (p : Fin n) (q : Fin 128) : EReal :=
  (dotAt x w p q + b (ix1 q)) + e (ix2 p q)

/-- The material encoding, all entries. -/
def enc {n : Nat} (x : Mat n 64) (w : Mat 64 128) (b : Row 128) (e : Mat n 128) : Mat n 128 :=
  fun i => encAt x w b e (i 0) (i 1)

/-- Entry (p, q) of max (((agg ⊙ s) · wl + xd · wr) + b, 0), where row p of agg is scaled by s p: one SAGE combine. -/
def combAt {n : Nat} (agg : Mat n 128) (s : Mat n 1) (xd : Mat n 128) (wl wr : Mat 128 128) (b : Row 128)
    (p : Fin n) (q : Fin 128) : EReal :=
  max (((∑ κ : Fin 128, (agg (ix2 p κ) * s (ix2 p 0)) * wl (ix2 κ q)) + dotAt xd wr p q) + b (ix1 q)) 0

/-- One SAGE combine, all entries. -/
def comb {n : Nat} (agg : Mat n 128) (s : Mat n 1) (xd : Mat n 128) (wl wr : Mat 128 128) (b : Row 128) : Mat n 128 :=
  fun i => combAt agg s xd wl wr b (i 0) (i 1)

/-- Entry (p, q) of h · ow + ob: the output projection. -/
def projAt {n : Nat} (h : Mat n 128) (ow : Mat 128 32) (ob : Row 32) (p : Fin n) (q : Fin 32) : EReal :=
  dotAt h ow p q + ob (ix1 q)

/-- The output projection, all entries. -/
def proj {n : Nat} (h : Mat n 128) (ow : Mat 128 32) (ob : Row 32) : Mat n 32 :=
  fun i => projAt h ow ob (i 0) (i 1)

/-- The last combine with the projection applied to it. -/
def combProj {n : Nat} (agg : Mat n 128) (s : Mat n 1) (xd : Mat n 128) (wl wr : Mat 128 128) (b : Row 128)
    (ow : Mat 128 32) (ob : Row 32) : Mat n 32 :=
  proj (comb agg s xd wl wr b) ow ob

theorem enc_apply {n : Nat} (x : Mat n 64) (w : Mat 64 128) (b : Row 128) (e : Mat n 128) (p : Fin n) (q : Fin 128) :
    enc x w b e (ix2 p q) = encAt x w b e p q := rfl

theorem comb_apply {n : Nat} (agg : Mat n 128) (s : Mat n 1) (xd : Mat n 128) (wl wr : Mat 128 128) (b : Row 128)
    (p : Fin n) (q : Fin 128) : comb agg s xd wl wr b (ix2 p q) = combAt agg s xd wl wr b p q := rfl

theorem proj_apply {n : Nat} (h : Mat n 128) (ow : Mat 128 32) (ob : Row 32) (p : Fin n) (q : Fin 32) :
    proj h ow ob (ix2 p q) = projAt h ow ob p q := rfl

end Cert.Spec

end
-- ==== Proof.TraceTac.lean ====
/-
  One tactic for the bookkeeping of the fold: a stretch of host operations leaves a buffer that none of them
  writes as it found it.
-/
import Idealize.ShloMosaic.Lib.StableHlo.Run

namespace Cert.KernelIdeal.TraceTac

open Idealize.ShloMosaic

/-- Writing a value into a typed reference's buffer and reading it back is the identity, whatever the reference:
    the two transports run along one equation of types, forth and back. -/
theorem ofBuf_toBuf {sig : RefSig} {Val : EltTy → Type} {T : BufTy} (x : StableHlo.TRef sig T) (v : T.Contents Val) :
    x.ofBuf (x.toBuf v) = v := by
  obtain ⟨r, h, h2, h3⟩ := x
  subst h
  rfl

/-- A stretch of host operations leaves a buffer none of them writes as it found it: closes
    `StableHlo.after ops W b = W b` by listing the stretch's written buffers and comparing each with `b`. -/
macro "unwritten " ops:ident : tactic => `(tactic| (
  refine StableHlo.after_of_forall_not_mem _ _ (List.forall_iff_forall_mem.mp ?_)
  simp only [$ops:ident, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

end Cert.KernelIdeal.TraceTac
-- ==== Proof.KBody.lean ====
/-
  The three kernel bodies at a block of 10000 rows, entry by entry: each stores one value, and that value is the
  dense stage of `Spec` of the blocks it loaded — a matrix unit product into a zero accumulator is the plain sum
  over the contracted coordinate, a bias row is broadcast down the rows, the reciprocal-degree column across the
  columns, and clipping at zero is the maximum with the constant zero.
-/
import proofs.«415858_j28896539968211_2_alg».proof.Proof.Gen.KernelIdeal.Skeleton
import proofs.«415858_j28896539968211_2_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.KBody

open Cert.KernelIdeal Cert.KernelIdeal.Gen Idealize.ShloMosaic Idealize.ShloMosaic.ValueIdx

/-! ## Layout operations read at an entry -/

/-- A column `[a, 1]` broadcast across `b` columns reads, at `(p, c)`, the column's entry of row `p`. -/
private theorem broadcastTo_a1_ab_apply {α : Type} {a b : Nat} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A row `[b]` cast to `[1, b]` and broadcast down `a` rows reads, at `(p, q)`, the row's entry `q`. -/
private theorem biasRow_apply {α : Type} {a b : Nat} (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) :=
  (broadcastTo_1b_ab_apply _ h2 p q).trans (shapeCast_a_1a_apply v h1 0 q)

/-! ## The three products -/

/-! ### the encoding's product, 64 contracted coordinates -/

private theorem lhsA_0 (i : S10000x128.Idx) (q : dot_S10000x64_S64x128_S10000x128_1_0_0_1_n_n.contr.Idx) :
    (dot_S10000x64_S64x128_S10000x128_1_0_0_1_n_n.lhsIdx i q 0).val = (i 0).val := by
  unfold DotDims.lhsIdx
  rw [dif_neg (show ¬(0 : Fin S10000x64.rank) ∈ dot_S10000x64_S64x128_S10000x128_1_0_0_1_n_n.lhsBatch by decide), dif_pos (show (0 : Fin S10000x64.rank) ∈ dot_S10000x64_S64x128_S10000x128_1_0_0_1_n_n.lhsNonContracting by decide)]
  rfl
private theorem lhsA_1 (i : S10000x128.Idx) (q : dot_S10000x64_S64x128_S10000x128_1_0_0_1_n_n.contr.Idx) :
    (dot_S10000x64_S64x128_S10000x128_1_0_0_1_n_n.lhsIdx i q 1).val = (q ⟨0, by decide⟩).val :=
  dot_S10000x64_S64x128_S10000x128_1_0_0_1_n_n.lhsIdx_val_of_single rfl i q
private theorem rhsA_0 (i : S10000x128.Idx) (q : dot_S10000x64_S64x128_S10000x128_1_0_0_1_n_n.contr.Idx) :
    (dot_S10000x64_S64x128_S10000x128_1_0_0_1_n_n.rhsIdx i q 0).val = (q ⟨0, by decide⟩).val :=
  dot_S10000x64_S64x128_S10000x128_1_0_0_1_n_n.rhsIdx_val_of_single rfl i q
private theorem rhsA_1 (i : S10000x128.Idx) (q : dot_S10000x64_S64x128_S10000x128_1_0_0_1_n_n.contr.Idx) :
    (dot_S10000x64_S64x128_S10000x128_1_0_0_1_n_n.rhsIdx i q 1).val = (i 1).val := by
  unfold DotDims.rhsIdx
  rw [dif_neg (show ¬(1 : Fin S64x128.rank) ∈ dot_S10000x64_S64x128_S10000x128_1_0_0_1_n_n.rhsBatch by decide), dif_pos (show (1 : Fin S64x128.rank) ∈ dot_S10000x64_S64x128_S10000x128_1_0_0_1_n_n.rhsNonContracting by decide)]
  rfl

/-- Entry (p, q) of the product into a zero accumulator is the sum over the contracted coordinate. -/
private theorem matmulA_at (x : FVec Ideal S10000x64 .f32) (w : FVec Ideal S64x128 .f32) (p : Fin 10000) (q : Fin 128) :
    matmul (F := Ideal) dot_S10000x64_S64x128_S10000x128_1_0_0_1_n_n (some .fp32) x w (constant (F := Ideal) S10000x128 .f32 0x00000000#32) (ix2 p q)
      = ∑ κ : Fin 64, x (ix2 p κ) * w (ix2 κ q) := by
  simp only [matmul]
  rw [Ideal.matmul_constant_zero_apply, ← Equiv.sum_comp (ValueIdx.contrEquiv1 dot_S10000x64_S64x128_S10000x128_1_0_0_1_n_n 64 rfl rfl).symm]
  refine Finset.sum_congr rfl fun k _ => ?_
  have hk := ValueIdx.contrEquiv1_symm_val dot_S10000x64_S64x128_S10000x128_1_0_0_1_n_n 64 rfl rfl k
  have el : dot_S10000x64_S64x128_S10000x128_1_0_0_1_n_n.lhsIdx (ix2 p q) ((ValueIdx.contrEquiv1 dot_S10000x64_S64x128_S10000x128_1_0_0_1_n_n 64 rfl rfl).symm k) = ix2 p k := funext fun a => Fin.ext (by
    match a with
    | ⟨0, _⟩ => exact lhsA_0 _ _
    | ⟨1, _⟩ => exact (lhsA_1 _ _).trans hk)
  have er : dot_S10000x64_S64x128_S10000x128_1_0_0_1_n_n.rhsIdx (ix2 p q) ((ValueIdx.contrEquiv1 dot_S10000x64_S64x128_S10000x128_1_0_0_1_n_n 64 rfl rfl).symm k) = ix2 k q := funext fun a => Fin.ext (by
    match a with
    | ⟨0, _⟩ => exact (rhsA_0 _ _).trans hk
    | ⟨1, _⟩ => exact rhsA_1 _ _)
  rw [el, er]

/-! ### a combine's product, 128 contracted coordinates -/

private theorem lhsB_0 (i : S10000x128.Idx) (q : dot_S10000x128_S128x128_S10000x128_1_0_0_1_n_n.contr.Idx) :
    (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
private theorem lhsB_1 (i : S10000x128.Idx) (q : dot_S10000x128_S128x128_S10000x128_1_0_0_1_n_n.contr.Idx) :
    (dot_S10000x128_S128x128_S10000x128_1_0_0_1_n_n.lhsIdx i q 1).val = (q ⟨0, by decide⟩).val :=
  dot_S10000x128_S128x128_S10000x128_1_0_0_1_n_n.lhsIdx_val_of_single rfl i q
private theorem rhsB_0 (i : S10000x128.Idx) (q : dot_S10000x128_S128x128_S10000x128_1_0_0_1_n_n.contr.Idx) :
    (dot_S10000x128_S128x128_S10000x128_1_0_0_1_n_n.rhsIdx i q 0).val = (q ⟨0, by decide⟩).val :=
  dot_S10000x128_S128x128_S10000x128_1_0_0_1_n_n.rhsIdx_val_of_single rfl i q
private theorem rhsB_1 (i : S10000x128.Idx) (q : dot_S10000x128_S128x128_S10000x128_1_0_0_1_n_n.contr.Idx) :
    (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- Entry (p, q) of the product into a zero accumulator is the sum over the contracted coordinate. -/
private theorem matmulB_at (x : FVec Ideal S10000x128 .f32) (w : FVec Ideal S128x128 .f32) (p : Fin 10000) (q : Fin 128) :
    matmul (F := Ideal) dot_S10000x128_S128x128_S10000x128_1_0_0_1_n_n (some .fp32) x w (constant (F := Ideal) S10000x128 .f32 0x00000000#32) (ix2 p q)
      = ∑ κ : Fin 128, x (ix2 p κ) * w (ix2 κ q) := by
  simp only [matmul]
  rw [Ideal.matmul_constant_zero_apply, ← Equiv.sum_comp (ValueIdx.contrEquiv1 dot_S10000x128_S128x128_S10000x128_1_0_0_1_n_n 128 rfl rfl).symm]
  refine Finset.sum_congr rfl fun k _ => ?_
  have hk := ValueIdx.contrEquiv1_symm_val dot_S10000x128_S128x128_S10000x128_1_0_0_1_n_n 128 rfl rfl k
  have el : dot_S10000x128_S128x128_S10000x128_1_0_0_1_n_n.lhsIdx (ix2 p q) ((ValueIdx.contrEquiv1 dot_S10000x128_S128x128_S10000x128_1_0_0_1_n_n 128 rfl rfl).symm k) = ix2 p k := funext fun a => Fin.ext (by
    match a with
    | ⟨0, _⟩ => exact lhsB_0 _ _
    | ⟨1, _⟩ => exact (lhsB_1 _ _).trans hk)
  have er : dot_S10000x128_S128x128_S10000x128_1_0_0_1_n_n.rhsIdx (ix2 p q) ((ValueIdx.contrEquiv1 dot_S10000x128_S128x128_S10000x128_1_0_0_1_n_n 128 rfl rfl).symm k) = ix2 k q := funext fun a => Fin.ext (by
    match a with
    | ⟨0, _⟩ => exact (rhsB_0 _ _).trans hk
    | ⟨1, _⟩ => exact rhsB_1 _ _)
  rw [el, er]

/-! ### the output projection's product, 128 contracted coordinates -/

private theorem lhsC_0 (i : S10000x32.Idx) (q : dot_S10000x128_S128x32_S10000x32_1_0_0_1_n_n.contr.Idx) :
    (dot_S10000x128_S128x32_S10000x32_1_0_0_1_n_n.lhsIdx i q 0).val = (i 0).val := by
  unfold DotDims.lhsIdx
  rw [dif_neg (show ¬(0 : Fin S10000x128.rank) ∈ dot_S10000x128_S128x32_S10000x32_1_0_0_1_n_n.lhsBatch by decide), dif_pos (show (0 : Fin S10000x128.rank) ∈ dot_S10000x128_S128x32_S10000x32_1_0_0_1_n_n.lhsNonContracting by decide)]
  rfl
private theorem lhsC_1 (i : S10000x32.Idx) (q : dot_S10000x128_S128x32_S10000x32_1_0_0_1_n_n.contr.Idx) :
    (dot_S10000x128_S128x32_S10000x32_1_0_0_1_n_n.lhsIdx i q 1).val = (q ⟨0, by decide⟩).val :=
  dot_S10000x128_S128x32_S10000x32_1_0_0_1_n_n.lhsIdx_val_of_single rfl i q
private theorem rhsC_0 (i : S10000x32.Idx) (q : dot_S10000x128_S128x32_S10000x32_1_0_0_1_n_n.contr.Idx) :
    (dot_S10000x128_S128x32_S10000x32_1_0_0_1_n_n.rhsIdx i q 0).val = (q ⟨0, by decide⟩).val :=
  dot_S10000x128_S128x32_S10000x32_1_0_0_1_n_n.rhsIdx_val_of_single rfl i q
private theorem rhsC_1 (i : S10000x32.Idx) (q : dot_S10000x128_S128x32_S10000x32_1_0_0_1_n_n.contr.Idx) :
    (dot_S10000x128_S128x32_S10000x32_1_0_0_1_n_n.rhsIdx i q 1).val = (i 1).val := by
  unfold DotDims.rhsIdx
  rw [dif_neg (show ¬(1 : Fin S128x32.rank) ∈ dot_S10000x128_S128x32_S10000x32_1_0_0_1_n_n.rhsBatch by decide), dif_pos (show (1 : Fin S128x32.rank) ∈ dot_S10000x128_S128x32_S10000x32_1_0_0_1_n_n.rhsNonContracting by decide)]
  rfl

/-- Entry (p, q) of the product into a zero accumulator is the sum over the contracted coordinate. -/
private theorem matmulC_at (x : FVec Ideal S10000x128 .f32) (w : FVec Ideal S128x32 .f32) (p : Fin 10000) (q : Fin 32) :
    matmul (F := Ideal) dot_S10000x128_S128x32_S10000x32_1_0_0_1_n_n (some .fp32) x w (constant (F := Ideal) S10000x32 .f32 0x00000000#32) (ix2 p q)
      = ∑ κ : Fin 128, x (ix2 p κ) * w (ix2 κ q) := by
  simp only [matmul]
  rw [Ideal.matmul_constant_zero_apply, ← Equiv.sum_comp (ValueIdx.contrEquiv1 dot_S10000x128_S128x32_S10000x32_1_0_0_1_n_n 128 rfl rfl).symm]
  refine Finset.sum_congr rfl fun k _ => ?_
  have hk := ValueIdx.contrEquiv1_symm_val dot_S10000x128_S128x32_S10000x32_1_0_0_1_n_n 128 rfl rfl k
  have el : dot_S10000x128_S128x32_S10000x32_1_0_0_1_n_n.lhsIdx (ix2 p q) ((ValueIdx.contrEquiv1 dot_S10000x128_S128x32_S10000x32_1_0_0_1_n_n 128 rfl rfl).symm k) = ix2 p k := funext fun a => Fin.ext (by
    match a with
    | ⟨0, _⟩ => exact lhsC_0 _ _
    | ⟨1, _⟩ => exact (lhsC_1 _ _).trans hk)
  have er : dot_S10000x128_S128x32_S10000x32_1_0_0_1_n_n.rhsIdx (ix2 p q) ((ValueIdx.contrEquiv1 dot_S10000x128_S128x32_S10000x32_1_0_0_1_n_n 128 rfl rfl).symm k) = ix2 k q := funext fun a => Fin.ext (by
    match a with
    | ⟨0, _⟩ => exact (rhsC_0 _ _).trans hk
    | ⟨1, _⟩ => exact rhsC_1 _ _)
  rw [el, er]

/-! ## The encoding body -/

/-- The stored value at an entry, operation by operation. -/
private theorem k0_at (v0 : FVec Ideal S10000x64 .f32) (v1 : FVec Ideal S64x128 .f32) (v3 : FVec Ideal S128 .f32)
    (v7 : FVec Ideal S10000x128 .f32) (p : Fin 10000) (q : Fin 128) :
    k0_pay1 (F := Ideal) v0 v1 v3 v7 (ix2 p q) =
      (matmul (F := Ideal) dot_S10000x64_S64x128_S10000x128_1_0_0_1_n_n (some .fp32) v0 v1 (constant (F := Ideal) S10000x128 .f32 0x00000000#32) (ix2 p q)
        + broadcastTo S10000x128 (shapeCast S1x128 v3 shapeCasts_S128_S1x128) broadcasts_S1x128_S10000x128 (ix2 p q))
        + shapeCast S10000x128 v7 shapeCasts_S10000x128_S10000x128 (ix2 p q) := rfl

private theorem encode_at (v0 : FVec Ideal S10000x64 .f32) (v1 : FVec Ideal S64x128 .f32) (v3 : FVec Ideal S128 .f32)
    (v7 : FVec Ideal S10000x128 .f32) (p : Fin 10000) (q : Fin 128) :
    k0_pay1 (F := Ideal) v0 v1 v3 v7 (ix2 p q) = Cert.Spec.encAt (n := 10000) v0 v1 v3 v7 p q := by
  rw [k0_at, matmulA_at, biasRow_apply, shapeCast_self]
  rfl

/-! ## The combine bodies -/

/-- The aggregated block scaled by the reciprocal-degree column, at an entry. -/
private theorem scaled_at (v0 : FVec Ideal S10000x128 .f32) (v2 : FVec Ideal S10000x1 .f32) (p : Fin 10000) (κ : Fin 128) :
    mulf (F := Ideal) (shapeCast S10000x128 v0 shapeCasts_S10000x128_S10000x128)
        (broadcastTo S10000x128 (shapeCast S10000x1 v2 shapeCasts_S10000x1_S10000x1) broadcasts_S10000x1_S10000x128) (ix2 p κ)
      = v0 (ix2 p κ) * v2 (ix2 p (0 : Fin 1)) := by
  rw [shapeCast_self, shapeCast_self, mulf_apply, broadcastTo_a1_ab_apply]

/-- The stored value at an entry, operation by operation. -/
private theorem k1_at (v0 : FVec Ideal S10000x128 .f32) (v2 : FVec Ideal S10000x1 .f32) (v4 : FVec Ideal S10000x128 .f32)
    (v8 : FVec Ideal S128x128 .f32) (v9 : FVec Ideal S128x128 .f32) (v13 : FVec Ideal S128 .f32) (p : Fin 10000) (q : Fin 128) :
    k1_pay1 (F := Ideal) v0 v2 v4 v8 v9 v13 (ix2 p q) =
      max (((matmul (F := Ideal) dot_S10000x128_S128x128_S10000x128_1_0_0_1_n_n (some .fp32)
              (mulf (F := Ideal) (shapeCast S10000x128 v0 shapeCasts_S10000x128_S10000x128)
        (broadcastTo S10000x128 (shapeCast S10000x1 v2 shapeCasts_S10000x1_S10000x1) broadcasts_S10000x1_S10000x128))
              v8 (constant (F := Ideal) S10000x128 .f32 0x00000000#32) (ix2 p q)
            + matmul (F := Ideal) dot_S10000x128_S128x128_S10000x128_1_0_0_1_n_n (some .fp32)
                (shapeCast S10000x128 v4 shapeCasts_S10000x128_S10000x128) v9 (constant (F := Ideal) S10000x128 .f32 0x00000000#32) (ix2 p q))
          + broadcastTo S10000x128 (shapeCast S1x128 v13 shapeCasts_S128_S1x128) broadcasts_S1x128_S10000x128 (ix2 p q)))
        (Ideal.ofBits .f32 0x00000000#32) := rfl

private theorem combine_at (v0 : FVec Ideal S10000x128 .f32) (v2 : FVec Ideal S10000x1 .f32) (v4 : FVec Ideal S10000x128 .f32)
    (v8 : FVec Ideal S128x128 .f32) (v9 : FVec Ideal S128x128 .f32) (v13 : FVec Ideal S128 .f32) (p : Fin 10000) (q : Fin 128) :
    k1_pay1 (F := Ideal) v0 v2 v4 v8 v9 v13 (ix2 p q) = Cert.Spec.combAt (n := 10000) v0 v2 v4 v8 v9 v13 p q := by
  rw [k1_at, matmulB_at, matmulB_at, biasRow_apply, Ideal.ofBits_zero_f32]
  unfold Cert.Spec.combAt Cert.Spec.dotAt
  refine congrArg (fun t => max t (0 : EReal)) ?_
  refine congrArg (fun t => t + v13 (ix1 q)) ?_
  refine congrArg₂ (fun s t : EReal => s + t) ?_ ?_
  · exact Finset.sum_congr rfl fun κ _ => congrArg (fun t => t * v8 (ix2 κ q)) (scaled_at v0 v2 p κ)
  · exact Finset.sum_congr rfl fun κ _ =>
      congrArg (fun t => t * v9 (ix2 κ q)) (congrFun (shapeCast_self v4 shapeCasts_S10000x128_S10000x128) (ix2 p κ))

/-! ## The last body: the combine, then the output projection -/

/-- The stored value at an entry: the product of the combine's value with the output weights, plus the bias row. -/
private theorem k3_at (v0 : FVec Ideal S10000x128 .f32) (v2 : FVec Ideal S10000x1 .f32) (v4 : FVec Ideal S10000x128 .f32)
    (v8 : FVec Ideal S128x128 .f32) (v9 : FVec Ideal S128x128 .f32) (v13 : FVec Ideal S128 .f32)
    (v19 : FVec Ideal S128x32 .f32) (v21 : FVec Ideal S32 .f32) (p : Fin 10000) (q : Fin 32) :
    k3_pay1 (F := Ideal) v0 v2 v4 v8 v9 v13 v19 v21 (ix2 p q) =
      matmul (F := Ideal) dot_S10000x128_S128x32_S10000x32_1_0_0_1_n_n (some .fp32) (k1_pay1 (F := Ideal) v0 v2 v4 v8 v9 v13) v19
          (constant (F := Ideal) S10000x32 .f32 0x00000000#32) (ix2 p q)
        + broadcastTo S10000x32 (shapeCast S1x32 v21 shapeCasts_S32_S1x32) broadcasts_S1x32_S10000x32 (ix2 p q) := rfl

private theorem combineProj_at (v0 : FVec Ideal S10000x128 .f32) (v2 : FVec Ideal S10000x1 .f32) (v4 : FVec Ideal S10000x128 .f32)
    (v8 : FVec Ideal S128x128 .f32) (v9 : FVec Ideal S128x128 .f32) (v13 : FVec Ideal S128 .f32)
    (v19 : FVec Ideal S128x32 .f32) (v21 : FVec Ideal S32 .f32) (p : Fin 10000) (q : Fin 32) :
    k3_pay1 (F := Ideal) v0 v2 v4 v8 v9 v13 v19 v21 (ix2 p q)
      = Cert.Spec.projAt (n := 10000) (Cert.Spec.comb (n := 10000) v0 v2 v4 v8 v9 v13) v19 v21 p q := by
  rw [k3_at, matmulC_at, biasRow_apply]
  unfold Cert.Spec.projAt Cert.Spec.dotAt
  refine congrArg (fun t => t + v21 (ix1 q)) ?_
  exact Finset.sum_congr rfl fun κ _ => congrArg (fun t => t * v19 (ix2 κ q)) (combine_at v0 v2 v4 v8 v9 v13 p κ)

/-- The encoding body's stored value is `x · w + b + e` of its four loaded blocks. -/
theorem encode_payload (v0 : Vec Ideal S10000x64 .f32) (v1 : Vec Ideal S64x128 .f32) (v3 : Vec Ideal S128 .f32)
    (v7 : Vec Ideal S10000x128 .f32) :
    k0_pay1 (F := Ideal) v0 v1 v3 v7 = Cert.Spec.enc (n := 10000) v0 v1 v3 v7 := by
  funext j
  obtain ⟨p, q, rfl⟩ : ∃ (p : Fin 10000) (q : Fin 128), j = ix2 p q := ⟨j 0, j 1, eq_ix2 j⟩
  exact encode_at v0 v1 v3 v7 p q

/-- The first combine body's stored value is the SAGE combine of its six loaded blocks. -/
theorem combine1_payload (v0 : Vec Ideal S10000x128 .f32) (v2 : Vec Ideal S10000x1 .f32) (v4 : Vec Ideal S10000x128 .f32)
    (v8 : Vec Ideal S128x128 .f32) (v9 : Vec Ideal S128x128 .f32) (v13 : Vec Ideal S128 .f32) :
    k1_pay1 (F := Ideal) v0 v2 v4 v8 v9 v13 = Cert.Spec.comb (n := 10000) v0 v2 v4 v8 v9 v13 := by
  funext j
  obtain ⟨p, q, rfl⟩ : ∃ (p : Fin 10000) (q : Fin 128), j = ix2 p q := ⟨j 0, j 1, eq_ix2 j⟩
  exact combine_at v0 v2 v4 v8 v9 v13 p q

/-- The second combine body is the same function. -/
theorem combine2_payload (v0 : Vec Ideal S10000x128 .f32) (v2 : Vec Ideal S10000x1 .f32) (v4 : Vec Ideal S10000x128 .f32)
    (v8 : Vec Ideal S128x128 .f32) (v9 : Vec Ideal S128x128 .f32) (v13 : Vec Ideal S128 .f32) :
    k2_pay1 (F := Ideal) v0 v2 v4 v8 v9 v13 = Cert.Spec.comb (n := 10000) v0 v2 v4 v8 v9 v13 :=
  (show k2_pay1 (F := Ideal) v0 v2 v4 v8 v9 v13 = k1_pay1 (F := Ideal) v0 v2 v4 v8 v9 v13 from rfl).trans
    (combine1_payload v0 v2 v4 v8 v9 v13)

/-- The last body's stored value is the combine followed by the output projection. -/
theorem combineProj_payload (v0 : Vec Ideal S10000x128 .f32) (v2 : Vec Ideal S10000x1 .f32) (v4 : Vec Ideal S10000x128 .f32)
    (v8 : Vec Ideal S128x128 .f32) (v9 : Vec Ideal S128x128 .f32) (v13 : Vec Ideal S128 .f32)
    (v19 : Vec Ideal S128x32 .f32) (v21 : Vec Ideal S32 .f32) :
    k3_pay1 (F := Ideal) v0 v2 v4 v8 v9 v13 v19 v21 = Cert.Spec.combProj (n := 10000) v0 v2 v4 v8 v9 v13 v19 v21 := by
  funext j
  obtain ⟨p, q, rfl⟩ : ∃ (p : Fin 10000) (q : Fin 32), j = ix2 p q := ⟨j 0, j 1, eq_ix2 j⟩
  exact combineProj_at v0 v2 v4 v8 v9 v13 v19 v21 p q

end Cert.KernelIdeal.KBody

end
-- ==== Proof.KReg0.lean ====
/-
  Region 0, the material encoding over ten blocks of 10000 rows: the array it leaves is `Spec.enc` of the four arrays it read, because block t of that function is the body's value at block t's inputs and the ten blocks tile the array.
-/
import proofs.«415858_j28896539968211_2_alg».proof.Proof.Gen.KernelIdeal.Frame
import proofs.«415858_j28896539968211_2_alg».proof.Proof.KBody
import proofs.«415858_j28896539968211_2_alg».proof.Proof.Spec
import Idealize.ShloMosaic.Lib.Pipeline.Value
import Idealize.ShloMosaic.Lib.ValueIdx

set_option maxRecDepth 16384

noncomputable section

namespace Cert.KernelIdeal.KReg0

open Cert.KernelIdeal Cert.KernelIdeal.Gen Idealize.ShloMosaic Idealize.ShloMosaic.TcCoe Idealize.SL.Sem Idealize.ShloMosaic.ValueIdx
open Idealize.ShloMosaic.Pipeline (Dat Cfg Window)

/- The buffer contents the region finds, a parameter: the run supplies the boundary's contents. -/
variable (V : (c : Dev nD) → (b : Ref sig .tc) → Buf (Elt Ideal) ((c : Thread nD τ).loc b))

/-- The zero offsets of a rank-2 rectangle, as the constant function. -/
private theorem zero_off2 : (![0, 0] : Fin 2 → Nat) = fun _ => 0 := funext fun a => by fin_cases a <;> rfl

/-- The zero offset of a rank-1 rectangle, as the constant function. -/
private theorem zero_off1 : (![0] : Fin 1 → Nat) = fun _ => 0 := funext fun a => by fin_cases a; rfl

/-- The block indices over the ten points: the two row-blocked inputs (x and the embedding rows) have the output's
    row-block index and column-block index 0; the weights and the bias sit at block 0 throughout; the output's
    row-block index is at most 9 and its column-block index is 0. -/
private theorem block_indices : ∀ t : Fin cfg0.N,
    win0_0.index t (0 : Fin 2) = win0_4.index t (0 : Fin 2)
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = win0_4.index t (0 : Fin 2)
    ∧ win0_3.index t (1 : Fin 2) = 0
    ∧ win0_4.index t (0 : Fin 2) ≤ 9
    ∧ win0_4.index t (1 : Fin 2) = 0 :=
  (by decide +kernel : ∀ t : Fin grid0.N, _)

/-- Every row block 0 … 9 of the output is some point's. -/
private theorem row_block_onto : ∀ q : Fin 10, ∃ t : Fin cfg0.N, win0_4.index t = ![q.val, 0] :=
  (by decide +kernel : ∀ q : Fin 10, ∃ t : Fin grid0.N, win0_4.index t = ![q.val, 0])

/-- The encoding is row-local: if x and e are the rows r p of X and E, and w, b are W, B, then row p of the
    encoding of (x, w, b, e) is row r p of the encoding of (X, W, B, E). -/
private theorem enc_rows (X : Cert.Spec.Mat 100000 64) (W : Cert.Spec.Mat 64 128) (B : Cert.Spec.Row 128)
    (E : Cert.Spec.Mat 100000 128) (x : Cert.Spec.Mat 10000 64) (w : Cert.Spec.Mat 64 128) (b : Cert.Spec.Row 128)
    (e : Cert.Spec.Mat 10000 128) (r : Fin 10000 → Fin 100000)
    (hx : ∀ p κ, x (ix2 p κ) = X (ix2 (r p) κ)) (hw : ∀ κ q, w (ix2 κ q) = W (ix2 κ q))
    (hb : ∀ q, b (ix1 q) = B (ix1 q)) (he : ∀ p q, e (ix2 p q) = E (ix2 (r p) q))
    (p : Fin 10000) (q : Fin 128) :
    Cert.Spec.enc x w b e (ix2 p q) = Cert.Spec.enc X W B E (ix2 (r p) q) := by
  rw [Cert.Spec.enc_apply, Cert.Spec.enc_apply]
  unfold Cert.Spec.encAt Cert.Spec.dotAt
  rw [hb, he]
  congr 2
  exact Finset.sum_congr rfl fun κ _ => by rw [hx, hw]

/-- The array row of row p of point t's block: the row-block index times 10000, plus p. -/
private def row (t : Fin cfg0.N) (p : Fin 10000) : Fin 100000 :=
  ⟨win0_4.index t (0 : Fin 2) * 10000 + p.val, by
    obtain ⟨_, _, _, _, _, _, _, h, _⟩ := block_indices t
    have := p.isLt
    omega⟩

/-- Entry (p, q) of the output's block at point t is entry (row t p, q) of the array. -/
private theorem emb_out (t : Fin cfg0.N) (p : Fin 10000) (q : Fin 128) :
    ((cfg0.win 4).blk t).view.emb (ix2 p q) = (ix2 (row t p) q : S100000x128.Idx) := by
  obtain ⟨e0, e1, e2, e3, e4, e5, e6, e7, e8⟩ := block_indices t
  funext a; apply Fin.ext
  match a with
  | ⟨0, _⟩ => show win0_4.index t (0 : Fin 2) * 10000 + 1 * p.val = win0_4.index t (0 : Fin 2) * 10000 + p.val; omega
  | ⟨1, _⟩ => show win0_4.index t (1 : Fin 2) * 128 + 1 * q.val = q.val; omega

/-- Block t of x is rows row t · of x, all 64 columns. -/
private theorem blk_x (c : Dev nD) (t : Fin cfg0.N) (p : Fin 10000) (κ : Fin 64) :
    (iblk0 V c 0 t : Vec Ideal S10000x64 .f32) (ix2 p κ)
      = (V c main_arg0 : S100000x64.Idx → Elt Ideal .f32) (ix2 (row t p) κ) := by
  obtain ⟨e0, e1, e2, e3, e4, e5, e6, e7, e8⟩ := block_indices t
  show V c main_arg0 (((cfg0.win 0).blk t).view.emb (ix2 p κ)) = _
  congr 1
  funext a; apply Fin.ext
  match a with
  | ⟨0, _⟩ => show win0_0.index t (0 : Fin 2) * 10000 + 1 * p.val = win0_4.index t (0 : Fin 2) * 10000 + p.val; omega
  | ⟨1, _⟩ => show win0_0.index t (1 : Fin 2) * 64 + 1 * κ.val = κ.val; omega

/-- The weights' block at every point is the whole 64 × 128 matrix. -/
private theorem blk_w (c : Dev nD) (t : Fin cfg0.N) (κ : Fin 64) (q : Fin 128) :
    (iblk0 V c 1 t : Vec Ideal S64x128 .f32) (ix2 κ q)
      = (V c main_arg7 : S64x128.Idx → Elt Ideal .f32) (ix2 κ q) := by
  obtain ⟨e0, e1, e2, e3, e4, e5, e6, e7, e8⟩ := block_indices t
  show V c main_arg7 (((cfg0.win 1).blk t).view.emb (ix2 κ q)) = _
  congr 1
  funext a; apply Fin.ext
  match a with
  | ⟨0, _⟩ => show win0_1.index t (0 : Fin 2) * 64 + 1 * κ.val = κ.val; omega
  | ⟨1, _⟩ => show win0_1.index t (1 : Fin 2) * 128 + 1 * q.val = q.val; omega

/-- The bias's block at every point is the whole row of 128. -/
private theorem blk_b (c : Dev nD) (t : Fin cfg0.N) (q : Fin 128) :
    (iblk0 V c 2 t : Vec Ideal S128 .f32) (ix1 q) = (V c main_arg8 : S128.Idx → Elt Ideal .f32) (ix1 q) := by
  obtain ⟨e0, e1, e2, e3, e4, e5, e6, e7, e8⟩ := block_indices t
  show V c main_arg8 (((cfg0.win 2).blk t).view.emb (ix1 q)) = _
  congr 1
  funext a; apply Fin.ext
  match a with
  | ⟨0, _⟩ => show win0_2.index t (0 : Fin 1) * 128 + 1 * q.val = q.val; omega

/-- Block t of the embedding rows is rows row t · of them, all 128 columns. -/
private theorem blk_e (c : Dev nD) (t : Fin cfg0.N) (p : Fin 10000) (q : Fin 128) :
    (iblk0 V c 3 t : Vec Ideal S10000x128 .f32) (ix2 p q)
      = (V c main_v0 : S100000x128.Idx → Elt Ideal .f32) (ix2 (row t p) q) := by
  obtain ⟨e0, e1, e2, e3, e4, e5, e6, e7, e8⟩ := block_indices t
  show V c main_v0 (((cfg0.win 3).blk t).view.emb (ix2 p q)) = _
  congr 1
  funext a; apply Fin.ext
  match a with
  | ⟨0, _⟩ => show win0_3.index t (0 : Fin 2) * 10000 + 1 * p.val = win0_4.index t (0 : Fin 2) * 10000 + p.val; omega
  | ⟨1, _⟩ => show win0_3.index t (1 : Fin 2) * 128 + 1 * q.val = q.val; omega

/-- What point t writes back is block t of the encoding of the four arrays: the body's one store holds the
    encoding of the four blocks at t, and the encoding is row-local. -/
private theorem flushed_eq (c : Dev nD) (t : Fin cfg0.N) :
    (dat0 (F := Ideal) V c).flushed 4 t = ((cfg0.win 4).blk t).view.read (Elt Ideal)
      (Cert.Spec.enc (n := 100000) (V c main_arg0) (V c main_arg7) (V c main_arg8) (V c main_v0)) := by
  show (cfg0.win 4).cut (grid0.coords t) ((dat0 V c).after 4 t) = _
  rw [after0_4]
  unfold out0_4
  rw [View.canon_unit_zero zero_off2]
  simp only [View.ld_unit_zero (S := S10000x64) zero_off2, View.ld_unit_zero (S := S64x128) zero_off2,
    View.ld_unit_zero (S := S10000x128) zero_off2, View.ld_unit_zero (S := S128) zero_off1]
  rw [KBody.encode_payload]
  funext j
  obtain ⟨p, q, rfl⟩ : ∃ (p : Fin 10000) (q : Fin 128), j = ix2 p q := ⟨j 0, j 1, eq_ix2 j⟩
  show Cert.Spec.enc (n := 10000) (iblk0 V c 0 t) (iblk0 V c 1 t) (iblk0 V c 2 t) (iblk0 V c 3 t) (ix2 p q)
    = Cert.Spec.enc (n := 100000) (V c main_arg0) (V c main_arg7) (V c main_arg8) (V c main_v0)
        (((cfg0.win 4).blk t).view.emb (ix2 p q))
  rw [emb_out]
  exact enc_rows (V c main_arg0) (V c main_arg7) (V c main_arg8) (V c main_v0)
    (iblk0 V c 0 t) (iblk0 V c 1 t) (iblk0 V c 2 t) (iblk0 V c 3 t) (row t)
    (blk_x V c t) (blk_w V c t) (blk_b V c t) (blk_e V c t) p q

/-- An index of the array is in point t's block iff each coordinate is in the block's range on its axis. -/
private theorem mem_blk (t : Fin cfg0.N) (i : S100000x128.Idx) :
    i ∈ ((cfg0.win 4).blk t).view.set ↔ ∀ a : Fin 2, win0_4.index t a * S10000x128.size a ≤ (i a).val
      ∧ (i a).val < win0_4.index t a * S10000x128.size a + S10000x128.size a := by
  show i ∈ ((View.whole main_v1).slice (win0_4.rect t)).set ↔ _
  rw [View.set_slice_whole, Rect.mem_set_unit]
  exact Iff.rfl

/-- The ten blocks tile the array: row r lies in the block of the point whose row-block index is r / 10000, and a
    block has all 128 columns. -/
private theorem cover (i : S100000x128.Idx) :
    ∃ t : Fin cfg0.N, (cfg0.win 4).flush t = true ∧ i ∈ ((cfg0.win 4).blk t).view.set := by
  have hi0 : (i 0).val < 100000 := (i 0).isLt
  have hi1 : (i 1).val < 128 := (i 1).isLt
  obtain ⟨t, ht⟩ := row_block_onto ⟨(i 0).val / 10000, by omega⟩
  have q0 : win0_4.index t (0 : Fin 2) = (i 0).val / 10000 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 10000 ≤ (i 0).val ∧ (i 0).val < win0_4.index t (0 : Fin 2) * 10000 + 10000; omega
  | ⟨1, _⟩ => show win0_4.index t (1 : Fin 2) * 128 ≤ (i 1).val ∧ (i 1).val < win0_4.index t (1 : Fin 2) * 128 + 128; omega

/-- After region 0 its output array is the encoding of the arrays the region found. -/
theorem final (c : Dev nD) :
    (dat0 (F := Ideal) V c).arrAt 4 cfg0.N
      = Cert.Spec.enc (n := 100000) (V c main_arg0) (V c main_arg7) (V c main_arg8) (V c main_v0) :=
  (dat0 V c).arrAt_eq_of_cover 4 _ (fun t _ => flushed_eq V c t) cover

end Cert.KernelIdeal.KReg0

end
-- ==== Proof.Trace0.lean ====
/-
  The buffer contents after region 0, read back to the launch memory: the embedding rows the first stretch takes, the encoding region 0 leaves, and the arguments the later segments read, unchanged.
-/
import proofs.«415858_j28896539968211_2_alg».proof.Proof.Gen.KernelIdeal.Frame
import proofs.«415858_j28896539968211_2_alg».proof.Proof.KFun
import proofs.«415858_j28896539968211_2_alg».proof.Proof.Spec
import proofs.«415858_j28896539968211_2_alg».proof.Proof.TraceTac
import proofs.«415858_j28896539968211_2_alg».proof.Proof.KReg0
import proofs.«415858_j28896539968211_2_alg».proof.Proof.KBody
import Idealize.ShloMosaic.Lib.StableHlo.Run

set_option maxRecDepth 16384

noncomputable section

namespace Cert.KernelIdeal.Trace0

open Cert.KernelIdeal Cert.KernelIdeal.Gen Cert.KernelIdeal.KFun Cert.KernelIdeal.TraceTac
open Idealize.ShloMosaic Idealize.ShloMosaic.TcCoe Idealize.SL.Sem Idealize.ShloMosaic.StableHlo

section AnyInstance

variable {F : FTy → Type} [FloatOps F] (m : (ℓ : Loc nD τ sig) → Buf (Elt F) ℓ) (ρ : Dev nD → PrngReg)

set_option maxHeartbeats 8000000 in
/-- The first stretch takes the material embedding rows at the material node ids. Over any contents: the stretch's
    operations are the program's row take, read back operation by operation; the casts a module-local function's
    typed references carry are identities (a write then a read of one typed reference cancels; the three left
    over, on the two inputs and the output, are identities by computation). -/
theorem take_material (W : Valuation τ sig (Elt F)) :
    StableHlo.after hostOps0 W (Proc.devRef .tc main_v0)
      = take100 (F := F) (W (Proc.devRef .tc main_arg5)) (W (Proc.devRef .tc main_arg1)) := by
  dsimp only [hostOps0]
  after_results
  simp only [ofBuf_toBuf]
  have eI : (TRef.of main_arg1 : TRef sig ⟨S100000, .i32⟩).ofBuf (W (Proc.devRef .tc main_arg1)) = W (Proc.devRef .tc main_arg1) := rfl
  have eT : (TRef.of main_arg5 : TRef sig ⟨S100000x128, .f32⟩).ofBuf (W (Proc.devRef .tc main_arg5)) = W (Proc.devRef .tc main_arg5) := rfl
  rw [eI, eT]
  unfold take100 inRange100 col100 wrap100
  exact (show ∀ v : (⟨S100000x128, .f32⟩ : BufTy).Contents (Elt F),
      (TRef.of main_v0 : TRef sig ⟨S100000x128, .f32⟩).toBuf v = v from fun _ => rfl) _

/-- At the launch contents. -/
theorem W1_v0 (c : Dev nD) :
    W1 m ρ c (Proc.devRef .tc main_v0) = take100 (F := F) (m ((c : Thread nD τ).loc main_arg5)) (m ((c : Thread nD τ).loc main_arg1)) :=
  take_material (W0 m ρ c)

/-- The first stretch writes no argument. -/
theorem W1_arg0 (c : Dev nD) : W1 m ρ c (Proc.devRef .tc main_arg0) = (m ((c : Thread nD τ).loc main_arg0)) := by
  show StableHlo.after hostOps0 (W0 m ρ c) (Proc.devRef .tc main_arg0) = W0 m ρ c (Proc.devRef .tc main_arg0)
  unwritten hostOps0
theorem W1_arg7 (c : Dev nD) : W1 m ρ c (Proc.devRef .tc main_arg7) = (m ((c : Thread nD τ).loc main_arg7)) := by
  show StableHlo.after hostOps0 (W0 m ρ c) (Proc.devRef .tc main_arg7) = W0 m ρ c (Proc.devRef .tc main_arg7)
  unwritten hostOps0
theorem W1_arg8 (c : Dev nD) : W1 m ρ c (Proc.devRef .tc main_arg8) = (m ((c : Thread nD τ).loc main_arg8)) := by
  show StableHlo.after hostOps0 (W0 m ρ c) (Proc.devRef .tc main_arg8) = W0 m ρ c (Proc.devRef .tc main_arg8)
  unwritten hostOps0

/-- A buffer that region 0 holds in none of its windows and that the first stretch does not write is, after
    region 0, as launched. -/
theorem W2_keep (c : Dev nD) (b : Ref sig .tc) (hb : ∀ w, Pipeline.arrRef spec0 w ≠ b)
    (h0 : StableHlo.after hostOps0 (W0 m ρ c) (Proc.devRef .tc b) = W0 m ρ c (Proc.devRef .tc b)) :
    W2 m ρ c (Proc.devRef .tc b) = m ((c : Thread nD τ).loc b) :=
  (W2_of_ne m ρ c b hb).trans h0

end AnyInstance

section AtIdeal

variable (m : (ℓ : Loc nD τ sig) → Buf (Elt Ideal) ℓ) (ρ : Dev nD → PrngReg)

/-- Region 0 leaves the material encoding x · W + b + emb[id] in its output array. -/
theorem W2_v1 (c : Dev nD) :
    W2 m ρ c (Proc.devRef .tc main_v1)
      = Cert.Spec.enc (n := 100000) (m ((c : Thread nD τ).loc main_arg0)) (m ((c : Thread nD τ).loc main_arg7)) (m ((c : Thread nD τ).loc main_arg8))
          (take100 (F := Ideal) (m ((c : Thread nD τ).loc main_arg5)) (m ((c : Thread nD τ).loc main_arg1))) := by
  refine (W2_arr m ρ c 4).trans ((Cert.KernelIdeal.KReg0.final (V1 m ρ) c).trans ?_)
  show Cert.Spec.enc (n := 100000) (W1 m ρ c (Proc.devRef .tc main_arg0)) (W1 m ρ c (Proc.devRef .tc main_arg7))
      (W1 m ρ c (Proc.devRef .tc main_arg8)) (W1 m ρ c (Proc.devRef .tc main_v0)) = _
  rw [W1_arg0, W1_arg7, W1_arg8, W1_v0]

end AtIdeal

end Cert.KernelIdeal.Trace0

end
-- ==== Proof.KReg1.lean ====
/-
  Region 1, the first SAGE combine (material side of layer 1) over ten blocks of 10000 rows: the array it leaves is `Spec.comb` of the six arrays it read.
-/
import proofs.«415858_j28896539968211_2_alg».proof.Proof.Gen.KernelIdeal.Frame
import proofs.«415858_j28896539968211_2_alg».proof.Proof.KBody
import proofs.«415858_j28896539968211_2_alg».proof.Proof.Spec
import Idealize.ShloMosaic.Lib.Pipeline.Value
import Idealize.ShloMosaic.Lib.ValueIdx

set_option maxRecDepth 16384

noncomputable section

namespace Cert.KernelIdeal.KReg1

open Cert.KernelIdeal Cert.KernelIdeal.Gen Idealize.ShloMosaic Idealize.ShloMosaic.TcCoe Idealize.SL.Sem Idealize.ShloMosaic.ValueIdx
open Idealize.ShloMosaic.Pipeline (Dat Cfg Window)

/- The buffer contents the region finds, a parameter: the run supplies the boundary's contents. -/
variable (V : (c : Dev nD) → (b : Ref sig .tc) → Buf (Elt Ideal) ((c : Thread nD τ).loc b))

/-- Two zero offsets, however spelt. -/
private theorem zero2 : (![0, 0] : Fin 2 → Nat) = fun _ => 0 :=
  funext fun a => match a with | ⟨0, _⟩ => rfl | ⟨1, _⟩ => rfl

/-- One zero offset. -/
private theorem zero1 : (![0] : Fin 1 → Nat) = fun _ => 0 :=
  funext fun a => match a with | ⟨0, _⟩ => rfl

/-- The index maps over the ten points: the output's row block is the point's own number; the three row-blocked
    inputs move with it; the weights and the bias stay at block 0; every column block is 0. -/
private theorem index_facts : ∀ t : Fin cfg1.N,
    win1_6.index t (0 : Fin 2) = t.val ∧ win1_6.index t (1 : Fin 2) = 0
    ∧ win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 1) = 0 :=
  (by decide +kernel : ∀ t : Fin grid1.N, _)

/-- A point's number is below ten. -/
private theorem point_lt (t : Fin cfg1.N) : t.val < 10 := by
  have h := t.isLt
  have hN : cfg1.N = 10 := N_1
  omega

/-- Row p of point t's block is row 10000 t + p of the array. -/
private abbrev row (t : Fin cfg1.N) (p : Fin 10000) : Fin 100000 :=
  ⟨t.val * 10000 + p.val, by have := point_lt t; have := p.isLt; omega⟩

/-- The aggregate's block at point t, entry by entry. -/
private theorem agg_block (c : Dev nD) (t : Fin cfg1.N) (p : Fin 10000) (κ : Fin 128) :
    iblk1 (F := Ideal) V c 0 t (ix2 p κ) = V c main_v32 (ix2 (row t p) κ) := by
  obtain ⟨-, -, e0, e1, -⟩ := index_facts t
  show V c main_v32 (((cfg1.win 0).blk t).view.emb (ix2 p κ)) = _
  congr 1
  funext a
  apply Fin.ext
  match a with
  | ⟨0, _⟩ => show win1_0.index t (0 : Fin 2) * 10000 + 1 * p.val = t.val * 10000 + p.val; omega
  | ⟨1, _⟩ => show win1_0.index t (1 : Fin 2) * 128 + 1 * κ.val = κ.val; omega

/-- The reciprocal degrees' block at point t. -/
private theorem deg_block (c : Dev nD) (t : Fin cfg1.N) (p : Fin 10000) (κ : Fin 1) :
    iblk1 (F := Ideal) V c 1 t (ix2 p κ) = V c main_v23 (ix2 (row t p) κ) := by
  obtain ⟨-, -, -, -, e0, e1, -⟩ := index_facts t
  show V c main_v23 (((cfg1.win 1).blk t).view.emb (ix2 p κ)) = _
  congr 1
  funext a
  apply Fin.ext
  match a with
  | ⟨0, _⟩ => show win1_1.index t (0 : Fin 2) * 10000 + 1 * p.val = t.val * 10000 + p.val; omega
  | ⟨1, _⟩ => show win1_1.index t (1 : Fin 2) * 1 + 1 * κ.val = κ.val; omega

/-- The destination features' block at point t. -/
private theorem dst_block (c : Dev nD) (t : Fin cfg1.N) (p : Fin 10000) (κ : Fin 128) :
    iblk1 (F := Ideal) V c 2 t (ix2 p κ) = V c main_v1 (ix2 (row t p) κ) := by
  obtain ⟨-, -, -, -, -, -, e0, e1, -⟩ := index_facts t
  show V c main_v1 (((cfg1.win 2).blk t).view.emb (ix2 p κ)) = _
  congr 1
  funext a
  apply Fin.ext
  match a with
  | ⟨0, _⟩ => show win1_2.index t (0 : Fin 2) * 10000 + 1 * p.val = t.val * 10000 + p.val; omega
  | ⟨1, _⟩ => show win1_2.index t (1 : Fin 2) * 128 + 1 * κ.val = κ.val; omega

/-- The left weights' block is the whole array at every point. -/
private theorem wl_block (c : Dev nD) (t : Fin cfg1.N) (κ : Fin 128) (q : Fin 128) :
    iblk1 (F := Ideal) V c 3 t (ix2 κ q) = V c main_arg14 (ix2 κ q) := by
  obtain ⟨-, -, -, -, -, -, -, -, e0, e1, -⟩ := index_facts t
  show V c main_arg14 (((cfg1.win 3).blk t).view.emb (ix2 κ q)) = _
  congr 1
  funext a
  apply Fin.ext
  match a with
  | ⟨0, _⟩ => show win1_3.index t (0 : Fin 2) * 128 + 1 * κ.val = κ.val; omega
  | ⟨1, _⟩ => show win1_3.index t (1 : Fin 2) * 128 + 1 * q.val = q.val; omega

/-- The right weights' block is the whole array at every point. -/
private theorem wr_block (c : Dev nD) (t : Fin cfg1.N) (κ : Fin 128) (q : Fin 128) :
    iblk1 (F := Ideal) V c 4 t (ix2 κ q) = V c main_arg15 (ix2 κ q) := by
  obtain ⟨-, -, -, -, -, -, -, -, -, -, e0, e1, -⟩ := index_facts t
  show V c main_arg15 (((cfg1.win 4).blk t).view.emb (ix2 κ q)) = _
  congr 1
  funext a
  apply Fin.ext
  match a with
  | ⟨0, _⟩ => show win1_4.index t (0 : Fin 2) * 128 + 1 * κ.val = κ.val; omega
  | ⟨1, _⟩ => show win1_4.index t (1 : Fin 2) * 128 + 1 * q.val = q.val; omega

/-- The bias row's block is the whole row at every point. -/
private theorem bias_block (c : Dev nD) (t : Fin cfg1.N) (q : Fin 128) :
    iblk1 (F := Ideal) V c 5 t (ix1 q) = V c main_arg16 (ix1 q) := by
  obtain ⟨-, -, -, -, -, -, -, -, -, -, -, -, e0⟩ := index_facts t
  show V c main_arg16 (((cfg1.win 5).blk t).view.emb (ix1 q)) = _
  congr 1
  funext a
  apply Fin.ext
  match a with
  | ⟨0, _⟩ => show win1_5.index t (0 : Fin 1) * 128 + 1 * q.val = q.val; omega

/-- The combine is row-local: entry (p, q) of the combine of the blocks at point t is entry (10000 t + p, q) of the
    combine of the arrays. -/
private theorem comb_block (c : Dev nD) (t : Fin cfg1.N) (p : Fin 10000) (q : Fin 128) :
    Cert.Spec.combAt (n := 10000) (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) p q
      = Cert.Spec.combAt (n := 100000) (V c main_v32) (V c main_v23) (V c main_v1) (V c main_arg14) (V c main_arg15) (V c main_arg16) (row t p) q := by
  unfold Cert.Spec.combAt Cert.Spec.dotAt
  rw [bias_block V c t q, deg_block V c t p 0]
  congr 2
  congr 1
  · exact Finset.sum_congr rfl fun κ _ => by rw [agg_block V c t p κ, wl_block V c t κ q]
  · exact Finset.sum_congr rfl fun κ _ => by rw [dst_block V c t p κ, wr_block V c t κ q]

/-- What point t writes back is its block of the combine of the arrays. -/
private theorem flushed_eq (c : Dev nD) (t : Fin cfg1.N) :
    (dat1 (F := Ideal) V c).flushed 6 t = ((cfg1.win 6).blk t).view.read (Elt Ideal)
      (Cert.Spec.comb (n := 100000) (V c main_v32) (V c main_v23) (V c main_v1) (V c main_arg14) (V c main_arg15) (V c main_arg16)) := by
  show (cfg1.win 6).cut (grid1.coords t) ((dat1 V c).after 6 t) = _
  rw [after1_6]
  unfold out1_6
  rw [View.canon_unit_zero zero2]
  simp only [View.ld_unit_zero (S := S10000x128) zero2, View.ld_unit_zero (S := S10000x1) zero2,
    View.ld_unit_zero (S := S128x128) zero2, View.ld_unit_zero (S := S128) zero1]
  rw [KBody.combine1_payload]
  obtain ⟨e0, e1, -⟩ := index_facts t
  funext j
  obtain ⟨p, q, rfl⟩ : ∃ (p : Fin 10000) (q : Fin 128), j = ix2 p q := ⟨j 0, j 1, eq_ix2 j⟩
  have hemb : ((cfg1.win 6).blk t).view.emb (ix2 p q) = ix2 (row t p) q := by
    funext a
    apply Fin.ext
    match a with
    | ⟨0, _⟩ => show win1_6.index t (0 : Fin 2) * 10000 + 1 * p.val = t.val * 10000 + p.val; omega
    | ⟨1, _⟩ => show win1_6.index t (1 : Fin 2) * 128 + 1 * q.val = q.val; omega
  show Cert.Spec.combAt (n := 10000) (iblk1 (F := Ideal) V c 0 t) (iblk1 (F := Ideal) V c 1 t) (iblk1 (F := Ideal) V c 2 t)
        (iblk1 (F := Ideal) V c 3 t) (iblk1 (F := Ideal) V c 4 t) (iblk1 (F := Ideal) V c 5 t) p q
      = Cert.Spec.comb (n := 100000) (V c main_v32) (V c main_v23) (V c main_v1) (V c main_arg14) (V c main_arg15) (V c main_arg16)
          (((cfg1.win 6).blk t).view.emb (ix2 p q))
  rw [hemb, Cert.Spec.comb_apply]
  exact comb_block V c t p q

/-- An index of the array is in point t's block iff each coordinate is in the block's range on its axis. -/
private theorem mem_block (t : Fin cfg1.N) (i : S100000x128.Idx) :
    i ∈ ((cfg1.win 6).blk t).view.set ↔ ∀ a : Fin 2, win1_6.index t a * S10000x128.size a ≤ (i a).val ∧ (i a).val < win1_6.index t a * S10000x128.size a + S10000x128.size a := by
  show i ∈ ((View.whole main_v33).slice (win1_6.rect t)).set ↔ _
  rw [View.set_slice_whole, Rect.mem_set_unit]
  exact Iff.rfl

/-- Every index of the array is in some point's block: row r is in the block of point r / 10000. -/
private theorem covered (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, by rw [show cfg1.N = 10 from N_1]; omega⟩, rfl⟩
  obtain ⟨e0, e1, -⟩ := index_facts t
  refine ⟨t, flush1_6 t, ?_⟩
  rw [mem_block]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- After region 1 its output array is the combine of the arrays the region found. -/
theorem final (c : Dev nD) :
    (dat1 (F := Ideal) V c).arrAt 6 cfg1.N
      = Cert.Spec.comb (n := 100000) (V c main_v32) (V c main_v23) (V c main_v1) (V c main_arg14) (V c main_arg15) (V c main_arg16) := by
  exact (dat1 (F := Ideal) V c).arrAt_eq_of_cover 6 _ (fun t _ => flushed_eq V c t) covered

end Cert.KernelIdeal.KReg1

end
-- ==== Proof.Trace1.lean ====
/-
  The buffer contents after region 1 (boundary W7) in terms of the contents after region 0 (boundary W2): the element embedding rows, the two rows of each edge list, the two reciprocal-degree columns, and region 1's output, the layer-1 material features; every other buffer the later segments read is unchanged.
-/
import proofs.«415858_j28896539968211_2_alg».proof.Proof.Gen.KernelIdeal.Frame
import proofs.«415858_j28896539968211_2_alg».proof.Proof.KFun
import proofs.«415858_j28896539968211_2_alg».proof.Proof.Spec
import proofs.«415858_j28896539968211_2_alg».proof.Proof.TraceTac
import proofs.«415858_j28896539968211_2_alg».proof.Proof.KReg1
import proofs.«415858_j28896539968211_2_alg».proof.Proof.KBody
import Idealize.ShloMosaic.Lib.StableHlo.Run

set_option maxRecDepth 16384

noncomputable section

namespace Cert.KernelIdeal.Trace1

open Cert.KernelIdeal Cert.KernelIdeal.Gen Cert.KernelIdeal.KFun Cert.KernelIdeal.TraceTac
open Idealize.ShloMosaic Idealize.ShloMosaic.TcCoe Idealize.SL.Sem Idealize.ShloMosaic.StableHlo

section AnyInstance

variable {F : FTy → Type} [FloatOps F] (m : (ℓ : Loc nD τ sig) → Buf (Elt F) ℓ) (ρ : Dev nD → PrngReg)

/-! ## Buffers the stretches leave alone -/

/-- A buffer none of the four stretches between regions 0 and 1 writes is, at region 1's entry, what region 0
    left there: the four facts "this stretch does not write it", chained. -/
theorem W6_keep (c : Dev nD) (b : DevRef τ sig)
    (h3 : StableHlo.after hostOps1_3 (W5 m ρ c) b = W5 m ρ c b)
    (h2 : StableHlo.after hostOps1_2 (W4 m ρ c) b = W4 m ρ c b)
    (h1 : StableHlo.after hostOps1_1 (W3 m ρ c) b = W3 m ρ c b)
    (h0 : StableHlo.after hostOps1 (W2 m ρ c) b = W2 m ρ c b) : W6 m ρ c b = W2 m ρ c b :=
  h3.trans (h2.trans (h1.trans h0))

/-- The same through region 1, when the region holds the buffer in none of its windows. -/
theorem W7_keep (c : Dev nD) (b : Ref sig .tc) (hb : ∀ w, Pipeline.arrRef spec1 w ≠ b)
    (h3 : StableHlo.after hostOps1_3 (W5 m ρ c) (Proc.devRef .tc b) = W5 m ρ c (Proc.devRef .tc b))
    (h2 : StableHlo.after hostOps1_2 (W4 m ρ c) (Proc.devRef .tc b) = W4 m ρ c (Proc.devRef .tc b))
    (h1 : StableHlo.after hostOps1_1 (W3 m ρ c) (Proc.devRef .tc b) = W3 m ρ c (Proc.devRef .tc b))
    (h0 : StableHlo.after hostOps1 (W2 m ρ c) (Proc.devRef .tc b) = W2 m ρ c (Proc.devRef .tc b)) :
    W7 m ρ c (Proc.devRef .tc b) = W2 m ρ c (Proc.devRef .tc b) :=
  (W7_of_ne m ρ c b hb).trans (W6_keep m ρ c _ h3 h2 h1 h0)

/-- Region 1 returns an input window's array as it found it. -/
theorem W7_in (c : Dev nD) (w : Fin cfg1.W) (hin : (cfg1.win w).isOut = false) :
    W7 m ρ c (Proc.devRef .tc (Pipeline.arrRef spec1 w)) = W6 m ρ c (Proc.devRef .tc (Pipeline.arrRef spec1 w)) :=
  (W7_arr m ρ c w).trans (((dat1 (V6 m ρ) c).arrAt_in w hin _).trans (A_eq1 (V6 m ρ) c w))

/-! ## What the stretches compute -/

set_option maxHeartbeats 8000000 in
/-- The first stretch after region 0 takes the element embedding rows at the element node ids. Over any contents: the stretch's operations are the program's row take, read back operation by
    operation; a write then a read of one typed reference cancels, and the three casts left over, on the two
    inputs and the output, are identities by computation. -/
theorem take_element (W : Valuation τ sig (Elt F)) :
    StableHlo.after hostOps1 W (Proc.devRef .tc main_v2)
      = take100 (F := F) (W (Proc.devRef .tc main_arg6)) (W (Proc.devRef .tc main_arg2)) := by
  dsimp only [hostOps1]
  after_results
  simp only [ofBuf_toBuf]
  have eI : (TRef.of main_arg2 : TRef sig ⟨S100000, .i32⟩).ofBuf (W (Proc.devRef .tc main_arg2)) = W (Proc.devRef .tc main_arg2) := rfl
  have eT : (TRef.of main_arg6 : TRef sig ⟨S100000x128, .f32⟩).ofBuf (W (Proc.devRef .tc main_arg6)) = W (Proc.devRef .tc main_arg6) := rfl
  rw [eI, eT]
  unfold take100 inRange100 col100 wrap100
  exact (show ∀ v : (⟨S100000x128, .f32⟩ : BufTy).Contents (Elt F),
      (TRef.of main_v2 : TRef sig ⟨S100000x128, .f32⟩).toBuf v = v from fun _ => rfl) _

/-- At the boundary after region 0. -/
theorem W3_v2 (c : Dev nD) :
    W3 m ρ c (Proc.devRef .tc main_v2) = take100 (F := F) (W2 m ρ c (Proc.devRef .tc main_arg6)) (W2 m ρ c (Proc.devRef .tc main_arg2)) :=
  take_element (W2 m ρ c)

/-- The first stretch writes neither edge list. -/
theorem W3_arg4 (c : Dev nD) : W3 m ρ c (Proc.devRef .tc main_arg4) = W2 m ρ c (Proc.devRef .tc main_arg4) := by
  show StableHlo.after hostOps1 (W2 m ρ c) (Proc.devRef .tc main_arg4) = _
  unwritten hostOps1
theorem W3_arg3 (c : Dev nD) : W3 m ρ c (Proc.devRef .tc main_arg3) = W2 m ρ c (Proc.devRef .tc main_arg3) := by
  show StableHlo.after hostOps1 (W2 m ρ c) (Proc.devRef .tc main_arg3) = _
  unwritten hostOps1

set_option maxHeartbeats 8000000 in
/-- The source ids of the element→material edges. -/
theorem W4_v4 (c : Dev nD) : W4 m ρ c (Proc.devRef .tc main_v4) = srcRow (W2 m ρ c (Proc.devRef .tc main_arg4)) := by
  rw [← W3_arg4 m ρ c]
  dsimp only [W4, hostOps1_1]
  after_results
  rfl
set_option maxHeartbeats 8000000 in
/-- Their destination ids. -/
theorem W4_v6 (c : Dev nD) : W4 m ρ c (Proc.devRef .tc main_v6) = dstRow (W2 m ρ c (Proc.devRef .tc main_arg4)) := by
  rw [← W3_arg4 m ρ c]
  dsimp only [W4, hostOps1_1]
  after_results
  rfl
set_option maxHeartbeats 8000000 in
/-- The source ids of the material→element edges. -/
theorem W4_v8 (c : Dev nD) : W4 m ρ c (Proc.devRef .tc main_v8) = srcRow (W2 m ρ c (Proc.devRef .tc main_arg3)) := by
  rw [← W3_arg3 m ρ c]
  dsimp only [W4, hostOps1_1]
  after_results
  rfl
set_option maxHeartbeats 8000000 in
/-- Their destination ids. -/
theorem W4_v10 (c : Dev nD) : W4 m ρ c (Proc.devRef .tc main_v10) = dstRow (W2 m ρ c (Proc.devRef .tc main_arg3)) := by
  rw [← W3_arg3 m ρ c]
  dsimp only [W4, hostOps1_1]
  after_results
  rfl
set_option maxHeartbeats 8000000 in
/-- The reciprocal-degree column of the element→material relation. -/
theorem W4_v23 (c : Dev nD) : W4 m ρ c (Proc.devRef .tc main_v23) = invDeg (F := F) (dstRow (W2 m ρ c (Proc.devRef .tc main_arg4))) := by
  rw [← W3_arg4 m ρ c]
  dsimp only [W4, hostOps1_1]
  after_results
  rfl
set_option maxHeartbeats 8000000 in
/-- The reciprocal-degree column of the material→element relation. -/
theorem W4_v28 (c : Dev nD) : W4 m ρ c (Proc.devRef .tc main_v28) = invDeg (F := F) (dstRow (W2 m ρ c (Proc.devRef .tc main_arg3))) := by
  rw [← W3_arg3 m ρ c]
  dsimp only [W4, hostOps1_1]
  after_results
  rfl

/-- The second stretch leaves the element rows alone. -/
theorem W4_v2 (c : Dev nD) : W4 m ρ c (Proc.devRef .tc main_v2) = W3 m ρ c (Proc.devRef .tc main_v2) := by
  show StableHlo.after hostOps1_1 (W3 m ρ c) (Proc.devRef .tc main_v2) = _
  unwritten hostOps1_1

set_option maxHeartbeats 8000000 in
/-- The third stretch takes the element rows at the element→material edges' source ids. Over any contents: the stretch's operations are the program's row take, read back operation by
    operation; a write then a read of one typed reference cancels, and the three casts left over, on the two
    inputs and the output, are identities by computation. -/
theorem take_element_rows (W : Valuation τ sig (Elt F)) :
    StableHlo.after hostOps1_2 W (Proc.devRef .tc main_v29)
      = take400 (F := F) (W (Proc.devRef .tc main_v2)) (W (Proc.devRef .tc main_v4)) := by
  dsimp only [hostOps1_2]
  after_results
  simp only [ofBuf_toBuf]
  have eI : (TRef.of main_v4 : TRef sig ⟨S400000, .i32⟩).ofBuf (W (Proc.devRef .tc main_v4)) = W (Proc.devRef .tc main_v4) := rfl
  have eT : (TRef.of main_v2 : TRef sig ⟨S100000x128, .f32⟩).ofBuf (W (Proc.devRef .tc main_v2)) = W (Proc.devRef .tc main_v2) := rfl
  rw [eI, eT]
  unfold take400 inRange400 col400 wrap400
  exact (show ∀ v : (⟨S400000x128, .f32⟩ : BufTy).Contents (Elt F),
      (TRef.of main_v29 : TRef sig ⟨S400000x128, .f32⟩).toBuf v = v from fun _ => rfl) _

/-- At the contents the second stretch left. -/
theorem W5_v29 (c : Dev nD) :
    W5 m ρ c (Proc.devRef .tc main_v29) = take400 (F := F) (W4 m ρ c (Proc.devRef .tc main_v2)) (W4 m ρ c (Proc.devRef .tc main_v4)) :=
  take_element_rows (W4 m ρ c)

/-- The third stretch leaves the destination ids alone. -/
theorem W5_v6 (c : Dev nD) : W5 m ρ c (Proc.devRef .tc main_v6) = W4 m ρ c (Proc.devRef .tc main_v6) := by
  show StableHlo.after hostOps1_2 (W4 m ρ c) (Proc.devRef .tc main_v6) = _
  unwritten hostOps1_2

set_option maxHeartbeats 8000000 in
/-- Those rows summed at the edges' destination ids: layer 1's material-side aggregate. -/
theorem W6_v32 (c : Dev nD) :
    W6 m ρ c (Proc.devRef .tc main_v32) = segSum (F := F) (W5 m ρ c (Proc.devRef .tc main_v6)) (W5 m ρ c (Proc.devRef .tc main_v29)) := by
  dsimp only [W6, hostOps1_3]
  after_results
  rfl

/-! ## The boundary after region 1, in terms of the boundary after region 0 -/

/-- What the second stretch computed reaches region 1's entry: the last two stretches do not write it. -/
theorem W6_of_W4 (c : Dev nD) (b : DevRef τ sig)
    (h3 : StableHlo.after hostOps1_3 (W5 m ρ c) b = W5 m ρ c b)
    (h2 : StableHlo.after hostOps1_2 (W4 m ρ c) b = W4 m ρ c b) : W6 m ρ c b = W4 m ρ c b :=
  h3.trans h2

/-- … and the region's exit, when the region holds it in none of its windows. -/
theorem W7_of_W4 (c : Dev nD) (b : Ref sig .tc) (hb : ∀ w, Pipeline.arrRef spec1 w ≠ b)
    (h3 : StableHlo.after hostOps1_3 (W5 m ρ c) (Proc.devRef .tc b) = W5 m ρ c (Proc.devRef .tc b))
    (h2 : StableHlo.after hostOps1_2 (W4 m ρ c) (Proc.devRef .tc b) = W4 m ρ c (Proc.devRef .tc b)) :
    W7 m ρ c (Proc.devRef .tc b) = W4 m ρ c (Proc.devRef .tc b) :=
  (W7_of_ne m ρ c b hb).trans (W6_of_W4 m ρ c _ h3 h2)

theorem W6_v23 (c : Dev nD) : W6 m ρ c (Proc.devRef .tc main_v23) = invDeg (F := F) (dstRow (W2 m ρ c (Proc.devRef .tc main_arg4))) :=
  (W6_of_W4 m ρ c (Proc.devRef .tc main_v23) (by unwritten hostOps1_3) (by unwritten hostOps1_2)).trans (W4_v23 m ρ c)

/-- Layer 1's material-side aggregate, from the boundary after region 0. -/
theorem W6_v32_eq (c : Dev nD) :
    W6 m ρ c (Proc.devRef .tc main_v32)
      = segSum (F := F) (dstRow (W2 m ρ c (Proc.devRef .tc main_arg4)))
          (take400 (F := F) (take100 (F := F) (W2 m ρ c (Proc.devRef .tc main_arg6)) (W2 m ρ c (Proc.devRef .tc main_arg2))) (srcRow (W2 m ρ c (Proc.devRef .tc main_arg4)))) := by
  rw [W6_v32, W5_v6, W4_v6, W5_v29, W4_v2, W3_v2, W4_v4]

end AnyInstance

section AtIdeal

variable (m : (ℓ : Loc nD τ sig) → Buf (Elt Ideal) ℓ) (ρ : Dev nD → PrngReg)

/-- Region 1 leaves layer 1's material features: the combine of that aggregate, the reciprocal degrees, the material
    encoding and the layer's weights. -/
theorem W7_v33 (c : Dev nD) :
    W7 m ρ c (Proc.devRef .tc main_v33)
      = Cert.Spec.comb (n := 100000)
          (segSum (F := Ideal) (dstRow (W2 m ρ c (Proc.devRef .tc main_arg4)))
            (take400 (F := Ideal) (take100 (F := Ideal) (W2 m ρ c (Proc.devRef .tc main_arg6)) (W2 m ρ c (Proc.devRef .tc main_arg2))) (srcRow (W2 m ρ c (Proc.devRef .tc main_arg4)))))
          (invDeg (F := Ideal) (dstRow (W2 m ρ c (Proc.devRef .tc main_arg4))))
          (W2 m ρ c (Proc.devRef .tc main_v1)) (W2 m ρ c (Proc.devRef .tc main_arg14)) (W2 m ρ c (Proc.devRef .tc main_arg15)) (W2 m ρ c (Proc.devRef .tc main_arg16)) := by
  refine (W7_arr m ρ c 6).trans ((Cert.KernelIdeal.KReg1.final (V6 m ρ) c).trans ?_)
  show Cert.Spec.comb (n := 100000) (W6 m ρ c (Proc.devRef .tc main_v32)) (W6 m ρ c (Proc.devRef .tc main_v23)) (W6 m ρ c (Proc.devRef .tc main_v1))
      (W6 m ρ c (Proc.devRef .tc main_arg14)) (W6 m ρ c (Proc.devRef .tc main_arg15)) (W6 m ρ c (Proc.devRef .tc main_arg16)) = _
  rw [W6_v32_eq, W6_v23,
    W6_keep m ρ c (Proc.devRef .tc main_v1) (by unwritten hostOps1_3) (by unwritten hostOps1_2) (by unwritten hostOps1_1) (by unwritten hostOps1),
    W6_keep m ρ c (Proc.devRef .tc main_arg14) (by unwritten hostOps1_3) (by unwritten hostOps1_2) (by unwritten hostOps1_1) (by unwritten hostOps1),
    W6_keep m ρ c (Proc.devRef .tc main_arg15) (by unwritten hostOps1_3) (by unwritten hostOps1_2) (by unwritten hostOps1_1) (by unwritten hostOps1),
    W6_keep m ρ c (Proc.devRef .tc main_arg16) (by unwritten hostOps1_3) (by unwritten hostOps1_2) (by unwritten hostOps1_1) (by unwritten hostOps1)]

/-- The material encoding, an input of region 1, is still there. -/
theorem W7_v1 (c : Dev nD) : W7 m ρ c (Proc.devRef .tc main_v1) = W2 m ρ c (Proc.devRef .tc main_v1) :=
  (W7_in m ρ c 2 rfl).trans (W6_keep m ρ c (Proc.devRef .tc main_v1) (by unwritten hostOps1_3) (by unwritten hostOps1_2) (by unwritten hostOps1_1) (by unwritten hostOps1))

/-- So is the reciprocal-degree column it read. -/
theorem W7_v23 (c : Dev nD) : W7 m ρ c (Proc.devRef .tc main_v23) = invDeg (F := Ideal) (dstRow (W2 m ρ c (Proc.devRef .tc main_arg4))) :=
  (W7_in m ρ c 1 rfl).trans (W6_v23 m ρ c)

theorem W7_v2 (c : Dev nD) :
    W7 m ρ c (Proc.devRef .tc main_v2) = take100 (F := Ideal) (W2 m ρ c (Proc.devRef .tc main_arg6)) (W2 m ρ c (Proc.devRef .tc main_arg2)) :=
  (W7_of_W4 m ρ c main_v2 (by decide) (by unwritten hostOps1_3) (by unwritten hostOps1_2)).trans ((W4_v2 m ρ c).trans (W3_v2 m ρ c))
theorem W7_v4 (c : Dev nD) : W7 m ρ c (Proc.devRef .tc main_v4) = srcRow (W2 m ρ c (Proc.devRef .tc main_arg4)) :=
  (W7_of_W4 m ρ c main_v4 (by decide) (by unwritten hostOps1_3) (by unwritten hostOps1_2)).trans (W4_v4 m ρ c)
theorem W7_v6 (c : Dev nD) : W7 m ρ c (Proc.devRef .tc main_v6) = dstRow (W2 m ρ c (Proc.devRef .tc main_arg4)) :=
  (W7_of_W4 m ρ c main_v6 (by decide) (by unwritten hostOps1_3) (by unwritten hostOps1_2)).trans (W4_v6 m ρ c)
theorem W7_v8 (c : Dev nD) : W7 m ρ c (Proc.devRef .tc main_v8) = srcRow (W2 m ρ c (Proc.devRef .tc main_arg3)) :=
  (W7_of_W4 m ρ c main_v8 (by decide) (by unwritten hostOps1_3) (by unwritten hostOps1_2)).trans (W4_v8 m ρ c)
theorem W7_v10 (c : Dev nD) : W7 m ρ c (Proc.devRef .tc main_v10) = dstRow (W2 m ρ c (Proc.devRef .tc main_arg3)) :=
  (W7_of_W4 m ρ c main_v10 (by decide) (by unwritten hostOps1_3) (by unwritten hostOps1_2)).trans (W4_v10 m ρ c)
theorem W7_v28 (c : Dev nD) : W7 m ρ c (Proc.devRef .tc main_v28) = invDeg (F := Ideal) (dstRow (W2 m ρ c (Proc.devRef .tc main_arg3))) :=
  (W7_of_W4 m ρ c main_v28 (by decide) (by unwritten hostOps1_3) (by unwritten hostOps1_2)).trans (W4_v28 m ρ c)

end AtIdeal

end Cert.KernelIdeal.Trace1

end
-- ==== Proof.KReg2.lean ====
/-
  Region 2, the second SAGE combine (element side of layer 1) over ten blocks of 10000 rows: the array it leaves is `Spec.comb` of the six arrays it read.
-/
import proofs.«415858_j28896539968211_2_alg».proof.Proof.Gen.KernelIdeal.Frame
import proofs.«415858_j28896539968211_2_alg».proof.Proof.KBody
import proofs.«415858_j28896539968211_2_alg».proof.Proof.Spec
import Idealize.ShloMosaic.Lib.Pipeline.Value
import Idealize.ShloMosaic.Lib.ValueIdx

set_option maxRecDepth 16384

noncomputable section

namespace Cert.KernelIdeal.KReg2

open Cert.KernelIdeal Cert.KernelIdeal.Gen Idealize.ShloMosaic Idealize.ShloMosaic.TcCoe Idealize.SL.Sem Idealize.ShloMosaic.ValueIdx
open Idealize.ShloMosaic.Pipeline (Dat Cfg Window)

/- The buffer contents the region finds, a parameter: the run supplies the boundary's contents. -/
variable (V : (c : Dev nD) → (b : Ref sig .tc) → Buf (Elt Ideal) ((c : Thread nD τ).loc b))

/-- Two zero offsets, however spelt. -/
private theorem zero2 : (![0, 0] : Fin 2 → Nat) = fun _ => 0 :=
  funext fun a => match a with | ⟨0, _⟩ => rfl | ⟨1, _⟩ => rfl

/-- One zero offset. -/
private theorem zero1 : (![0] : Fin 1 → Nat) = fun _ => 0 :=
  funext fun a => match a with | ⟨0, _⟩ => rfl

/-- The index maps over the ten points: the output's row block is the point's own number; the three row-blocked
    inputs move with it; the weights and the bias stay at block 0; every column block is 0. -/
private theorem index_facts : ∀ t : Fin cfg2.N,
    win2_6.index t (0 : Fin 2) = t.val ∧ win2_6.index t (1 : Fin 2) = 0
    ∧ win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 1) = 0 :=
  (by decide +kernel : ∀ t : Fin grid2.N, _)

/-- A point's number is below ten. -/
private theorem point_lt (t : Fin cfg2.N) : t.val < 10 := by
  have h := t.isLt
  have hN : cfg2.N = 10 := N_2
  omega

/-- Row p of point t's block is row 10000 t + p of the array. -/
private abbrev row (t : Fin cfg2.N) (p : Fin 10000) : Fin 100000 :=
  ⟨t.val * 10000 + p.val, by have := point_lt t; have := p.isLt; omega⟩

/-- The aggregate's block at point t, entry by entry. -/
private theorem agg_block (c : Dev nD) (t : Fin cfg2.N) (p : Fin 10000) (κ : Fin 128) :
    iblk2 (F := Ideal) V c 0 t (ix2 p κ) = V c main_v37 (ix2 (row t p) κ) := by
  obtain ⟨-, -, e0, e1, -⟩ := index_facts t
  show V c main_v37 (((cfg2.win 0).blk t).view.emb (ix2 p κ)) = _
  congr 1
  funext a
  apply Fin.ext
  match a with
  | ⟨0, _⟩ => show win2_0.index t (0 : Fin 2) * 10000 + 1 * p.val = t.val * 10000 + p.val; omega
  | ⟨1, _⟩ => show win2_0.index t (1 : Fin 2) * 128 + 1 * κ.val = κ.val; omega

/-- The reciprocal degrees' block at point t. -/
private theorem deg_block (c : Dev nD) (t : Fin cfg2.N) (p : Fin 10000) (κ : Fin 1) :
    iblk2 (F := Ideal) V c 1 t (ix2 p κ) = V c main_v28 (ix2 (row t p) κ) := by
  obtain ⟨-, -, -, -, e0, e1, -⟩ := index_facts t
  show V c main_v28 (((cfg2.win 1).blk t).view.emb (ix2 p κ)) = _
  congr 1
  funext a
  apply Fin.ext
  match a with
  | ⟨0, _⟩ => show win2_1.index t (0 : Fin 2) * 10000 + 1 * p.val = t.val * 10000 + p.val; omega
  | ⟨1, _⟩ => show win2_1.index t (1 : Fin 2) * 1 + 1 * κ.val = κ.val; omega

/-- The destination features' block at point t. -/
private theorem dst_block (c : Dev nD) (t : Fin cfg2.N) (p : Fin 10000) (κ : Fin 128) :
    iblk2 (F := Ideal) V c 2 t (ix2 p κ) = V c main_v2 (ix2 (row t p) κ) := by
  obtain ⟨-, -, -, -, -, -, e0, e1, -⟩ := index_facts t
  show V c main_v2 (((cfg2.win 2).blk t).view.emb (ix2 p κ)) = _
  congr 1
  funext a
  apply Fin.ext
  match a with
  | ⟨0, _⟩ => show win2_2.index t (0 : Fin 2) * 10000 + 1 * p.val = t.val * 10000 + p.val; omega
  | ⟨1, _⟩ => show win2_2.index t (1 : Fin 2) * 128 + 1 * κ.val = κ.val; omega

/-- The left weights' block is the whole array at every point. -/
private theorem wl_block (c : Dev nD) (t : Fin cfg2.N) (κ : Fin 128) (q : Fin 128) :
    iblk2 (F := Ideal) V c 3 t (ix2 κ q) = V c main_arg11 (ix2 κ q) := by
  obtain ⟨-, -, -, -, -, -, -, -, e0, e1, -⟩ := index_facts t
  show V c main_arg11 (((cfg2.win 3).blk t).view.emb (ix2 κ q)) = _
  congr 1
  funext a
  apply Fin.ext
  match a with
  | ⟨0, _⟩ => show win2_3.index t (0 : Fin 2) * 128 + 1 * κ.val = κ.val; omega
  | ⟨1, _⟩ => show win2_3.index t (1 : Fin 2) * 128 + 1 * q.val = q.val; omega

/-- The right weights' block is the whole array at every point. -/
private theorem wr_block (c : Dev nD) (t : Fin cfg2.N) (κ : Fin 128) (q : Fin 128) :
    iblk2 (F := Ideal) V c 4 t (ix2 κ q) = V c main_arg12 (ix2 κ q) := by
  obtain ⟨-, -, -, -, -, -, -, -, -, -, e0, e1, -⟩ := index_facts t
  show V c main_arg12 (((cfg2.win 4).blk t).view.emb (ix2 κ q)) = _
  congr 1
  funext a
  apply Fin.ext
  match a with
  | ⟨0, _⟩ => show win2_4.index t (0 : Fin 2) * 128 + 1 * κ.val = κ.val; omega
  | ⟨1, _⟩ => show win2_4.index t (1 : Fin 2) * 128 + 1 * q.val = q.val; omega

/-- The bias row's block is the whole row at every point. -/
private theorem bias_block (c : Dev nD) (t : Fin cfg2.N) (q : Fin 128) :
    iblk2 (F := Ideal) V c 5 t (ix1 q) = V c main_arg13 (ix1 q) := by
  obtain ⟨-, -, -, -, -, -, -, -, -, -, -, -, e0⟩ := index_facts t
  show V c main_arg13 (((cfg2.win 5).blk t).view.emb (ix1 q)) = _
  congr 1
  funext a
  apply Fin.ext
  match a with
  | ⟨0, _⟩ => show win2_5.index t (0 : Fin 1) * 128 + 1 * q.val = q.val; omega

/-- The combine is row-local: entry (p, q) of the combine of the blocks at point t is entry (10000 t + p, q) of the
    combine of the arrays. -/
private theorem comb_block (c : Dev nD) (t : Fin cfg2.N) (p : Fin 10000) (q : Fin 128) :
    Cert.Spec.combAt (n := 10000) (iblk2 (F := Ideal) V c 0 t) (iblk2 (F := Ideal) V c 1 t) (iblk2 (F := Ideal) V c 2 t)
        (iblk2 (F := Ideal) V c 3 t) (iblk2 (F := Ideal) V c 4 t) (iblk2 (F := Ideal) V c 5 t) p q
      = Cert.Spec.combAt (n := 100000) (V c main_v37) (V c main_v28) (V c main_v2) (V c main_arg11) (V c main_arg12) (V c main_arg13) (row t p) q := by
  unfold Cert.Spec.combAt Cert.Spec.dotAt
  rw [bias_block V c t q, deg_block V c t p 0]
  congr 2
  congr 1
  · exact Finset.sum_congr rfl fun κ _ => by rw [agg_block V c t p κ, wl_block V c t κ q]
  · exact Finset.sum_congr rfl fun κ _ => by rw [dst_block V c t p κ, wr_block V c t κ q]

/-- What point t writes back is its block of the combine of the arrays. -/
private theorem flushed_eq (c : Dev nD) (t : Fin cfg2.N) :
    (dat2 (F := Ideal) V c).flushed 6 t = ((cfg2.win 6).blk t).view.read (Elt Ideal)
      (Cert.Spec.comb (n := 100000) (V c main_v37) (V c main_v28) (V c main_v2) (V c main_arg11) (V c main_arg12) (V c main_arg13)) := by
  show (cfg2.win 6).cut (grid2.coords t) ((dat2 V c).after 6 t) = _
  rw [after2_6]
  unfold out2_6
  rw [View.canon_unit_zero zero2]
  simp only [View.ld_unit_zero (S := S10000x128) zero2, View.ld_unit_zero (S := S10000x1) zero2,
    View.ld_unit_zero (S := S128x128) zero2, View.ld_unit_zero (S := S128) zero1]
  rw [KBody.combine2_payload]
  obtain ⟨e0, e1, -⟩ := index_facts t
  funext j
  obtain ⟨p, q, rfl⟩ : ∃ (p : Fin 10000) (q : Fin 128), j = ix2 p q := ⟨j 0, j 1, eq_ix2 j⟩
  have hemb : ((cfg2.win 6).blk t).view.emb (ix2 p q) = ix2 (row t p) q := by
    funext a
    apply Fin.ext
    match a with
    | ⟨0, _⟩ => show win2_6.index t (0 : Fin 2) * 10000 + 1 * p.val = t.val * 10000 + p.val; omega
    | ⟨1, _⟩ => show win2_6.index t (1 : Fin 2) * 128 + 1 * q.val = q.val; omega
  show Cert.Spec.combAt (n := 10000) (iblk2 (F := Ideal) V c 0 t) (iblk2 (F := Ideal) V c 1 t) (iblk2 (F := Ideal) V c 2 t)
        (iblk2 (F := Ideal) V c 3 t) (iblk2 (F := Ideal) V c 4 t) (iblk2 (F := Ideal) V c 5 t) p q
      = Cert.Spec.comb (n := 100000) (V c main_v37) (V c main_v28) (V c main_v2) (V c main_arg11) (V c main_arg12) (V c main_arg13)
          (((cfg2.win 6).blk t).view.emb (ix2 p q))
  rw [hemb, Cert.Spec.comb_apply]
  exact comb_block V c t p q

/-- An index of the array is in point t's block iff each coordinate is in the block's range on its axis. -/
private theorem mem_block (t : Fin cfg2.N) (i : S100000x128.Idx) :
    i ∈ ((cfg2.win 6).blk t).view.set ↔ ∀ a : Fin 2, win2_6.index t a * S10000x128.size a ≤ (i a).val ∧ (i a).val < win2_6.index t a * S10000x128.size a + S10000x128.size a := by
  show i ∈ ((View.whole main_v38).slice (win2_6.rect t)).set ↔ _
  rw [View.set_slice_whole, Rect.mem_set_unit]
  exact Iff.rfl

/-- Every index of the array is in some point's block: row r is in the block of point r / 10000. -/
private theorem covered (i : S100000x128.Idx) :
    ∃ t : Fin cfg2.N, (cfg2.win 6).flush t = true ∧ i ∈ ((cfg2.win 6).blk t).view.set := by
  have hi0 : (i 0).val < 100000 := (i 0).isLt
  have hi1 : (i 1).val < 128 := (i 1).isLt
  obtain ⟨t, ht⟩ : ∃ t : Fin cfg2.N, t.val = (i 0).val / 10000 :=
    ⟨⟨(i 0).val / 10000, by rw [show cfg2.N = 10 from N_2]; omega⟩, rfl⟩
  obtain ⟨e0, e1, -⟩ := index_facts t
  refine ⟨t, flush2_6 t, ?_⟩
  rw [mem_block]
  intro a
  match a with
  | ⟨0, _⟩ => show win2_6.index t (0 : Fin 2) * 10000 ≤ (i 0).val ∧ (i 0).val < win2_6.index t (0 : Fin 2) * 10000 + 10000; omega
  | ⟨1, _⟩ => show win2_6.index t (1 : Fin 2) * 128 ≤ (i 1).val ∧ (i 1).val < win2_6.index t (1 : Fin 2) * 128 + 128; omega

/-- After region 2 its output array is the combine of the arrays the region found. -/
theorem final (c : Dev nD) :
    (dat2 (F := Ideal) V c).arrAt 6 cfg2.N
      = Cert.Spec.comb (n := 100000) (V c main_v37) (V c main_v28) (V c main_v2) (V c main_arg11) (V c main_arg12) (V c main_arg13) := by
  exact (dat2 (F := Ideal) V c).arrAt_eq_of_cover 6 _ (fun t _ => flushed_eq V c t) covered

end Cert.KernelIdeal.KReg2

end
-- ==== Proof.Trace2.lean ====
/-
  The buffer contents after region 2 (boundary W10) in terms of the contents after region 1 (boundary W7): the material encoding taken at the material→element edges' source ids and summed at their destination ids, and region 2's output, the layer-1 element features; a buffer neither stretch writes and the region does not hold passes through.
-/
import proofs.«415858_j28896539968211_2_alg».proof.Proof.Gen.KernelIdeal.Frame
import proofs.«415858_j28896539968211_2_alg».proof.Proof.KFun
import proofs.«415858_j28896539968211_2_alg».proof.Proof.Spec
import proofs.«415858_j28896539968211_2_alg».proof.Proof.TraceTac
import proofs.«415858_j28896539968211_2_alg».proof.Proof.KReg2
import proofs.«415858_j28896539968211_2_alg».proof.Proof.KBody
import Idealize.ShloMosaic.Lib.StableHlo.Run

set_option maxRecDepth 16384

noncomputable section

namespace Cert.KernelIdeal.Trace2

open Cert.KernelIdeal Cert.KernelIdeal.Gen Cert.KernelIdeal.KFun Cert.KernelIdeal.TraceTac
open Idealize.ShloMosaic Idealize.ShloMosaic.TcCoe Idealize.SL.Sem Idealize.ShloMosaic.StableHlo

section AnyInstance

variable {F : FTy → Type} [FloatOps F] (m : (ℓ : Loc nD τ sig) → Buf (Elt F) ℓ) (ρ : Dev nD → PrngReg)

/-! ## Buffers the two stretches leave alone -/

/-- A buffer neither stretch before region 2 writes is, at the region's entry, what the previous boundary held. -/
theorem W9_keep (c : Dev nD) (b : DevRef τ sig)
    (h1 : StableHlo.after hostOps2_1 (W8 m ρ c) b = W8 m ρ c b)
    (h0 : StableHlo.after hostOps2 (W7 m ρ c) b = W7 m ρ c b) : W9 m ρ c b = W7 m ρ c b :=
  h1.trans h0

/-- The same through region 2, when the region holds the buffer in none of its windows. -/
theorem W10_keep (c : Dev nD) (b : Ref sig .tc) (hb : ∀ w, Pipeline.arrRef spec2 w ≠ b)
    (h1 : StableHlo.after hostOps2_1 (W8 m ρ c) (Proc.devRef .tc b) = W8 m ρ c (Proc.devRef .tc b))
    (h0 : StableHlo.after hostOps2 (W7 m ρ c) (Proc.devRef .tc b) = W7 m ρ c (Proc.devRef .tc b)) :
    W10 m ρ c (Proc.devRef .tc b) = W7 m ρ c (Proc.devRef .tc b) :=
  (W10_of_ne m ρ c b hb).trans (W9_keep m ρ c _ h1 h0)

/-! ## What the stretches compute -/

set_option maxHeartbeats 8000000 in
/-- The stretch before region 2 takes the material encoding's rows at the material→element edges' source ids. Over any contents: the stretch's
    operations are the program's row take, read back operation by operation; the casts a module-local function's
    typed references carry are identities (a write then a read of one typed reference cancels; the three left
    over, on the two inputs and the output, are identities by computation). -/
theorem take_rows (W : Valuation τ sig (Elt F)) :
    StableHlo.after hostOps2 W (Proc.devRef .tc main_v34)
      = take400 (F := F) (W (Proc.devRef .tc main_v1)) (W (Proc.devRef .tc main_v8)) := by
  dsimp only [hostOps2]
  after_results
  simp only [ofBuf_toBuf]
  have eI : (TRef.of main_v8 : TRef sig ⟨S400000, .i32⟩).ofBuf (W (Proc.devRef .tc main_v8)) = W (Proc.devRef .tc main_v8) := rfl
  have eT : (TRef.of main_v1 : TRef sig ⟨S100000x128, .f32⟩).ofBuf (W (Proc.devRef .tc main_v1)) = W (Proc.devRef .tc main_v1) := rfl
  rw [eI, eT]
  unfold take400 inRange400 col400 wrap400
  exact (show ∀ v : (⟨S400000x128, .f32⟩ : BufTy).Contents (Elt F),
      (TRef.of main_v34 : TRef sig ⟨S400000x128, .f32⟩).toBuf v = v from fun _ => rfl) _

/-- At the previous boundary's contents. -/
theorem W8_v34 (c : Dev nD) :
    W8 m ρ c (Proc.devRef .tc main_v34) = take400 (F := F) (W7 m ρ c (Proc.devRef .tc main_v1)) (W7 m ρ c (Proc.devRef .tc main_v8)) :=
  take_rows (W7 m ρ c)

set_option maxHeartbeats 8000000 in
/-- Those rows summed at the edges' destination ids. -/
theorem W9_v37 (c : Dev nD) :
    W9 m ρ c (Proc.devRef .tc main_v37) = segSum (F := F) (W8 m ρ c (Proc.devRef .tc main_v10)) (W8 m ρ c (Proc.devRef .tc main_v34)) := by
  dsimp only [W9, hostOps2_1]
  after_results
  rfl

/-- The first stretch leaves the destination ids alone. -/
theorem W8_v10 (c : Dev nD) : W8 m ρ c (Proc.devRef .tc main_v10) = W7 m ρ c (Proc.devRef .tc main_v10) := by
  show StableHlo.after hostOps2 (W7 m ρ c) (Proc.devRef .tc main_v10) = _
  unwritten hostOps2

end AnyInstance

section AtIdeal

variable (m : (ℓ : Loc nD τ sig) → Buf (Elt Ideal) ℓ) (ρ : Dev nD → PrngReg)

/-! ## The boundary after region 2 -/

/-- Region 2 leaves layer 1's element features: the combine of the element-side aggregate, its reciprocal degrees, the element rows and the layer's weights. -/
theorem W10_v38 (c : Dev nD) :
    W10 m ρ c (Proc.devRef .tc main_v38)
      = Cert.Spec.comb (n := 100000)
          (segSum (F := Ideal) (W7 m ρ c (Proc.devRef .tc main_v10)) (take400 (F := Ideal) (W7 m ρ c (Proc.devRef .tc main_v1)) (W7 m ρ c (Proc.devRef .tc main_v8))))
          (W7 m ρ c (Proc.devRef .tc main_v28)) (W7 m ρ c (Proc.devRef .tc main_v2))
          (W7 m ρ c (Proc.devRef .tc main_arg11)) (W7 m ρ c (Proc.devRef .tc main_arg12)) (W7 m ρ c (Proc.devRef .tc main_arg13)) := by
  refine (W10_arr m ρ c 6).trans ((Cert.KernelIdeal.KReg2.final (V9 m ρ) c).trans ?_)
  show Cert.Spec.comb (n := 100000) (W9 m ρ c (Proc.devRef .tc main_v37)) (W9 m ρ c (Proc.devRef .tc main_v28)) (W9 m ρ c (Proc.devRef .tc main_v2))
      (W9 m ρ c (Proc.devRef .tc main_arg11)) (W9 m ρ c (Proc.devRef .tc main_arg12)) (W9 m ρ c (Proc.devRef .tc main_arg13)) = _
  rw [W9_v37, W8_v10, W8_v34,
    W9_keep m ρ c (Proc.devRef .tc main_v28) (by unwritten hostOps2_1) (by unwritten hostOps2),
    W9_keep m ρ c (Proc.devRef .tc main_v2) (by unwritten hostOps2_1) (by unwritten hostOps2),
    W9_keep m ρ c (Proc.devRef .tc main_arg11) (by unwritten hostOps2_1) (by unwritten hostOps2),
    W9_keep m ρ c (Proc.devRef .tc main_arg12) (by unwritten hostOps2_1) (by unwritten hostOps2),
    W9_keep m ρ c (Proc.devRef .tc main_arg13) (by unwritten hostOps2_1) (by unwritten hostOps2)]

end AtIdeal

end Cert.KernelIdeal.Trace2

end
-- ==== Proof.KReg3.lean ====
/-
  Region 3, the last SAGE combine fused with the output projection over ten blocks of 10000 rows: the array it leaves is `Spec.combProj` of the eight arrays it read.

  Point t of the ten handles rows 10000 t … 10000 t + 9999: the three row-indexed operands (the aggregate, the
  reciprocal degree, the destination features) and the output move together, block t at point t, and the two weight
  matrices, the bias row, the projection matrix and its bias row are read whole at every point. The body's stored
  value is the projected combine of the blocks it loaded; since every formula of it is row-local, that is rows
  10000 t … 10000 t + 9999 of the projected combine of the whole arrays; the ten blocks tile the 100000 rows, so the
  output array ends holding the projected combine everywhere.
-/
import proofs.«415858_j28896539968211_2_alg».proof.Proof.Gen.KernelIdeal.Frame
import proofs.«415858_j28896539968211_2_alg».proof.Proof.KBody
import proofs.«415858_j28896539968211_2_alg».proof.Proof.Spec
import Idealize.ShloMosaic.Lib.Pipeline.Value
import Idealize.ShloMosaic.Lib.ValueIdx

set_option maxRecDepth 16384

noncomputable section

namespace Cert.KernelIdeal.KReg3

open Cert.KernelIdeal Cert.KernelIdeal.Gen Idealize.ShloMosaic Idealize.ShloMosaic.TcCoe Idealize.SL.Sem Idealize.ShloMosaic.ValueIdx
open Idealize.ShloMosaic.Pipeline (Dat Cfg Window)

/- The buffer contents the region finds, a parameter: the run supplies the boundary's contents. -/
variable (V : (c : Dev nD) → (b : Ref sig .tc) → Buf (Elt Ideal) ((c : Thread nD τ).loc b))

/-- The zero offset of a rank-2 block, as the constant function. -/
private theorem zero2 : (![0, 0] : Fin 2 → Nat) = fun _ => 0 := funext fun a => by fin_cases a <;> rfl
/-- The zero offset of a rank-1 block, as the constant function. -/
private theorem zero1 : (![0] : Fin 1 → Nat) = fun _ => 0 := funext fun a => by fin_cases a <;> rfl

/-- The block indices over the ten points: the output and the three row-indexed operands are at row block t and
    column block 0 at point t; the weights, the bias rows and the projection matrix are at block 0 throughout. -/
private theorem index_facts : ∀ t : Fin cfg3.N,
    win3_8.index t (0 : Fin 2) = t.val ∧ win3_8.index t (1 : Fin 2) = 0
  ∧ win3_0.index t (0 : Fin 2) = t.val ∧ win3_0.index t (1 : Fin 2) = 0
  ∧ win3_1.index t (0 : Fin 2) = t.val ∧ win3_1.index t (1 : Fin 2) = 0
  ∧ win3_2.index t (0 : Fin 2) = t.val ∧ win3_2.index t (1 : Fin 2) = 0
  ∧ win3_3.index t (0 : Fin 2) = 0 ∧ win3_3.index t (1 : Fin 2) = 0
  ∧ win3_4.index t (0 : Fin 2) = 0 ∧ win3_4.index t (1 : Fin 2) = 0
  ∧ win3_5.index t (0 : Fin 1) = 0
  ∧ win3_6.index t (0 : Fin 2) = 0 ∧ win3_6.index t (1 : Fin 2) = 0
  ∧ win3_7.index t (0 : Fin 1) = 0 :=
  (by decide +kernel : ∀ t : Fin grid3.N, _)

/-- There are ten points. -/
private theorem point_lt (t : Fin cfg3.N) : t.val < 10 := lt_of_lt_of_eq t.isLt N_3

/-- Row p of the block of point t, as a row of the whole array: row 10000 t + p. -/
private def rowOf (t : Fin cfg3.N) (p : Fin 10000) : Fin 100000 :=
  ⟨t.val * 10000 + p.val, by have := point_lt t; have := p.isLt; omega⟩

/-! ## The blocks the body loads, read off the arrays -/

/-- Entry (p, κ) of the aggregate's block at point t is entry (10000 t + p, κ) of the aggregate. -/
private theorem agg_block (c : Dev nD) (t : Fin cfg3.N) (p : Fin 10000) (κ : Fin 128) :
    (iblk3 V c 0 t : Vec Ideal S10000x128 .f32) (ix2 p κ) = (V c main_v42 : S100000x128.Idx → Elt Ideal .f32) (ix2 (rowOf t p) κ) := by
  obtain ⟨-, -, h0, h1, -⟩ := index_facts t
  unfold iblk3
  rw [View.read_apply]
  show V c main_v42 _ = V c main_v42 _
  congr 1
  funext a
  apply Fin.ext
  match a with
  | ⟨0, _⟩ => show win3_0.index t (0 : Fin 2) * 10000 + 1 * p.val = t.val * 10000 + p.val; rw [h0]; omega
  | ⟨1, _⟩ => show win3_0.index t (1 : Fin 2) * 128 + 1 * κ.val = κ.val; rw [h1]; omega

/-- Entry (p, κ) of the reciprocal degree's block at point t is entry (10000 t + p, κ) of the reciprocal degree column. -/
private theorem deg_block (c : Dev nD) (t : Fin cfg3.N) (p : Fin 10000) (κ : Fin 1) :
    (iblk3 V c 1 t : Vec Ideal S10000x1 .f32) (ix2 p κ) = (V c main_v23 : S100000x1.Idx → Elt Ideal .f32) (ix2 (rowOf t p) κ) := by
  obtain ⟨-, -, -, -, h0, h1, -⟩ := index_facts t
  unfold iblk3
  rw [View.read_apply]
  show V c main_v23 _ = V c main_v23 _
  congr 1
  funext a
  apply Fin.ext
  match a with
  | ⟨0, _⟩ => show win3_1.index t (0 : Fin 2) * 10000 + 1 * p.val = t.val * 10000 + p.val; rw [h0]; omega
  | ⟨1, _⟩ => show win3_1.index t (1 : Fin 2) * 1 + 1 * κ.val = κ.val; rw [h1]; omega

/-- Entry (p, κ) of the destination features' block at point t is entry (10000 t + p, κ) of the destination features. -/
private theorem dst_block (c : Dev nD) (t : Fin cfg3.N) (p : Fin 10000) (κ : Fin 128) :
    (iblk3 V c 2 t : Vec Ideal S10000x128 .f32) (ix2 p κ) = (V c main_v33 : S100000x128.Idx → Elt Ideal .f32) (ix2 (rowOf t p) κ) := by
  obtain ⟨-, -, -, -, -, -, h0, h1, -⟩ := index_facts t
  unfold iblk3
  rw [View.read_apply]
  show V c main_v33 _ = V c main_v33 _
  congr 1
  funext a
  apply Fin.ext
  match a with
  | ⟨0, _⟩ => show win3_2.index t (0 : Fin 2) * 10000 + 1 * p.val = t.val * 10000 + p.val; rw [h0]; omega
  | ⟨1, _⟩ => show win3_2.index t (1 : Fin 2) * 128 + 1 * κ.val = κ.val; rw [h1]; omega

/-- The left weights' block at every point is the whole matrix. -/
private theorem wl_block (c : Dev nD) (t : Fin cfg3.N) : (iblk3 V c 3 t : Vec Ideal S128x128 .f32) = V c main_arg20 := by
  obtain ⟨-, -, -, -, -, -, -, -, h0, h1, -⟩ := index_facts t
  funext y
  unfold iblk3
  rw [View.read_apply]
  show V c main_arg20 _ = V c main_arg20 y
  congr 1
  funext a
  apply Fin.ext
  match a with
  | ⟨0, _⟩ => show win3_3.index t (0 : Fin 2) * 128 + 1 * (y 0).val = (y 0).val; rw [h0]; omega
  | ⟨1, _⟩ => show win3_3.index t (1 : Fin 2) * 128 + 1 * (y 1).val = (y 1).val; rw [h1]; omega

/-- The right weights' block at every point is the whole matrix. -/
private theorem wr_block (c : Dev nD) (t : Fin cfg3.N) : (iblk3 V c 4 t : Vec Ideal S128x128 .f32) = V c main_arg21 := by
  obtain ⟨-, -, -, -, -, -, -, -, -, -, h0, h1, -⟩ := index_facts t
  funext y
  unfold iblk3
  rw [View.read_apply]
  show V c main_arg21 _ = V c main_arg21 y
  congr 1
  funext a
  apply Fin.ext
  match a with
  | ⟨0, _⟩ => show win3_4.index t (0 : Fin 2) * 128 + 1 * (y 0).val = (y 0).val; rw [h0]; omega
  | ⟨1, _⟩ => show win3_4.index t (1 : Fin 2) * 128 + 1 * (y 1).val = (y 1).val; rw [h1]; omega

/-- The bias row's block at every point is the whole row. -/
private theorem bias_block (c : Dev nD) (t : Fin cfg3.N) : (iblk3 V c 5 t : Vec Ideal S128 .f32) = V c main_arg22 := by
  obtain ⟨-, -, -, -, -, -, -, -, -, -, -, -, h0, -⟩ := index_facts t
  funext y
  unfold iblk3
  rw [View.read_apply]
  show V c main_arg22 _ = V c main_arg22 y
  congr 1
  funext a
  apply Fin.ext
  match a with
  | ⟨0, _⟩ => show win3_5.index t (0 : Fin 1) * 128 + 1 * (y 0).val = (y 0).val; rw [h0]; omega

/-- The projection matrix's block at every point is the whole matrix. -/
private theorem ow_block (c : Dev nD) (t : Fin cfg3.N) : (iblk3 V c 6 t : Vec Ideal S128x32 .f32) = V c main_arg9 := by
  obtain ⟨-, -, -, -, -, -, -, -, -, -, -, -, -, h0, h1, -⟩ := index_facts t
  funext y
  unfold iblk3
  rw [View.read_apply]
  show V c main_arg9 _ = V c main_arg9 y
  congr 1
  funext a
  apply Fin.ext
  match a with
  | ⟨0, _⟩ => show win3_6.index t (0 : Fin 2) * 128 + 1 * (y 0).val = (y 0).val; rw [h0]; omega
  | ⟨1, _⟩ => show win3_6.index t (1 : Fin 2) * 32 + 1 * (y 1).val = (y 1).val; rw [h1]; omega

/-- The projection's bias row's block at every point is the whole row. -/
private theorem ob_block (c : Dev nD) (t : Fin cfg3.N) : (iblk3 V c 7 t : Vec Ideal S32 .f32) = V c main_arg10 := by
  obtain ⟨-, -, -, -, -, -, -, -, -, -, -, -, -, -, -, h0⟩ := index_facts t
  funext y
  unfold iblk3
  rw [View.read_apply]
  show V c main_arg10 _ = V c main_arg10 y
  congr 1
  funext a
  apply Fin.ext
  match a with
  | ⟨0, _⟩ => show win3_7.index t (0 : Fin 1) * 32 + 1 * (y 0).val = (y 0).val; rw [h0]; omega

/-- Entry (p, q) of the output's block at point t sits at entry (10000 t + p, q) of the output array. -/
private theorem out_emb (t : Fin cfg3.N) (p : Fin 10000) (q : Fin 32) :
    ((cfg3.win 8).blk t).view.emb (ix2 p q) = (ix2 (rowOf t p) q : S100000x32.Idx) := by
  obtain ⟨h0, h1, -⟩ := index_facts t
  funext a
  apply Fin.ext
  match a with
  | ⟨0, _⟩ => show win3_8.index t (0 : Fin 2) * 10000 + 1 * p.val = t.val * 10000 + p.val; rw [h0]; omega
  | ⟨1, _⟩ => show win3_8.index t (1 : Fin 2) * 32 + 1 * q.val = q.val; rw [h1]; omega

/-! ## Row-locality -/

/-- The projected combine is row-local: if row p of three row-indexed operands is row P of three others, then row p
    of the projected combine of the first is row P of the projected combine of the others, the weights, bias rows
    and projection matrix being the same. -/
private theorem combProj_row {n N : Nat} (agg : Cert.Spec.Mat N 128) (s : Cert.Spec.Mat N 1) (xd : Cert.Spec.Mat N 128)
    (agg' : Cert.Spec.Mat n 128) (s' : Cert.Spec.Mat n 1) (xd' : Cert.Spec.Mat n 128)
    (wl wr : Cert.Spec.Mat 128 128) (b : Cert.Spec.Row 128) (ow : Cert.Spec.Mat 128 32) (ob : Cert.Spec.Row 32)
    (p : Fin n) (P : Fin N)
    (hagg : ∀ κ, agg' (ix2 p κ) = agg (ix2 P κ)) (hs : ∀ κ, s' (ix2 p κ) = s (ix2 P κ)) (hxd : ∀ κ, xd' (ix2 p κ) = xd (ix2 P κ))
    (q : Fin 32) :
    Cert.Spec.combProj agg' s' xd' wl wr b ow ob (ix2 p q) = Cert.Spec.combProj agg s xd wl wr b ow ob (ix2 P q) := by
  show Cert.Spec.projAt _ ow ob p q = Cert.Spec.projAt _ ow ob P q
  unfold Cert.Spec.projAt Cert.Spec.dotAt
  congr 1
  refine Finset.sum_congr rfl fun κ _ => ?_
  congr 1
  show Cert.Spec.combAt agg' s' xd' wl wr b p κ = Cert.Spec.combAt agg s xd wl wr b P κ
  unfold Cert.Spec.combAt Cert.Spec.dotAt
  simp only [hagg, hs, hxd]

/-! ## What each point writes back, and the array -/

/-- What point t writes back is block t of the projected combine of the arrays the region found. -/
private theorem flushed_eq (c : Dev nD) (t : Fin cfg3.N) :
    (dat3 (F := Ideal) V c).flushed 8 t = ((cfg3.win 8).blk t).view.read (Elt Ideal)
      (Cert.Spec.combProj (n := 100000) (V c main_v42) (V c main_v23) (V c main_v33) (V c main_arg20) (V c main_arg21) (V c main_arg22)
          (V c main_arg9) (V c main_arg10)) := by
  show (cfg3.win 8).cut (grid3.coords t) ((dat3 V c).after 8 t) = _
  rw [after3_8]
  unfold out3_8
  rw [View.canon_unit_zero zero2]
  simp only [View.ld_unit_zero (S := S10000x128) zero2, View.ld_unit_zero (S := S10000x1) zero2, View.ld_unit_zero (S := S128x128) zero2,
    View.ld_unit_zero (S := S128) zero1, View.ld_unit_zero (S := S128x32) zero2, View.ld_unit_zero (S := S32) zero1]
  rw [KBody.combineProj_payload (iblk3 V c 0 t) (iblk3 V c 1 t) (iblk3 V c 2 t) (iblk3 V c 3 t) (iblk3 V c 4 t) (iblk3 V c 5 t)
        (iblk3 V c 6 t) (iblk3 V c 7 t)]
  rw [wl_block V c t, wr_block V c t, bias_block V c t, ow_block V c t, ob_block V c t]
  funext j
  obtain ⟨p, q, rfl⟩ : ∃ (p : Fin 10000) (q : Fin 32), j = ix2 p q := ⟨j 0, j 1, eq_ix2 j⟩
  rw [View.read_apply]
  show Cert.Spec.combProj (n := 10000) (iblk3 V c 0 t) (iblk3 V c 1 t) (iblk3 V c 2 t) (V c main_arg20) (V c main_arg21) (V c main_arg22)
          (V c main_arg9) (V c main_arg10) (ix2 p q)
      = Cert.Spec.combProj (n := 100000) (V c main_v42) (V c main_v23) (V c main_v33) (V c main_arg20) (V c main_arg21) (V c main_arg22)
          (V c main_arg9) (V c main_arg10) (((cfg3.win 8).blk t).view.emb (ix2 p q))
  rw [out_emb t p q]
  exact combProj_row (V c main_v42) (V c main_v23) (V c main_v33) (iblk3 V c 0 t) (iblk3 V c 1 t) (iblk3 V c 2 t)
    (V c main_arg20) (V c main_arg21) (V c main_arg22) (V c main_arg9) (V c main_arg10) p (rowOf t p)
    (agg_block V c t p) (deg_block V c t p) (dst_block V c t p) q

/-- An index of the output array is in the block of point t iff each coordinate is in the block's range on its axis. -/
private theorem mem_blk (t : Fin cfg3.N) (i : S100000x32.Idx) :
    i ∈ ((cfg3.win 8).blk t).view.set ↔ ∀ a : Fin 2, win3_8.index t a * S10000x32.size a ≤ (i a).val ∧ (i a).val < win3_8.index t a * S10000x32.size a + S10000x32.size a := by
  show i ∈ ((View.whole main_v43).slice (win3_8.rect t)).set ↔ _
  rw [View.set_slice_whole, Rect.mem_set_unit]
  exact Iff.rfl

/-- Every index of the output array is in the block of some point: row r is in the block of point r / 10000, all 32 columns. -/
private theorem cover (i : S100000x32.Idx) :
    ∃ t : Fin cfg3.N, (cfg3.win 8).flush t = true ∧ i ∈ ((cfg3.win 8).blk t).view.set := by
  have hi0 : (i 0).val < 100000 := (i 0).isLt
  have hi1 : (i 1).val < 32 := (i 1).isLt
  let t : Fin cfg3.N := ⟨(i 0).val / 10000, lt_of_lt_of_eq (by omega : (i 0).val / 10000 < 10) N_3.symm⟩
  obtain ⟨h0, h1, -⟩ := index_facts t
  have ht : t.val = (i 0).val / 10000 := rfl
  refine ⟨t, flush3_8 t, ?_⟩
  rw [mem_blk]
  intro a
  match a with
  | ⟨0, _⟩ => show win3_8.index t (0 : Fin 2) * 10000 ≤ (i 0).val ∧ (i 0).val < win3_8.index t (0 : Fin 2) * 10000 + 10000; rw [h0, ht]; omega
  | ⟨1, _⟩ => show win3_8.index t (1 : Fin 2) * 32 ≤ (i 1).val ∧ (i 1).val < win3_8.index t (1 : Fin 2) * 32 + 32; rw [h1]; omega

/-- After region 3 its output array is the projected combine of the arrays the region found. -/
theorem final (c : Dev nD) :
    (dat3 (F := Ideal) V c).arrAt 8 cfg3.N
      = Cert.Spec.combProj (n := 100000) (V c main_v42) (V c main_v23) (V c main_v33) (V c main_arg20) (V c main_arg21) (V c main_arg22)
          (V c main_arg9) (V c main_arg10) :=
  (dat3 (F := Ideal) V c).arrAt_eq_of_cover 8 _ (fun t _ => flushed_eq V c t) cover

end Cert.KernelIdeal.KReg3

end
-- ==== Proof.Trace3.lean ====
/-
  The program's result buffer after region 3 (boundary W13) in terms of the contents after region 2 (boundary W10): layer 1's element features taken at the element→material edges' source ids and summed at their destination ids, then region 3's projected combine.
-/
import proofs.«415858_j28896539968211_2_alg».proof.Proof.Gen.KernelIdeal.Frame
import proofs.«415858_j28896539968211_2_alg».proof.Proof.KFun
import proofs.«415858_j28896539968211_2_alg».proof.Proof.Spec
import proofs.«415858_j28896539968211_2_alg».proof.Proof.TraceTac
import proofs.«415858_j28896539968211_2_alg».proof.Proof.KReg3
import proofs.«415858_j28896539968211_2_alg».proof.Proof.KBody
import Idealize.ShloMosaic.Lib.StableHlo.Run

set_option maxRecDepth 16384

noncomputable section

namespace Cert.KernelIdeal.Trace3

open Cert.KernelIdeal Cert.KernelIdeal.Gen Cert.KernelIdeal.KFun Cert.KernelIdeal.TraceTac
open Idealize.ShloMosaic Idealize.ShloMosaic.TcCoe Idealize.SL.Sem Idealize.ShloMosaic.StableHlo

section AnyInstance

variable {F : FTy → Type} [FloatOps F] (m : (ℓ : Loc nD τ sig) → Buf (Elt F) ℓ) (ρ : Dev nD → PrngReg)

/-! ## Buffers the two stretches leave alone -/

/-- A buffer neither stretch before region 3 writes is, at the region's entry, what the previous boundary held. -/
theorem W12_keep (c : Dev nD) (b : DevRef τ sig)
    (h1 : StableHlo.after hostOps3_1 (W11 m ρ c) b = W11 m ρ c b)
    (h0 : StableHlo.after hostOps3 (W10 m ρ c) b = W10 m ρ c b) : W12 m ρ c b = W10 m ρ c b :=
  h1.trans h0

/-- The same through region 3, when the region holds the buffer in none of its windows. -/
theorem W13_keep (c : Dev nD) (b : Ref sig .tc) (hb : ∀ w, Pipeline.arrRef spec3 w ≠ b)
    (h1 : StableHlo.after hostOps3_1 (W11 m ρ c) (Proc.devRef .tc b) = W11 m ρ c (Proc.devRef .tc b))
    (h0 : StableHlo.after hostOps3 (W10 m ρ c) (Proc.devRef .tc b) = W10 m ρ c (Proc.devRef .tc b)) :
    W13 m ρ c (Proc.devRef .tc b) = W10 m ρ c (Proc.devRef .tc b) :=
  (W13_of_ne m ρ c b hb).trans (W12_keep m ρ c _ h1 h0)

/-! ## What the stretches compute -/

set_option maxHeartbeats 8000000 in
/-- The stretch before region 3 takes layer 1's element features at the element→material edges' source ids. Over any contents: the stretch's
    operations are the program's row take, read back operation by operation; the casts a module-local function's
    typed references carry are identities (a write then a read of one typed reference cancels; the three left
    over, on the two inputs and the output, are identities by computation). -/
theorem take_rows (W : Valuation τ sig (Elt F)) :
    StableHlo.after hostOps3 W (Proc.devRef .tc main_v39)
      = take400 (F := F) (W (Proc.devRef .tc main_v38)) (W (Proc.devRef .tc main_v4)) := by
  dsimp only [hostOps3]
  after_results
  simp only [ofBuf_toBuf]
  have eI : (TRef.of main_v4 : TRef sig ⟨S400000, .i32⟩).ofBuf (W (Proc.devRef .tc main_v4)) = W (Proc.devRef .tc main_v4) := rfl
  have eT : (TRef.of main_v38 : TRef sig ⟨S100000x128, .f32⟩).ofBuf (W (Proc.devRef .tc main_v38)) = W (Proc.devRef .tc main_v38) := rfl
  rw [eI, eT]
  unfold take400 inRange400 col400 wrap400
  exact (show ∀ v : (⟨S400000x128, .f32⟩ : BufTy).Contents (Elt F),
      (TRef.of main_v39 : TRef sig ⟨S400000x128, .f32⟩).toBuf v = v from fun _ => rfl) _

/-- At the previous boundary's contents. -/
theorem W11_v39 (c : Dev nD) :
    W11 m ρ c (Proc.devRef .tc main_v39) = take400 (F := F) (W10 m ρ c (Proc.devRef .tc main_v38)) (W10 m ρ c (Proc.devRef .tc main_v4)) :=
  take_rows (W10 m ρ c)

set_option maxHeartbeats 8000000 in
/-- Those rows summed at the edges' destination ids. -/
theorem W12_v42 (c : Dev nD) :
    W12 m ρ c (Proc.devRef .tc main_v42) = segSum (F := F) (W11 m ρ c (Proc.devRef .tc main_v6)) (W11 m ρ c (Proc.devRef .tc main_v39)) := by
  dsimp only [W12, hostOps3_1]
  after_results
  rfl

/-- The first stretch leaves the destination ids alone. -/
theorem W11_v6 (c : Dev nD) : W11 m ρ c (Proc.devRef .tc main_v6) = W10 m ρ c (Proc.devRef .tc main_v6) := by
  show StableHlo.after hostOps3 (W10 m ρ c) (Proc.devRef .tc main_v6) = _
  unwritten hostOps3

end AnyInstance

section AtIdeal

variable (m : (ℓ : Loc nD τ sig) → Buf (Elt Ideal) ℓ) (ρ : Dev nD → PrngReg)

/-! ## The boundary after region 3 -/

/-- Region 3 leaves the result: the projected combine of layer 2's material-side aggregate, the reciprocal degrees, layer 1's material features, the layer's weights and the output projection's. -/
theorem W13_v43 (c : Dev nD) :
    W13 m ρ c (Proc.devRef .tc main_v43)
      = Cert.Spec.combProj (n := 100000)
          (segSum (F := Ideal) (W10 m ρ c (Proc.devRef .tc main_v6)) (take400 (F := Ideal) (W10 m ρ c (Proc.devRef .tc main_v38)) (W10 m ρ c (Proc.devRef .tc main_v4))))
          (W10 m ρ c (Proc.devRef .tc main_v23)) (W10 m ρ c (Proc.devRef .tc main_v33))
          (W10 m ρ c (Proc.devRef .tc main_arg20)) (W10 m ρ c (Proc.devRef .tc main_arg21)) (W10 m ρ c (Proc.devRef .tc main_arg22)) (W10 m ρ c (Proc.devRef .tc main_arg9)) (W10 m ρ c (Proc.devRef .tc main_arg10)) := by
  refine (W13_arr m ρ c 8).trans ((Cert.KernelIdeal.KReg3.final (V12 m ρ) c).trans ?_)
  show Cert.Spec.combProj (n := 100000) (W12 m ρ c (Proc.devRef .tc main_v42)) (W12 m ρ c (Proc.devRef .tc main_v23)) (W12 m ρ c (Proc.devRef .tc main_v33))
      (W12 m ρ c (Proc.devRef .tc main_arg20)) (W12 m ρ c (Proc.devRef .tc main_arg21)) (W12 m ρ c (Proc.devRef .tc main_arg22)) (W12 m ρ c (Proc.devRef .tc main_arg9)) (W12 m ρ c (Proc.devRef .tc main_arg10)) = _
  rw [W12_v42, W11_v6, W11_v39,
    W12_keep m ρ c (Proc.devRef .tc main_v23) (by unwritten hostOps3_1) (by unwritten hostOps3),
    W12_keep m ρ c (Proc.devRef .tc main_v33) (by unwritten hostOps3_1) (by unwritten hostOps3),
    W12_keep m ρ c (Proc.devRef .tc main_arg20) (by unwritten hostOps3_1) (by unwritten hostOps3),
    W12_keep m ρ c (Proc.devRef .tc main_arg21) (by unwritten hostOps3_1) (by unwritten hostOps3),
    W12_keep m ρ c (Proc.devRef .tc main_arg22) (by unwritten hostOps3_1) (by unwritten hostOps3),
    W12_keep m ρ c (Proc.devRef .tc main_arg9) (by unwritten hostOps3_1) (by unwritten hostOps3),
    W12_keep m ρ c (Proc.devRef .tc main_arg10) (by unwritten hostOps3_1) (by unwritten hostOps3)]

end AtIdeal

end Cert.KernelIdeal.Trace3

end
-- ==== Proof.KOut.lean ====
/-
  The idealized kernel program's result as ONE function of its arguments, composed from its host-side functions
  (`KFun`) and the dense stages (`Spec`) in the order the program runs them: the material encoding and the
  element embedding rows; layer 1's two combines, each over the other node type's rows taken at the source ids and
  summed at the destination ids; layer 2's material combine fused with the output projection.
-/
import proofs.«415858_j28896539968211_2_alg».proof.Proof.KFun
import proofs.«415858_j28896539968211_2_alg».proof.Proof.Spec

noncomputable section

namespace Cert.KernelIdeal.KOut

open Cert.KernelIdeal Cert.KernelIdeal.KFun Idealize.ShloMosaic

/-- Material input features: `x · W + b` plus the embedding rows taken at the material ids. -/
def xm (a0 : FVec Ideal S100000x64 .f32) (a1 : IVec S100000 32) (a5 : FVec Ideal S100000x128 .f32)
    (a7 : FVec Ideal S64x128 .f32) (a8 : FVec Ideal S128 .f32) : FVec Ideal S100000x128 .f32 :=
  Cert.Spec.enc (n := 100000) a0 a7 a8 (take100 a5 a1)

/-- Element input features: the embedding rows taken at the element ids. -/
def xe (a2 : IVec S100000 32) (a6 : FVec Ideal S100000x128 .f32) : FVec Ideal S100000x128 .f32 :=
  take100 a6 a2

/-- One relation's SAGE layer: the source rows taken at the edges' source ids, summed at their destination ids,
    scaled by the reciprocal degree, and combined with the destination's own rows. -/
def sage (edges : IVec S2x400000 32) (src dst : FVec Ideal S100000x128 .f32)
    (wl wr : FVec Ideal S128x128 .f32) (b : FVec Ideal S128 .f32) : FVec Ideal S100000x128 .f32 :=
  Cert.Spec.comb (n := 100000) (segSum (dstRow edges) (take400 src (srcRow edges))) (invDeg (F := Ideal) (dstRow edges)) dst wl wr b

/-- The program's result: layer 2's material combine of layer 1's two outputs, projected. -/
def out (a0 : FVec Ideal S100000x64 .f32) (a1 a2 : IVec S100000 32) (a3 a4 : IVec S2x400000 32)
    (a5 a6 : FVec Ideal S100000x128 .f32) (a7 : FVec Ideal S64x128 .f32) (a8 : FVec Ideal S128 .f32)
    (a9 : FVec Ideal S128x32 .f32) (a10 : FVec Ideal S32 .f32)
    (a11 a12 : FVec Ideal S128x128 .f32) (a13 : FVec Ideal S128 .f32)
    (a14 a15 : FVec Ideal S128x128 .f32) (a16 : FVec Ideal S128 .f32)
    (a20 a21 : FVec Ideal S128x128 .f32) (a22 : FVec Ideal S128 .f32) : FVec Ideal S100000x32 .f32 :=
  Cert.Spec.proj (n := 100000)
    (sage a4 (sage a3 (xm a0 a1 a5 a7 a8) (xe a2 a6) a11 a12 a13) (sage a4 (xe a2 a6) (xm a0 a1 a5 a7 a8) a14 a15 a16) a20 a21 a22)
    a9 a10

end Cert.KernelIdeal.KOut

end
-- ==== Proof.KTrace.lean ====
/-
  The result buffer at the last boundary of the fold, walked back boundary by boundary to the launch memory: it
  is `KOut.out` of the argument arrays. Each step substitutes what one segment says of its end boundary in terms of
  its start boundary; a buffer a segment neither computes nor holds in a window passes through it.
-/
import proofs.«415858_j28896539968211_2_alg».proof.Proof.Trace0
import proofs.«415858_j28896539968211_2_alg».proof.Proof.Trace1
import proofs.«415858_j28896539968211_2_alg».proof.Proof.Trace2
import proofs.«415858_j28896539968211_2_alg».proof.Proof.Trace3
import proofs.«415858_j28896539968211_2_alg».proof.Proof.KOut

set_option maxRecDepth 16384

noncomputable section

namespace Cert.KernelIdeal.KTrace

open Cert.KernelIdeal Cert.KernelIdeal.Gen Cert.KernelIdeal.KFun Cert.KernelIdeal.TraceTac
open Idealize.ShloMosaic Idealize.ShloMosaic.TcCoe Idealize.SL.Sem Idealize.ShloMosaic.StableHlo

variable (m : (ℓ : Loc nD τ sig) → Buf (Elt Ideal) ℓ) (ρ : Dev nD → PrngReg)

set_option maxHeartbeats 32000000 in
/-- After region 3 the result buffer holds the program's function of the arguments. -/
theorem result (c : Dev nD) :
    W13 m ρ c (Proc.devRef .tc main_v43)
      = Cert.KernelIdeal.KOut.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg20)) (m ((c : Thread nD τ).loc main_arg21)) (m ((c : Thread nD τ).loc main_arg22)) := by
  rw [Cert.KernelIdeal.Trace3.W13_v43 m ρ c]
  -- the boundary after region 2, from the boundary after region 1
  rw [Cert.KernelIdeal.Trace2.W10_v38 m ρ c,
    Cert.KernelIdeal.Trace2.W10_keep m ρ c main_v6 (by decide) (by unwritten hostOps2_1) (by unwritten hostOps2),
    Cert.KernelIdeal.Trace2.W10_keep m ρ c main_v4 (by decide) (by unwritten hostOps2_1) (by unwritten hostOps2),
    Cert.KernelIdeal.Trace2.W10_keep m ρ c main_v23 (by decide) (by unwritten hostOps2_1) (by unwritten hostOps2),
    Cert.KernelIdeal.Trace2.W10_keep m ρ c main_v33 (by decide) (by unwritten hostOps2_1) (by unwritten hostOps2),
    Cert.KernelIdeal.Trace2.W10_keep m ρ c main_arg20 (by decide) (by unwritten hostOps2_1) (by unwritten hostOps2),
    Cert.KernelIdeal.Trace2.W10_keep m ρ c main_arg21 (by decide) (by unwritten hostOps2_1) (by unwritten hostOps2),
    Cert.KernelIdeal.Trace2.W10_keep m ρ c main_arg22 (by decide) (by unwritten hostOps2_1) (by unwritten hostOps2),
    Cert.KernelIdeal.Trace2.W10_keep m ρ c main_arg9 (by decide) (by unwritten hostOps2_1) (by unwritten hostOps2),
    Cert.KernelIdeal.Trace2.W10_keep m ρ c main_arg10 (by decide) (by unwritten hostOps2_1) (by unwritten hostOps2)]
  -- the boundary after region 1, from the boundary after region 0
  rw [Cert.KernelIdeal.Trace1.W7_v33 m ρ c, Cert.KernelIdeal.Trace1.W7_v1 m ρ c, Cert.KernelIdeal.Trace1.W7_v2 m ρ c,
    Cert.KernelIdeal.Trace1.W7_v4 m ρ c, Cert.KernelIdeal.Trace1.W7_v6 m ρ c, Cert.KernelIdeal.Trace1.W7_v8 m ρ c,
    Cert.KernelIdeal.Trace1.W7_v10 m ρ c, Cert.KernelIdeal.Trace1.W7_v23 m ρ c, Cert.KernelIdeal.Trace1.W7_v28 m ρ c,
    Cert.KernelIdeal.Trace1.W7_keep m ρ c main_arg11 (by decide) (by unwritten hostOps1_3) (by unwritten hostOps1_2) (by unwritten hostOps1_1) (by unwritten hostOps1),
    Cert.KernelIdeal.Trace1.W7_keep m ρ c main_arg12 (by decide) (by unwritten hostOps1_3) (by unwritten hostOps1_2) (by unwritten hostOps1_1) (by unwritten hostOps1),
    Cert.KernelIdeal.Trace1.W7_keep m ρ c main_arg13 (by decide) (by unwritten hostOps1_3) (by unwritten hostOps1_2) (by unwritten hostOps1_1) (by unwritten hostOps1),
    Cert.KernelIdeal.Trace1.W7_keep m ρ c main_arg20 (by decide) (by unwritten hostOps1_3) (by unwritten hostOps1_2) (by unwritten hostOps1_1) (by unwritten hostOps1),
    Cert.KernelIdeal.Trace1.W7_keep m ρ c main_arg21 (by decide) (by unwritten hostOps1_3) (by unwritten hostOps1_2) (by unwritten hostOps1_1) (by unwritten hostOps1),
    Cert.KernelIdeal.Trace1.W7_keep m ρ c main_arg22 (by decide) (by unwritten hostOps1_3) (by unwritten hostOps1_2) (by unwritten hostOps1_1) (by unwritten hostOps1),
    Cert.KernelIdeal.Trace1.W7_keep m ρ c main_arg9 (by decide) (by unwritten hostOps1_3) (by unwritten hostOps1_2) (by unwritten hostOps1_1) (by unwritten hostOps1),
    Cert.KernelIdeal.Trace1.W7_keep m ρ c main_arg10 (by decide) (by unwritten hostOps1_3) (by unwritten hostOps1_2) (by unwritten hostOps1_1) (by unwritten hostOps1)]
  -- the boundary after region 0, from the launch memory
  rw [Cert.KernelIdeal.Trace0.W2_v1 m ρ c,
    Cert.KernelIdeal.Trace0.W2_keep m ρ c main_arg2 (by decide) (by unwritten hostOps0),
    Cert.KernelIdeal.Trace0.W2_keep m ρ c main_arg3 (by decide) (by unwritten hostOps0),
    Cert.KernelIdeal.Trace0.W2_keep m ρ c main_arg4 (by decide) (by unwritten hostOps0),
    Cert.KernelIdeal.Trace0.W2_keep m ρ c main_arg6 (by decide) (by unwritten hostOps0),
    Cert.KernelIdeal.Trace0.W2_keep m ρ c main_arg9 (by decide) (by unwritten hostOps0),
    Cert.KernelIdeal.Trace0.W2_keep m ρ c main_arg10 (by decide) (by unwritten hostOps0),
    Cert.KernelIdeal.Trace0.W2_keep m ρ c main_arg11 (by decide) (by unwritten hostOps0),
    Cert.KernelIdeal.Trace0.W2_keep m ρ c main_arg12 (by decide) (by unwritten hostOps0),
    Cert.KernelIdeal.Trace0.W2_keep m ρ c main_arg13 (by decide) (by unwritten hostOps0),
    Cert.KernelIdeal.Trace0.W2_keep m ρ c main_arg14 (by decide) (by unwritten hostOps0),
    Cert.KernelIdeal.Trace0.W2_keep m ρ c main_arg15 (by decide) (by unwritten hostOps0),
    Cert.KernelIdeal.Trace0.W2_keep m ρ c main_arg16 (by decide) (by unwritten hostOps0),
    Cert.KernelIdeal.Trace0.W2_keep m ρ c main_arg20 (by decide) (by unwritten hostOps0),
    Cert.KernelIdeal.Trace0.W2_keep m ρ c main_arg21 (by decide) (by unwritten hostOps0),
    Cert.KernelIdeal.Trace0.W2_keep m ρ c main_arg22 (by decide) (by unwritten hostOps0)]
  unfold Cert.KernelIdeal.KOut.out Cert.KernelIdeal.KOut.sage Cert.KernelIdeal.KOut.xm Cert.KernelIdeal.KOut.xe Cert.Spec.combProj
  rfl

end Cert.KernelIdeal.KTrace

end
-- ==== Proof.Take.lean ====
/-
  A row take whose every index is in range is the plain gather: the in-range test is then true at every
  position (a non-negative index is not moved by the wrap, and lies between 0 and 99999), so the select
  keeps the gathered row everywhere and the fill word is never read.
-/
import proofs.«415858_j28896539968211_2_alg».proof.Proof.KFun
import Idealize.ShloMosaic.Lib.ValueIdx
import Idealize.ShloMosaic.Lib.Pipeline.Value
import Idealize.ShloMosaic.Lib.StableHlo.Predicate

noncomputable section

namespace Cert.KernelIdeal.Take

open Cert.KernelIdeal Cert.KernelIdeal.Gen Cert.KernelIdeal.KFun Idealize.ShloMosaic Idealize.ShloMosaic.ValueIdx

variable {F : FTy → Type} [FloatOps F]

/-! ## Words and folds -/

/-- A left fold by `and` from 1 over one-bit words that are all 1 is 1. -/
private theorem foldl_andi_one {ι : Type} (f : ι → BitVec 1) :
    ∀ l : List ι, (∀ n ∈ l, f n = 1#1) → l.foldl (fun r n => IntOp.andi r (f n)) 1#1 = 1#1
  | [], _ => rfl
  | a :: l, hf => by
    rw [List.foldl_cons, hf a List.mem_cons_self, show IntOp.andi (1#1 : BitVec 1) 1#1 = 1#1 from by decide]
    exact foldl_andi_one f l (fun n hn => hf n (List.mem_cons_of_mem _ hn))

/-- A reduce by `and` from 1 of an array of one-bit words that are all 1 is 1 at every result index. -/
private theorem reduce_andi_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl, hinit]
  exact foldl_andi_one x _ (fun n _ => hx n)

/-- A non-negative signed word is not below 0, so the wrap's select keeps it. -/
private theorem wrap_word (w : BitVec 32) (h0 : 0 ≤ w.toInt) :
    Scalar.select (IntOp.cmpi .slt w 0#32) (IntOp.addi w 100000#32) w = w := by
  have hc : IntOp.cmpi .slt w 0#32 ≠ 1#1 := by
    intro hc
    have := IntOp.cmpi_slt.1 hc
    have h00 : (0#32 : BitVec 32).toInt = 0 := by decide
    omega
  exact if_neg hc

/-- A signed word in 0 … 99999 passes both range tests. -/
private theorem range_word (w : BitVec 32) (h : 0 ≤ w.toInt ∧ w.toInt < 100000) :
    IntOp.andi (IntOp.cmpi .sge w 0#32) (IntOp.cmpi .sle w 99999#32) = 1#1 := by
  have h00 : (0#32 : BitVec 32).toInt = 0 := by decide
  have h99 : (99999#32 : BitVec 32).toInt = 99999 := by decide
  exact IntOp.andi_eq_one.2 ⟨IntOp.cmpi_sge.2 (by omega), IntOp.cmpi_sle.2 (by omega)⟩

/-! ## 100000 indices -/

/-- Indices that are all non-negative are not moved by the wrap. -/
private theorem wrap100_eq (idx : IVec S100000 32) (h : ∀ i : S100000.Idx, 0 ≤ (idx i).toInt ∧ (idx i).toInt < 100000) :
    wrap100 idx = idx := by
  funext e
  show Scalar.select (IntOp.cmpi .slt (idx e) 0#32) (IntOp.addi (idx e) 100000#32) (idx e) = idx e
  exact wrap_word _ (h e).1

/-- With every index in range the in-range test holds at every position. -/
private theorem inRange100_one (idx : IVec S100000 32) (h : ∀ i : S100000.Idx, 0 ≤ (idx i).toInt ∧ (idx i).toInt < 100000)
    (e : S100000.Idx) : inRange100 idx e = 1#1 := by
  unfold inRange100
  refine reduce_andi_one _ _ _ _ rfl (fun i => ?_) e
  show IntOp.andi (IntOp.cmpi .sge (col100 idx i) 0#32) (IntOp.cmpi .sle (col100 idx i) 99999#32) = 1#1
  obtain ⟨k, hk⟩ : ∃ k, col100 idx i = idx k := by
    unfold col100
    rw [wrap100_eq idx h]
    exact ⟨_, rfl⟩
  rw [hk]
  exact range_word _ (h k)

/-- 100000 indices, all in range: the take is the gather at the wrapped indices. -/
theorem take100_eq_gather (tbl : FVec F S100000x128 .f32) (idx : IVec S100000 32)
    (h : ∀ i : S100000.Idx, 0 ≤ (idx i).toInt ∧ (idx i).toInt < 100000) :
    take100 tbl idx = Host.gather gather_S100000x128_S100000x1_S100000x128_1_0_n_n_0_1_1128 tbl (col100 idx) := by
  unfold take100
  funext j
  rw [select_apply]
  have hm : broadcastInDim S100000x128 ![0] bcast_S100000_S100000x128_0 (inRange100 idx) j = 1#1 := by
    unfold broadcastInDim
    exact inRange100_one idx h _
  rw [hm, select_one]

/-! ## 400000 indices -/

/-- Indices that are all non-negative are not moved by the wrap. -/
private theorem wrap400_eq (idx : IVec S400000 32) (h : ∀ i : S400000.Idx, 0 ≤ (idx i).toInt ∧ (idx i).toInt < 100000) :
    wrap400 idx = idx := by
  funext e
  show Scalar.select (IntOp.cmpi .slt (idx e) 0#32) (IntOp.addi (idx e) 100000#32) (idx e) = idx e
  exact wrap_word _ (h e).1

/-- With every index in range the in-range test holds at every position. -/
private theorem inRange400_one (idx : IVec S400000 32) (h : ∀ i : S400000.Idx, 0 ≤ (idx i).toInt ∧ (idx i).toInt < 100000)
    (e : S400000.Idx) : inRange400 idx e = 1#1 := by
  unfold inRange400
  refine reduce_andi_one _ _ _ _ rfl (fun i => ?_) e
  show IntOp.andi (IntOp.cmpi .sge (col400 idx i) 0#32) (IntOp.cmpi .sle (col400 idx i) 99999#32) = 1#1
  obtain ⟨k, hk⟩ : ∃ k, col400 idx i = idx k := by
    unfold col400
    rw [wrap400_eq idx h]
    exact ⟨_, rfl⟩
  rw [hk]
  exact range_word _ (h k)

/-- 400000 indices, all in range: the take is the gather at the wrapped indices. -/
theorem take400_eq_gather (tbl : FVec F S100000x128 .f32) (idx : IVec S400000 32)
    (h : ∀ i : S400000.Idx, 0 ≤ (idx i).toInt ∧ (idx i).toInt < 100000) :
    take400 tbl idx = Host.gather gather_S100000x128_S400000x1_S400000x128_1_0_n_n_0_1_1128 tbl (col400 idx) := by
  unfold take400
  funext j
  rw [select_apply]
  have hm : broadcastInDim S400000x128 ![0] bcast_S400000_S400000x128_0 (inRange400 idx) j = 1#1 := by
    unfold broadcastInDim
    exact inRange400_one idx h _
  rw [hm, select_one]

end Cert.KernelIdeal.Take

end
-- ==== Proof.Deg.lean ====
/-
  The two programs count a row's incoming edges differently shaped — the kernel program scatters 400000 ones into a
  vector of 100000, the reference scatters a 400000 × 1 column of ones into a 100000 × 1 column — and it is one
  count: update e lands on row r exactly when the e-th segment id, read as a signed word, is r, in both. A count is
  a natural number, so the degree clipped below at one is a nonzero real, and the kernel program's reciprocal
  column 1 / max(deg, 1) is, row by row, one over the reference's clipped degree.
-/
import proofs.«415858_j28896539968211_2_alg».proof.Proof.KFun
import proofs.«415858_j28896539968211_2_alg».proof.Proof.Gen.ReferenceIdeal.Read
import Idealize.ShloMosaic.Lib.ValueIdx
import Idealize.ShloMosaic.Lib.Pipeline.Value
import Idealize.ShloMosaic.PureOps.Ideal.Laws

noncomputable section

namespace Cert.Bridge.Deg

open Idealize.ShloMosaic Idealize.ShloMosaic.ValueIdx
open Cert.KernelIdeal.KFun (invDeg dstRow degree)
open Cert.ReferenceIdeal.Read (val_main_v42 val_main_v67 val_main_v92)

/-- The word 0x3F800000 is the real number one. -/
private theorem one_eq : Ideal.ofBits .f32 0x3F800000#32 = (1 : EReal) := by
  simp [Ideal.ofBits, Ideal.ieee, -EReal.coe_mul]; norm_num

/-- The kernel program's scatter of a vector of updates into a vector, and the reference's of a column into a column. -/
private abbrev dK := Cert.KernelIdeal.scatter_S100000_S400000x1_S400000_n_0_0_1
private abbrev dR := Cert.ReferenceIdeal.scatter_S100000x1_S400000x1_S400000x1_1_0_0_1

/-- Update `j` of the vector scatter reads its start row at position `(j, 0)` of the index column. -/
private theorem dK_siIdx (j : (⟨1, ![400000]⟩ : Shape).Idx) :
    dK.siIdx j ⟨List.idxOf (0 : Fin 1) dK.scatterDimsToOperandDims,
      List.idxOf_lt_length_iff.2 (List.mem_singleton.mpr rfl)⟩ = ix2 (j 0) 0 := by
  funext b; refine Fin.ext ?_
  match b with
  | ⟨0, _⟩ => rfl
  | ⟨1, _⟩ => rfl

/-- … so its window starts at that word, read signed. -/
private theorem dK_start {w : Nat} (j : (⟨1, ![400000]⟩ : Shape).Idx) (idx : IVec ⟨2, ![400000, 1]⟩ w) :
    dK.start j idx 0 = (idx (ix2 (j 0) 0)).toInt := by
  unfold ScatterDims.start
  rw [dif_pos (show (0 : Fin 1) ∈ dK.scatterDimsToOperandDims from List.mem_singleton.mpr rfl), dK_siIdx]
  rfl

/-- The vector scatter has no window axis: the window coordinate on the row axis is zero. -/
private theorem dK_window (j : (⟨1, ![400000]⟩ : Shape).Idx) : dK.window j 0 = 0 := by
  unfold ScatterDims.window
  rw [dif_neg (by decide)]

/-- An update of the vector scatter lands on row `i` exactly when its segment id, read signed, is `i`. -/
private theorem dK_lands {w : Nat} (j : (⟨1, ![400000]⟩ : Shape).Idx) (idx : IVec ⟨2, ![400000, 1]⟩ w)
    (i : (⟨1, ![100000]⟩ : Shape).Idx) :
    dK.resultIdx? j idx = some i ↔ (idx (ix2 (j 0) 0)).toInt = ((i 0).val : ℤ) := by
  have hi : (i 0).val < 100000 := (i 0).isLt
  unfold ScatterDims.resultIdx?
  constructor
  · intro h
    split at h
    · rename_i hc
      have h0 := congrFun (Option.some.inj h) 0
      have hv := congrArg Fin.val h0
      have hc0 := (hc 0).1
      rw [dK_start, dK_window] at hc0
      simp only [dK_start, dK_window] at hv
      omega
    · exact absurd h (by simp)
  · intro h
    have hc : ∀ a, 0 ≤ dK.start j idx a + dK.window j a ∧ dK.start j idx a + dK.window j a < (⟨1, ![100000]⟩ : Shape).size a := by
      intro a
      obtain rfl : a = 0 := Subsingleton.elim _ _
      rw [dK_start, dK_window, h]
      show 0 ≤ ((i 0).val : ℤ) + (0 : ℕ) ∧ ((i 0).val : ℤ) + (0 : ℕ) < (100000 : ℕ)
      omega
    rw [dif_pos hc]
    congr 1
    funext a
    obtain rfl : a = 0 := Subsingleton.elim _ _
    refine Fin.ext ?_
    show (dK.start j idx 0 + dK.window j 0).toNat = (i 0).val
    rw [dK_start, dK_window, h]
    omega

/-- Update `(j, ·)` of the column scatter reads its start row at position `(j, 0)` of the index column. -/
private theorem dR_siIdx (j : (⟨2, ![400000, 1]⟩ : Shape).Idx) :
    dR.siIdx j ⟨List.idxOf (0 : Fin 2) dR.scatterDimsToOperandDims,
      List.idxOf_lt_length_iff.2 (List.mem_singleton.mpr rfl)⟩ = ix2 (j 0) 0 := by
  funext b; refine Fin.ext ?_
  match b with
  | ⟨0, _⟩ => rfl
  | ⟨1, _⟩ => rfl

/-- … so on the row axis its window starts at that word, read signed, … -/
private theorem dR_start0 {w : Nat} (j : (⟨2, ![400000, 1]⟩ : Shape).Idx) (idx : IVec ⟨2, ![400000, 1]⟩ w) :
    dR.start j idx 0 = (idx (ix2 (j 0) 0)).toInt := by
  unfold ScatterDims.start
  rw [dif_pos (show (0 : Fin 2) ∈ dR.scatterDimsToOperandDims from List.mem_singleton.mpr rfl), dR_siIdx]
  rfl

/-- … and on the column axis at zero. -/
private theorem dR_start1 {w : Nat} (j : (⟨2, ![400000, 1]⟩ : Shape).Idx) (idx : IVec ⟨2, ![400000, 1]⟩ w) :
    dR.start j idx 1 = 0 := by
  unfold ScatterDims.start
  rw [dif_neg (by decide)]

/-- The row axis is inserted: no window coordinate there. -/
private theorem dR_window0 (j : (⟨2, ![400000, 1]⟩ : Shape).Idx) : dR.window j 0 = 0 := by
  unfold ScatterDims.window
  rw [dif_neg (by decide)]

/-- The window axis has extent one: its coordinate is zero. -/
private theorem dR_window1 (j : (⟨2, ![400000, 1]⟩ : Shape).Idx) : dR.window j 1 = 0 := by
  unfold ScatterDims.window
  rw [dif_pos (by decide)]
  have : (j 1).val < 1 := (j 1).isLt
  show (j 1).val = 0
  omega

/-- An update of the column scatter lands on row `i` exactly when its segment id, read signed, is `i`. -/
private theorem dR_lands {w : Nat} (j : (⟨2, ![400000, 1]⟩ : Shape).Idx) (idx : IVec ⟨2, ![400000, 1]⟩ w)
    (i : (⟨2, ![100000, 1]⟩ : Shape).Idx) :
    dR.resultIdx? j idx = some i ↔ (idx (ix2 (j 0) 0)).toInt = ((i 0).val : ℤ) := by
  have hi : (i 0).val < 100000 := (i 0).isLt
  have hi1 : (i 1).val < 1 := (i 1).isLt
  unfold ScatterDims.resultIdx?
  constructor
  · intro h
    split at h
    · rename_i hc
      have h0 := congrFun (Option.some.inj h) 0
      have hv := congrArg Fin.val h0
      have hc0 := (hc 0).1
      rw [dR_start0, dR_window0] at hc0
      simp only [dR_start0, dR_window0] at hv
      omega
    · exact absurd h (by simp)
  · intro h
    have hc : ∀ a, 0 ≤ dR.start j idx a + dR.window j a ∧ dR.start j idx a + dR.window j a < (⟨2, ![100000, 1]⟩ : Shape).size a := by
      intro a
      match a with
      | ⟨0, _⟩ =>
        show 0 ≤ dR.start j idx 0 + dR.window j 0 ∧ dR.start j idx 0 + dR.window j 0 < (100000 : ℕ)
        rw [dR_start0, dR_window0, h]
        omega
      | ⟨1, _⟩ =>
        show 0 ≤ dR.start j idx 1 + dR.window j 1 ∧ dR.start j idx 1 + dR.window j 1 < (1 : ℕ)
        rw [dR_start1, dR_window1]
        omega
    rw [dif_pos hc]
    congr 1
    funext a
    refine Fin.ext ?_
    match a with
    | ⟨0, _⟩ =>
      show (dR.start j idx 0 + dR.window j 0).toNat = (i 0).val
      rw [dR_start0, dR_window0, h]
      omega
    | ⟨1, _⟩ =>
      show (dR.start j idx 1 + dR.window j 1).toNat = (i 1).val
      rw [dR_start1, dR_window1]
      omega

/-- How many of the 400000 segment ids, read signed, equal `r`. -/
private def cnt (seg : IVec ⟨1, ![400000]⟩ 32) (r : Fin 100000) : ℕ :=
  (Finset.univ.filter (fun e : Fin 400000 => (seg (ix1 e)).toInt = ((r : ℕ) : ℤ))).card

/-- A sum of ones over the updates that land on row `r` is the count, whatever set indexes the updates. -/
private theorem sum_ones {ι : Type} [Fintype ι] (p : ι → Prop) [DecidablePred p] (f : ι → Fin 400000)
    (hf : Function.Bijective f) (seg : IVec ⟨1, ![400000]⟩ 32) (r : Fin 100000)
    (hp : ∀ j, p j ↔ (seg (ix1 (f j))).toInt = ((r : ℕ) : ℤ)) :
    ∑ _j ∈ Finset.univ.filter p, Ideal.ofBits .f32 0x3F800000#32 = ((cnt seg r : ℝ) : EReal) := by
  rw [Finset.sum_const, one_eq]
  have hc : (Finset.univ.filter p).card = cnt seg r := by
    unfold cnt
    refine Finset.card_bij (fun j _ => f j) ?_ ?_ ?_
    · intro j hj
      rw [Finset.mem_filter] at hj ⊢
      exact ⟨Finset.mem_univ _, (hp j).1 hj.2⟩
    · intro a _ b _ h; exact hf.1 h
    · intro b hb
      obtain ⟨a, rfl⟩ := hf.2 b
      rw [Finset.mem_filter] at hb
      exact ⟨a, Finset.mem_filter.2 ⟨Finset.mem_univ _, (hp a).2 hb.2⟩, rfl⟩
  rw [hc, ← EReal.coe_one, ← EReal.coe_nsmul, nsmul_eq_mul, mul_one]

/-- The segment ids as a one-column matrix, read at a row. -/
private theorem col_apply (h : (⟨1, ![400000]⟩ : Shape).BroadcastsInDim ⟨2, ![400000, 1]⟩ ![0])
    (seg : IVec ⟨1, ![400000]⟩ 32) (e : Fin 400000) (z : Fin 1) :
    broadcastInDim (⟨2, ![400000, 1]⟩ : Shape) ![0] h seg (ix2 e z) = seg (ix1 e) :=
  broadcastInDim_apply _ h seg (ix2 e z) (ix1 e) (fun a => match a with
    | ⟨0, _⟩ => by show e.val = if (400000 : Nat) = 1 then 0 else e.val; rw [if_neg (by decide)])

/-- A vector as a one-column matrix, read at a row. -/
private theorem bcol_apply (h : (⟨1, ![100000]⟩ : Shape).BroadcastsInDim ⟨2, ![100000, 1]⟩ ![0])
    (y : FVec Ideal ⟨1, ![100000]⟩ .f32) (r : Fin 100000) (z : Fin 1) :
    broadcastInDim (⟨2, ![100000, 1]⟩ : Shape) ![0] h y (ix2 r z) = y (ix1 r) :=
  broadcastInDim_apply _ h y (ix2 r z) (ix1 r) (fun a => match a with
    | ⟨0, _⟩ => by show r.val = if (100000 : Nat) = 1 then 0 else r.val; rw [if_neg (by decide)])

/-- A broadcast scalar reads the scalar everywhere. -/
private theorem bscalar_apply {α : Type} {t : Shape} (dims : Fin 0 → Fin t.rank)
    (h : (⟨0, ![]⟩ : Shape).BroadcastsInDim t dims) (y : (⟨0, ![]⟩ : Shape).Idx → α) (i : t.Idx) :
    broadcastInDim t dims h y i = y ix0 :=
  broadcastInDim_apply dims h y i ix0 (fun a => a.elim0)

/-- The host quotient reads pointwise. -/
private theorem hostDivf_apply {s : Shape} {φ : FTy} (a b : FVec Ideal s φ) (i : s.Idx) :
    Host.divf a b i = Ideal.div (a i) (b i) := rfl

/-- Ones scattered by row into a vector of zeros: at a row, the count. -/
private theorem kerDeg_eq (x : FVec Ideal ⟨1, ![100000]⟩ .f32) (col : IVec ⟨2, ![400000, 1]⟩ 32)
    (upd : FVec Ideal ⟨1, ![400000]⟩ .f32) (seg : IVec ⟨1, ![400000]⟩ 32)
    (hx : ∀ i, x i = Ideal.ofBits .f32 0x00000000#32) (hu : ∀ j, upd j = Ideal.ofBits .f32 0x3F800000#32)
    (hc : ∀ (e : Fin 400000) (z : Fin 1), col (ix2 e z) = seg (ix1 e)) (r : Fin 100000) :
    Host.scatterAdd (F := Ideal) dK x col upd (ix1 r) = ((cnt seg r : ℝ) : EReal) := by
  show Ideal.hostScatterAdd dK x col upd (ix1 r) = _
  unfold Ideal.hostScatterAdd
  rw [hx, Ideal.ofBits_zero_f32, zero_add, Finset.sum_congr rfl (fun j _ => hu j)]
  refine sum_ones _ (fun j => j 0) ⟨?_, ?_⟩ seg r ?_
  · intro a b h
    rw [eq_ix1 a, eq_ix1 b]; exact congrArg ix1 h
  · intro e; exact ⟨ix1 e, rfl⟩
  · intro j
    obtain ⟨e, rfl⟩ : ∃ e : Fin 400000, j = ix1 e := ⟨j 0, eq_ix1 j⟩
    rw [dK_lands]
    show (col (ix2 e 0)).toInt = ((r : ℕ) : ℤ) ↔ (seg (ix1 e)).toInt = ((r : ℕ) : ℤ)
    rw [hc]

/-- A column of ones scattered by row into a column of zeros: at a row, the count. -/
private theorem refDeg_eq (x : FVec Ideal ⟨2, ![100000, 1]⟩ .f32) (col : IVec ⟨2, ![400000, 1]⟩ 32)
    (upd : FVec Ideal ⟨2, ![400000, 1]⟩ .f32) (seg : IVec ⟨1, ![400000]⟩ 32)
    (hx : ∀ i, x i = Ideal.ofBits .f32 0x00000000#32) (hu : ∀ j, upd j = Ideal.ofBits .f32 0x3F800000#32)
    (hc : ∀ (e : Fin 400000) (z : Fin 1), col (ix2 e z) = seg (ix1 e)) (r : Fin 100000) (z : Fin 1) :
    Host.scatterAdd (F := Ideal) dR x col upd (ix2 r z) = ((cnt seg r : ℝ) : EReal) := by
  show Ideal.hostScatterAdd dR x col upd (ix2 r z) = _
  unfold Ideal.hostScatterAdd
  rw [hx, Ideal.ofBits_zero_f32, zero_add, Finset.sum_congr rfl (fun j _ => hu j)]
  refine sum_ones _ (fun j => j 0) ⟨?_, ?_⟩ seg r ?_
  · intro a b h
    rw [eq_ix2 a, eq_ix2 b]
    have h1 : a 1 = b 1 := Subsingleton.elim (α := Fin 1) _ _
    show ix2 (a 0) (a 1) = ix2 (b 0) (b 1)
    rw [show a 0 = b 0 from h, h1]
  · intro e; exact ⟨ix2 e 0, rfl⟩
  · intro j
    obtain ⟨e, y, rfl⟩ : ∃ (e : Fin 400000) (y : Fin 1), j = ix2 e y := ⟨j 0, j 1, eq_ix2 j⟩
    rw [dR_lands]
    show (col (ix2 e 0)).toInt = ((r : ℕ) : ℤ) ↔ (seg (ix1 e)).toInt = ((r : ℕ) : ℤ)
    rw [hc]

/-- A count clipped below at one is a nonzero real. -/
private theorem clip_real (n : ℕ) :
    ∃ r : ℝ, r ≠ 0 ∧ max (((n : ℝ) : EReal)) (Ideal.ofBits .f32 0x3F800000#32) = (r : EReal) := by
  refine ⟨max (n : ℝ) 1, ne_of_gt (lt_of_lt_of_le one_pos (le_max_right _ _)), ?_⟩
  rw [one_eq, ← EReal.coe_one]
  exact (EReal.coe_strictMono.monotone.map_max).symm

/-- The kernel program's reciprocal column at a row: one over the count clipped below at one. -/
private theorem invDeg_at (seg : IVec ⟨1, ![400000]⟩ 32) (r : Fin 100000) (z : Fin 1) :
    invDeg (F := Ideal) seg (ix2 r z)
      = Ideal.div (Ideal.ofBits .f32 0x3F800000#32) (max ((cnt seg r : ℝ) : EReal) (Ideal.ofBits .f32 0x3F800000#32)) := by
  unfold invDeg
  rw [bcol_apply, hostDivf_apply, maximumf_apply, bscalar_apply, constant_apply]
  unfold degree
  rw [kerDeg_eq _ _ _ seg (fun i => by rw [bscalar_apply, constant_apply])
    (fun j => by rw [bscalar_apply, constant_apply]) (fun e y => col_apply _ seg e y)]

section Reference
open Cert.ReferenceIdeal.Read

/-- Row 1 of an edge list is the same vector in the two programs' vocabularies. -/
private theorem dstRow_v22 (x4 : IVec Cert.KernelIdeal.S2x400000 32) : dstRow x4 = val_main_v22 (F := Ideal) x4 := rfl

/-- Row 1 of the other edge list, likewise. -/
private theorem dstRow_v26 (x3 : IVec Cert.KernelIdeal.S2x400000 32) : dstRow x3 = val_main_v26 (F := Ideal) x3 := rfl

/-- The reference's layer-1 degree of the element→material relation at a row is the count. -/
private theorem v40_at (x4 : IVec Cert.ReferenceIdeal.S2x400000 32) (r : Fin 100000) (z : Fin 1) :
    val_main_v40 (F := Ideal) x4 (ix2 r z) = ((cnt (val_main_v22 (F := Ideal) x4) r : ℝ) : EReal) := by
  unfold val_main_v40
  exact refDeg_eq _ _ _ (val_main_v22 (F := Ideal) x4)
    (fun i => by rw [val_main_v38_apply, val_main_cst_6_apply, Ideal.ofBits_def])
    (fun j => by rw [val_main_v37_apply, val_main_cst_5_apply, Ideal.ofBits_def])
    (fun e y => by rw [val_main_v39_apply]; rfl) r z

/-- The reference's degree of the material→element relation at a row is the count. -/
private theorem v65_at (x3 : IVec Cert.ReferenceIdeal.S2x400000 32) (r : Fin 100000) (z : Fin 1) :
    val_main_v65 (F := Ideal) x3 (ix2 r z) = ((cnt (val_main_v26 (F := Ideal) x3) r : ℝ) : EReal) := by
  unfold val_main_v65
  exact refDeg_eq _ _ _ (val_main_v26 (F := Ideal) x3)
    (fun i => by rw [val_main_v63_apply, val_main_cst_12_apply, Ideal.ofBits_def])
    (fun j => by rw [val_main_v62_apply, val_main_cst_11_apply, Ideal.ofBits_def])
    (fun e y => by rw [val_main_v64_apply]; rfl) r z

/-- The reference's layer-2 degree of the element→material relation at a row is the count. -/
private theorem v90_at (x4 : IVec Cert.ReferenceIdeal.S2x400000 32) (r : Fin 100000) (z : Fin 1) :
    val_main_v90 (F := Ideal) x4 (ix2 r z) = ((cnt (val_main_v22 (F := Ideal) x4) r : ℝ) : EReal) := by
  unfold val_main_v90
  exact refDeg_eq _ _ _ (val_main_v22 (F := Ideal) x4)
    (fun i => by rw [val_main_v88_apply, val_main_cst_18_apply, Ideal.ofBits_def])
    (fun j => by rw [val_main_v87_apply, val_main_cst_17_apply, Ideal.ofBits_def])
    (fun e y => by rw [val_main_v89_apply]; rfl) r z

/-- The clipped layer-1 degree of the element→material relation at a row. -/
private theorem v42_at (x4 : IVec Cert.ReferenceIdeal.S2x400000 32) (r : Fin 100000) (z : Fin 1) :
    val_main_v42 (F := Ideal) x4 (ix2 r z)
      = max ((cnt (val_main_v22 (F := Ideal) x4) r : ℝ) : EReal) (Ideal.ofBits .f32 0x3F800000#32) := by
  rw [val_main_v42_apply, val_main_v41_apply, val_main_cst_7_apply, Ideal.maximumf_def, Ideal.ofBits_def, v40_at]

/-- The clipped degree of the material→element relation at a row. -/
private theorem v67_at (x3 : IVec Cert.ReferenceIdeal.S2x400000 32) (r : Fin 100000) (z : Fin 1) :
    val_main_v67 (F := Ideal) x3 (ix2 r z)
      = max ((cnt (val_main_v26 (F := Ideal) x3) r : ℝ) : EReal) (Ideal.ofBits .f32 0x3F800000#32) := by
  rw [val_main_v67_apply, val_main_v66_apply, val_main_cst_13_apply, Ideal.maximumf_def, Ideal.ofBits_def, v65_at]

/-- The clipped layer-2 degree of the element→material relation at a row. -/
private theorem v92_at (x4 : IVec Cert.ReferenceIdeal.S2x400000 32) (r : Fin 100000) (z : Fin 1) :
    val_main_v92 (F := Ideal) x4 (ix2 r z)
      = max ((cnt (val_main_v22 (F := Ideal) x4) r : ℝ) : EReal) (Ideal.ofBits .f32 0x3F800000#32) := by
  rw [val_main_v92_apply, val_main_v91_apply, val_main_cst_19_apply, Ideal.maximumf_def, Ideal.ofBits_def, v90_at]

end Reference

/-- The reference's clipped degree of the element→material relation (layer 1) is a nonzero real at every row. -/
theorem clipped_real_m1 (x4 : IVec Cert.ReferenceIdeal.S2x400000 32) :
    ∀ i, ∃ r : ℝ, r ≠ 0 ∧ val_main_v42 (F := Ideal) x4 i = (r : EReal) := by
  intro i
  obtain ⟨r, z, rfl⟩ : ∃ (r : Fin 100000) (z : Fin 1), i = ix2 r z := ⟨i 0, i 1, eq_ix2 i⟩
  rw [v42_at]
  exact clip_real _

/-- The same for the material→element relation. -/
theorem clipped_real_e1 (x3 : IVec Cert.ReferenceIdeal.S2x400000 32) :
    ∀ i, ∃ r : ℝ, r ≠ 0 ∧ val_main_v67 (F := Ideal) x3 i = (r : EReal) := by
  intro i
  obtain ⟨r, z, rfl⟩ : ∃ (r : Fin 100000) (z : Fin 1), i = ix2 r z := ⟨i 0, i 1, eq_ix2 i⟩
  rw [v67_at]
  exact clip_real _

/-- The same for the element→material relation as layer 2 recomputes it. -/
theorem clipped_real_m2 (x4 : IVec Cert.ReferenceIdeal.S2x400000 32) :
    ∀ i, ∃ r : ℝ, r ≠ 0 ∧ val_main_v92 (F := Ideal) x4 i = (r : EReal) := by
  intro i
  obtain ⟨r, z, rfl⟩ : ∃ (r : Fin 100000) (z : Fin 1), i = ix2 r z := ⟨i 0, i 1, eq_ix2 i⟩
  rw [v92_at]
  exact clip_real _

/-- The kernel program's reciprocal-degree column of the element→material relation is one over the reference's
    clipped degree, row by row. -/
theorem invDeg_eq_m1 (x4 : IVec Cert.KernelIdeal.S2x400000 32) :
    invDeg (F := Ideal) (dstRow x4)
      = fun i => Ideal.div (Ideal.ofBits .f32 0x3F800000#32) (val_main_v42 (F := Ideal) x4 i) := by
  funext i
  obtain ⟨r, z, rfl⟩ : ∃ (r : Fin 100000) (z : Fin 1), i = ix2 r z := ⟨i 0, i 1, eq_ix2 i⟩
  rw [v42_at, invDeg_at, dstRow_v22]

/-- The same for the material→element relation. -/
theorem invDeg_eq_e1 (x3 : IVec Cert.KernelIdeal.S2x400000 32) :
    invDeg (F := Ideal) (dstRow x3)
      = fun i => Ideal.div (Ideal.ofBits .f32 0x3F800000#32) (val_main_v67 (F := Ideal) x3 i) := by
  funext i
  obtain ⟨r, z, rfl⟩ : ∃ (r : Fin 100000) (z : Fin 1), i = ix2 r z := ⟨i 0, i 1, eq_ix2 i⟩
  rw [v67_at, invDeg_at, dstRow_v26]

/-- The same against layer 2's recomputed degree. -/
theorem invDeg_eq_m2 (x4 : IVec Cert.KernelIdeal.S2x400000 32) :
    invDeg (F := Ideal) (dstRow x4)
      = fun i => Ideal.div (Ideal.ofBits .f32 0x3F800000#32) (val_main_v92 (F := Ideal) x4 i) := by
  funext i
  obtain ⟨r, z, rfl⟩ : ∃ (r : Fin 100000) (z : Fin 1), i = ix2 r z := ⟨i 0, i 1, eq_ix2 i⟩
  rw [v92_at, invDeg_at, dstRow_v22]

end Cert.Bridge.Deg

end
-- ==== Proof.RStage.lean ====
/-
  The reference program's dense stages are the functions of `Spec`. Read index by index through the generated
  stage lemmas: a host dot_general is the sum over the contracted coordinate, the bias row is broadcast down
  the rows, relu is the maximum with zero; and where the reference divides an aggregated row by its clipped
  degree d, a nonzero real, the quotient a / d is the product a · (1 / d) on every extended real a.
-/
import proofs.«415858_j28896539968211_2_alg».proof.Proof.Gen.ReferenceIdeal.Read
import proofs.«415858_j28896539968211_2_alg».proof.Proof.Spec
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RStage

open Cert.ReferenceIdeal Cert.ReferenceIdeal.Gen Cert.ReferenceIdeal.Read Idealize.ShloMosaic Idealize.ShloMosaic.ValueIdx

/-- The material encoding: the product plus the bias row plus the gathered embedding rows. -/
theorem enc_stage (x0 : FVec Ideal S100000x64 .f32) (x1 : IVec S100000 32) (x5 : FVec Ideal S100000x128 .f32)
    (x7 : FVec Ideal S64x128 .f32) (x8 : FVec Ideal S128 .f32) :
    val_main_v11 (F := Ideal) x0 x1 x5 x7 x8 = Cert.Spec.enc (n := 100000) x0 x7 x8 (val_main_v10 (F := Ideal) x1 x5) := by
  funext i
  obtain ⟨p, q, rfl⟩ : ∃ (p : Fin 100000) (q : Fin 128), i = ix2 p q := ⟨i 0, i 1, eq_ix2 i⟩
  rw [Cert.Spec.enc_apply]
  unfold Cert.Spec.encAt Cert.Spec.dotAt
  rw [val_main_v11_apply, val_main_v3_apply, val_main_v0_apply, val_main_v2_apply, val_main_v1_apply]
  -- entry (p, q) of the product reads row p of the left factor and column q of the right one
  have el : ∀ k : Fin 64, lidx_main_v0 (ix2 p q) k = ix2 p k := fun k =>
    funext fun a => Fin.ext (by match a with | ⟨0, _⟩ => rfl | ⟨1, _⟩ => rfl)
  have er : ∀ k : Fin 64, ridx_main_v0 (ix2 p q) k = ix2 k q := fun k =>
    funext fun a => Fin.ext (by match a with | ⟨0, _⟩ => rfl | ⟨1, _⟩ => rfl)
  -- the bias row, broadcast down the rows, is read at the column q
  have eb : idx_main_v1 (idx_main_v2 (ix2 p q)) = ix1 q :=
    funext fun a => Fin.ext (by match a with | ⟨0, _⟩ => rfl)
  simp only [el, er, eb, Ideal.addf_def]

/-- Layer 1, material side: relu of (aggregate / clipped degree) · Wl + x_m · Wr + b is the SAGE combine with the
    rows scaled by one over the clipped degree. -/
theorem comb_m1_stage (x0 : FVec Ideal S100000x64 .f32) (x1 x2 : IVec S100000 32) (x4 : IVec S2x400000 32)
    (x5 x6 : FVec Ideal S100000x128 .f32) (x7 : FVec Ideal S64x128 .f32) (x8 : FVec Ideal S128 .f32)
    (x14 x15 : FVec Ideal S128x128 .f32) (x16 : FVec Ideal S128 .f32)
    (hd : ∀ i, ∃ r : ℝ, r ≠ 0 ∧ val_main_v42 (F := Ideal) x4 i = (r : EReal)) :
    val_main_v51 (F := Ideal) x0 x1 x2 x4 x5 x6 x7 x8 x14 x15 x16
      = Cert.Spec.comb (n := 100000) (val_main_v36 (F := Ideal) x2 x4 x6)
          (fun i => Ideal.div (Ideal.ofBits .f32 0x3F800000#32) (val_main_v42 (F := Ideal) x4 i))
          (val_main_v11 (F := Ideal) x0 x1 x5 x7 x8) x14 x15 x16 := by
  funext i
  obtain ⟨p, q, rfl⟩ : ∃ (p : Fin 100000) (q : Fin 128), i = ix2 p q := ⟨i 0, i 1, eq_ix2 i⟩
  rw [Cert.Spec.comb_apply]
  unfold Cert.Spec.combAt Cert.Spec.dotAt
  rw [val_main_v51_apply, val_main_v50_apply, val_main_v47_apply, val_main_v45_apply, val_main_v46_apply,
    val_main_v49_apply, val_main_v48_apply, val_main_call0_v0_apply, val_main_call0_cst_apply]
  simp only [val_main_v44_apply, val_main_v43_apply]
  -- both products read row p of the left factor and column q of the right one
  have el : ∀ k : Fin 128, lidx_main_v45 (ix2 p q) k = ix2 p k := fun k =>
    funext fun a => Fin.ext (by match a with | ⟨0, _⟩ => rfl | ⟨1, _⟩ => rfl)
  have er : ∀ k : Fin 128, ridx_main_v45 (ix2 p q) k = ix2 k q := fun k =>
    funext fun a => Fin.ext (by match a with | ⟨0, _⟩ => rfl | ⟨1, _⟩ => rfl)
  have el' : ∀ k : Fin 128, lidx_main_v46 (ix2 p q) k = ix2 p k := fun k =>
    funext fun a => Fin.ext (by match a with | ⟨0, _⟩ => rfl | ⟨1, _⟩ => rfl)
  have er' : ∀ k : Fin 128, ridx_main_v46 (ix2 p q) k = ix2 k q := fun k =>
    funext fun a => Fin.ext (by match a with | ⟨0, _⟩ => rfl | ⟨1, _⟩ => rfl)
  -- the degree column, broadcast along the row, is read at row p whatever the column
  have ed : ∀ k : Fin 128, idx_main_v43 (ix2 p k) = ix2 p 0 := fun k =>
    funext fun a => Fin.ext (by match a with | ⟨0, _⟩ => rfl | ⟨1, _⟩ => rfl)
  have eb : idx_main_v48 (idx_main_v49 (ix2 p q)) = ix1 q :=
    funext fun a => Fin.ext (by match a with | ⟨0, _⟩ => rfl)
  have hz : FloatOps.ofBits (F := Ideal) .f32 0x00000000#32 = (0 : EReal) := Ideal.ofBits_zero_f32
  -- the clipped degree of row p is a nonzero real r, so a / r = a · (1 / r) and 1 / r = 1 · (1 / r)
  obtain ⟨r, hr, hv⟩ := hd (ix2 p 0)
  simp only [el, er, el', er', ed, eb, hv, hz, Ideal.addf_def, Ideal.maximumf_def, Ideal.hostDivf_def,
    Ideal.div_coe hr, Ideal.ofBits_one_f32, one_mul]

/-- Layer 1, element side. -/
theorem comb_e1_stage (x0 : FVec Ideal S100000x64 .f32) (x1 x2 : IVec S100000 32) (x3 : IVec S2x400000 32)
    (x5 x6 : FVec Ideal S100000x128 .f32) (x7 : FVec Ideal S64x128 .f32) (x8 : FVec Ideal S128 .f32)
    (x11 x12 : FVec Ideal S128x128 .f32) (x13 : FVec Ideal S128 .f32)
    (hd : ∀ i, ∃ r : ℝ, r ≠ 0 ∧ val_main_v67 (F := Ideal) x3 i = (r : EReal)) :
    val_main_v76 (F := Ideal) x0 x1 x2 x3 x5 x6 x7 x8 x11 x12 x13
      = Cert.Spec.comb (n := 100000) (val_main_v61 (F := Ideal) x0 x1 x3 x5 x7 x8)
          (fun i => Ideal.div (Ideal.ofBits .f32 0x3F800000#32) (val_main_v67 (F := Ideal) x3 i))
          (val_main_v18 (F := Ideal) x2 x6) x11 x12 x13 := by
  funext i
  obtain ⟨p, q, rfl⟩ : ∃ (p : Fin 100000) (q : Fin 128), i = ix2 p q := ⟨i 0, i 1, eq_ix2 i⟩
  rw [Cert.Spec.comb_apply]
  unfold Cert.Spec.combAt Cert.Spec.dotAt
  rw [val_main_v76_apply, val_main_v75_apply, val_main_v72_apply, val_main_v70_apply, val_main_v71_apply,
    val_main_v74_apply, val_main_v73_apply, val_main_call1_v0_apply, val_main_call1_cst_apply]
  simp only [val_main_v69_apply, val_main_v68_apply]
  have el : ∀ k : Fin 128, lidx_main_v70 (ix2 p q) k = ix2 p k := fun k =>
    funext fun a => Fin.ext (by match a with | ⟨0, _⟩ => rfl | ⟨1, _⟩ => rfl)
  have er : ∀ k : Fin 128, ridx_main_v70 (ix2 p q) k = ix2 k q := fun k =>
    funext fun a => Fin.ext (by match a with | ⟨0, _⟩ => rfl | ⟨1, _⟩ => rfl)
  have el' : ∀ k : Fin 128, lidx_main_v71 (ix2 p q) k = ix2 p k := fun k =>
    funext fun a => Fin.ext (by match a with | ⟨0, _⟩ => rfl | ⟨1, _⟩ => rfl)
  have er' : ∀ k : Fin 128, ridx_main_v71 (ix2 p q) k = ix2 k q := fun k =>
    funext fun a => Fin.ext (by match a with | ⟨0, _⟩ => rfl | ⟨1, _⟩ => rfl)
  have ed : ∀ k : Fin 128, idx_main_v68 (ix2 p k) = ix2 p 0 := fun k =>
    funext fun a => Fin.ext (by match a with | ⟨0, _⟩ => rfl | ⟨1, _⟩ => rfl)
  have eb : idx_main_v73 (idx_main_v74 (ix2 p q)) = ix1 q :=
    funext fun a => Fin.ext (by match a with | ⟨0, _⟩ => rfl)
  have hz : FloatOps.ofBits (F := Ideal) .f32 0x00000000#32 = (0 : EReal) := Ideal.ofBits_zero_f32
  obtain ⟨r, hr, hv⟩ := hd (ix2 p 0)
  simp only [el, er, el', er', ed, eb, hv, hz, Ideal.addf_def, Ideal.maximumf_def, Ideal.hostDivf_def,
    Ideal.div_coe hr, Ideal.ofBits_one_f32, one_mul]

/-- Layer 2, material side. -/
theorem comb_m2_stage (x0 : FVec Ideal S100000x64 .f32) (x1 x2 : IVec S100000 32) (x3 x4 : IVec S2x400000 32)
    (x5 x6 : FVec Ideal S100000x128 .f32) (x7 : FVec Ideal S64x128 .f32) (x8 : FVec Ideal S128 .f32)
    (x11 x12 : FVec Ideal S128x128 .f32) (x13 : FVec Ideal S128 .f32)
    (x14 x15 : FVec Ideal S128x128 .f32) (x16 : FVec Ideal S128 .f32)
    (x20 x21 : FVec Ideal S128x128 .f32) (x22 : FVec Ideal S128 .f32)
    (hd : ∀ i, ∃ r : ℝ, r ≠ 0 ∧ val_main_v92 (F := Ideal) x4 i = (r : EReal)) :
    val_main_v101 (F := Ideal) x0 x1 x2 x3 x4 x5 x6 x7 x8 x11 x12 x13 x14 x15 x16 x20 x21 x22
      = Cert.Spec.comb (n := 100000) (val_main_v86 (F := Ideal) x0 x1 x2 x3 x4 x5 x6 x7 x8 x11 x12 x13)
          (fun i => Ideal.div (Ideal.ofBits .f32 0x3F800000#32) (val_main_v92 (F := Ideal) x4 i))
          (val_main_v51 (F := Ideal) x0 x1 x2 x4 x5 x6 x7 x8 x14 x15 x16) x20 x21 x22 := by
  funext i
  obtain ⟨p, q, rfl⟩ : ∃ (p : Fin 100000) (q : Fin 128), i = ix2 p q := ⟨i 0, i 1, eq_ix2 i⟩
  rw [Cert.Spec.comb_apply]
  unfold Cert.Spec.combAt Cert.Spec.dotAt
  rw [val_main_v101_apply, val_main_v100_apply, val_main_v97_apply, val_main_v95_apply, val_main_v96_apply,
    val_main_v99_apply, val_main_v98_apply, val_main_call2_v0_apply, val_main_call2_cst_apply]
  simp only [val_main_v94_apply, val_main_v93_apply]
  have el : ∀ k : Fin 128, lidx_main_v95 (ix2 p q) k = ix2 p k := fun k =>
    funext fun a => Fin.ext (by match a with | ⟨0, _⟩ => rfl | ⟨1, _⟩ => rfl)
  have er : ∀ k : Fin 128, ridx_main_v95 (ix2 p q) k = ix2 k q := fun k =>
    funext fun a => Fin.ext (by match a with | ⟨0, _⟩ => rfl | ⟨1, _⟩ => rfl)
  have el' : ∀ k : Fin 128, lidx_main_v96 (ix2 p q) k = ix2 p k := fun k =>
    funext fun a => Fin.ext (by match a with | ⟨0, _⟩ => rfl | ⟨1, _⟩ => rfl)
  have er' : ∀ k : Fin 128, ridx_main_v96 (ix2 p q) k = ix2 k q := fun k =>
    funext fun a => Fin.ext (by match a with | ⟨0, _⟩ => rfl | ⟨1, _⟩ => rfl)
  have ed : ∀ k : Fin 128, idx_main_v93 (ix2 p k) = ix2 p 0 := fun k =>
    funext fun a => Fin.ext (by match a with | ⟨0, _⟩ => rfl | ⟨1, _⟩ => rfl)
  have eb : idx_main_v98 (idx_main_v99 (ix2 p q)) = ix1 q :=
    funext fun a => Fin.ext (by match a with | ⟨0, _⟩ => rfl)
  have hz : FloatOps.ofBits (F := Ideal) .f32 0x00000000#32 = (0 : EReal) := Ideal.ofBits_zero_f32
  obtain ⟨r, hr, hv⟩ := hd (ix2 p 0)
  simp only [el, er, el', er', ed, eb, hv, hz, Ideal.addf_def, Ideal.maximumf_def, Ideal.hostDivf_def,
    Ideal.div_coe hr, Ideal.ofBits_one_f32, one_mul]

/-- The output projection of the layer-2 material features. -/
theorem proj_stage (x0 : FVec Ideal S100000x64 .f32) (x1 x2 : IVec S100000 32) (x3 x4 : IVec S2x400000 32)
    (x5 x6 : FVec Ideal S100000x128 .f32) (x7 : FVec Ideal S64x128 .f32) (x8 : FVec Ideal S128 .f32)
    (x9 : FVec Ideal S128x32 .f32) (x10 : FVec Ideal S32 .f32)
    (x11 x12 : FVec Ideal S128x128 .f32) (x13 : FVec Ideal S128 .f32)
    (x14 x15 : FVec Ideal S128x128 .f32) (x16 : FVec Ideal S128 .f32)
    (x20 x21 : FVec Ideal S128x128 .f32) (x22 : FVec Ideal S128 .f32) :
    val_main_v130 (F := Ideal) x0 x1 x2 x3 x4 x5 x6 x7 x8 x9 x10 x11 x12 x13 x14 x15 x16 x20 x21 x22
      = Cert.Spec.proj (n := 100000) (val_main_v101 (F := Ideal) x0 x1 x2 x3 x4 x5 x6 x7 x8 x11 x12 x13 x14 x15 x16 x20 x21 x22) x9 x10 := by
  funext i
  obtain ⟨p, q, rfl⟩ : ∃ (p : Fin 100000) (q : Fin 32), i = ix2 p q := ⟨i 0, i 1, eq_ix2 i⟩
  rw [Cert.Spec.proj_apply]
  unfold Cert.Spec.projAt Cert.Spec.dotAt
  rw [val_main_v130_apply, val_main_v127_apply, val_main_v129_apply, val_main_v128_apply]
  have el : ∀ k : Fin 128, lidx_main_v127 (ix2 p q) k = ix2 p k := fun k =>
    funext fun a => Fin.ext (by match a with | ⟨0, _⟩ => rfl | ⟨1, _⟩ => rfl)
  have er : ∀ k : Fin 128, ridx_main_v127 (ix2 p q) k = ix2 k q := fun k =>
    funext fun a => Fin.ext (by match a with | ⟨0, _⟩ => rfl | ⟨1, _⟩ => rfl)
  have eb : idx_main_v128 (idx_main_v129 (ix2 p q)) = ix1 q :=
    funext fun a => Fin.ext (by match a with | ⟨0, _⟩ => rfl)
  simp only [el, er, eb, Ideal.addf_def]

end Cert.ReferenceIdeal.RStage

end
-- ==== Proof.Bridge.lean ====
/-
  The two programs compute one function. Bottom-up over the five intermediate values — the element rows, the
  material encoding, layer 1's two outputs, layer 2's material output — each of the kernel program's values is the
  reference's stage: a take whose indices are in range is the reference's gather, the segment sums are the same
  scatter-add of equal operands, the reciprocal-degree column is one over the reference's clipped degree, and the
  reference's dense stages are the functions of `Spec`. The last step is the output projection.
-/
import proofs.«415858_j28896539968211_2_alg».proof.Proof.KOut
import proofs.«415858_j28896539968211_2_alg».proof.Proof.Take
import proofs.«415858_j28896539968211_2_alg».proof.Proof.Deg
import proofs.«415858_j28896539968211_2_alg».proof.Proof.RStage

noncomputable section

namespace Cert.Bridge

open Idealize.ShloMosaic
open Cert.KernelIdeal (S100000x64 S100000 S2x400000 S100000x128 S64x128 S128 S128x32 S32 S128x128 S400000)
open Cert.KernelIdeal.KFun Cert.KernelIdeal.KOut

variable (a0 : FVec Ideal S100000x64 .f32) (a1 a2 : IVec S100000 32) (a3 a4 : IVec S2x400000 32)
  (a5 a6 : FVec Ideal S100000x128 .f32) (a7 : FVec Ideal S64x128 .f32) (a8 : FVec Ideal S128 .f32)
  (a9 : FVec Ideal S128x32 .f32) (a10 : FVec Ideal S32 .f32)
  (a11 a12 : FVec Ideal S128x128 .f32) (a13 : FVec Ideal S128 .f32)
  (a14 a15 : FVec Ideal S128x128 .f32) (a16 : FVec Ideal S128 .f32)
  (a20 a21 : FVec Ideal S128x128 .f32) (a22 : FVec Ideal S128 .f32)

/-- The element rows: the kernel program's take at in-range element ids is the reference's gather. -/
theorem xe_eq (h2 : ∀ i : S100000.Idx, 0 ≤ (a2 i).toInt ∧ (a2 i).toInt < 100000) :
    xe a2 a6 = Cert.ReferenceIdeal.Read.val_main_v18 (F := Ideal) a2 a6 := by
  unfold xe
  rw [Cert.KernelIdeal.Take.take100_eq_gather a6 a2 h2]
  rfl

/-- The material encoding. -/
theorem xm_eq (h1 : ∀ i : S100000.Idx, 0 ≤ (a1 i).toInt ∧ (a1 i).toInt < 100000) :
    xm a0 a1 a5 a7 a8 = Cert.ReferenceIdeal.Read.val_main_v11 (F := Ideal) a0 a1 a5 a7 a8 := by
  rw [Cert.ReferenceIdeal.RStage.enc_stage]
  unfold xm
  rw [Cert.KernelIdeal.Take.take100_eq_gather a5 a1 h1]
  rfl

/-- Layer 1, material side. -/
theorem hm_eq (h1 : ∀ i : S100000.Idx, 0 ≤ (a1 i).toInt ∧ (a1 i).toInt < 100000)
    (h2 : ∀ i : S100000.Idx, 0 ≤ (a2 i).toInt ∧ (a2 i).toInt < 100000)
    (h4 : ∀ i : S400000.Idx, 0 ≤ (srcRow a4 i).toInt ∧ (srcRow a4 i).toInt < 100000) :
    sage a4 (xe a2 a6) (xm a0 a1 a5 a7 a8) a14 a15 a16
      = Cert.ReferenceIdeal.Read.val_main_v51 (F := Ideal) a0 a1 a2 a4 a5 a6 a7 a8 a14 a15 a16 := by
  rw [Cert.ReferenceIdeal.RStage.comb_m1_stage a0 a1 a2 a4 a5 a6 a7 a8 a14 a15 a16 (Cert.Bridge.Deg.clipped_real_m1 a4)]
  unfold sage
  rw [xe_eq a2 a6 h2, xm_eq a0 a1 a5 a7 a8 h1, Cert.KernelIdeal.Take.take400_eq_gather _ _ h4, Cert.Bridge.Deg.invDeg_eq_m1 a4]
  rfl

/-- Layer 1, element side. -/
theorem he_eq (h1 : ∀ i : S100000.Idx, 0 ≤ (a1 i).toInt ∧ (a1 i).toInt < 100000)
    (h2 : ∀ i : S100000.Idx, 0 ≤ (a2 i).toInt ∧ (a2 i).toInt < 100000)
    (h3 : ∀ i : S400000.Idx, 0 ≤ (srcRow a3 i).toInt ∧ (srcRow a3 i).toInt < 100000) :
    sage a3 (xm a0 a1 a5 a7 a8) (xe a2 a6) a11 a12 a13
      = Cert.ReferenceIdeal.Read.val_main_v76 (F := Ideal) a0 a1 a2 a3 a5 a6 a7 a8 a11 a12 a13 := by
  rw [Cert.ReferenceIdeal.RStage.comb_e1_stage a0 a1 a2 a3 a5 a6 a7 a8 a11 a12 a13 (Cert.Bridge.Deg.clipped_real_e1 a3)]
  unfold sage
  rw [xe_eq a2 a6 h2, xm_eq a0 a1 a5 a7 a8 h1, Cert.KernelIdeal.Take.take400_eq_gather _ _ h3, Cert.Bridge.Deg.invDeg_eq_e1 a3]
  rfl

/-- The whole result: the kernel program's composed function is the reference's last stage. -/
theorem out_eq (h1 : ∀ i : S100000.Idx, 0 ≤ (a1 i).toInt ∧ (a1 i).toInt < 100000)
    (h2 : ∀ i : S100000.Idx, 0 ≤ (a2 i).toInt ∧ (a2 i).toInt < 100000)
    (h3 : ∀ i : S400000.Idx, 0 ≤ (srcRow a3 i).toInt ∧ (srcRow a3 i).toInt < 100000)
    (h4 : ∀ i : S400000.Idx, 0 ≤ (srcRow a4 i).toInt ∧ (srcRow a4 i).toInt < 100000) :
    out a0 a1 a2 a3 a4 a5 a6 a7 a8 a9 a10 a11 a12 a13 a14 a15 a16 a20 a21 a22
      = Cert.ReferenceIdeal.Read.val_main_v130 (F := Ideal) a0 a1 a2 a3 a4 a5 a6 a7 a8 a9 a10 a11 a12 a13 a14 a15 a16 a20 a21 a22 := by
  rw [Cert.ReferenceIdeal.RStage.proj_stage,
    Cert.ReferenceIdeal.RStage.comb_m2_stage a0 a1 a2 a3 a4 a5 a6 a7 a8 a11 a12 a13 a14 a15 a16 a20 a21 a22
      (Cert.Bridge.Deg.clipped_real_m2 a4)]
  unfold out
  rw [he_eq a0 a1 a2 a3 a5 a6 a7 a8 a11 a12 a13 h1 h2 h3, hm_eq a0 a1 a2 a4 a5 a6 a7 a8 a14 a15 a16 h1 h2 h4]
  unfold sage
  rw [Cert.KernelIdeal.Take.take400_eq_gather _ _ h4, Cert.Bridge.Deg.invDeg_eq_m2 a4]
  rfl

end Cert.Bridge

end
-- ==== Proof.PreRange.lean ====
/-
  What the precondition says about the integer inputs. The precondition is one conjunction; its last four
  conjuncts say, each by a compare-and-reduce over every position, that the two node-id vectors and row 0 (the
  source ids) of the two edge lists hold signed words between 0 and 99999. Read here as facts about every entry.
-/
import proofs.«415858_j28896539968211_2_alg».proof.Pre_finite_inputs
import proofs.«415858_j28896539968211_2_alg».proof.Proof.Gen.Pre_finite_inputs
import Idealize.ShloMosaic.Lib.ValueIdx
import Idealize.ShloMosaic.Lib.Pipeline.Value
import Idealize.ShloMosaic.Lib.ReduceAll
import Idealize.ShloMosaic.Lib.StableHlo.Predicate

noncomputable section

namespace Cert.PreRange

open Cert.Pre_finite_inputs Cert.Pre_finite_inputs.Gen Idealize.ShloMosaic Idealize.ShloMosaic.ValueIdx

variable {F : FTy → Type} [FloatOps F]

/-- Row 0 of a 2 × 400000 edge list, as the precondition spells it: a slice, then a reshape. -/
def srcRow (a : IVec S2x400000 32) : IVec S400000 32 :=
  shapeCast S400000 (extractStridedSlice S1x400000 ![0, 0] a slices_S2x400000_S1x400000_0_0) shapeCasts_S1x400000_S400000

/-! ## One conjunct: an all-positions reduce of two signed compares -/

/-- The scalar shape has one index. -/
private instance : Subsingleton S_.Idx := ⟨fun _ _ => funext fun d => d.elim0⟩

/-- A reduce by `and` over every position of "x ≥ z and y < c" that came out 1 says, at each position, that
    z is at most x and y is below c, all read signed. -/
private theorem all_cmp {s : Shape} {axes : List (Fin s.rank)} (x y z c : IVec s 32) (init : IVec S_ 1)
    (hr : s.ReducesTo axes S_) (hu : 0 < S_.numel)
    (h : Host.reduce IntOp.andi (andi (cmpi .sge x z) (cmpi .slt y c)) init hr hu ix0 = 1#1) (i : s.Idx) :
    (z i).toInt ≤ (x i).toInt ∧ (y i).toInt < (c i).toInt := by
  have hi := Host.reduce_andi_all _ _ _ _ _ h i
  obtain ⟨h1, h2⟩ := IntOp.andi_eq_one.1 hi
  exact ⟨IntOp.cmpi_sge.1 h1, IntOp.cmpi_slt.1 h2⟩

private theorem toInt_zero : (0#32 : BitVec 32).toInt = 0 := by decide
private theorem toInt_cap : (100000#32 : BitVec 32).toInt = 100000 := by decide

/-! ## The chain's last three parts, each read when its value is 1 -/

/-- The last part: the conjunction so far, and the last edge list's row 0 tested (the lower bound on the
    copy of the row handed in, the upper bound on the row as sliced here). -/
private theorem part7_one (a4 : IVec S2x400000 32) (v118 : IVec S_ 1) (v120 : IVec S400000 32)
    (h : fn_part7 (F := F) a4 v118 v120 ix0 = 1#1) :
    v118 ix0 = 1#1 ∧ ∀ i : S400000.Idx, 0 ≤ (v120 i).toInt ∧ (srcRow a4 i).toInt < 100000 := by
  obtain ⟨h1, h2⟩ := IntOp.andi_eq_one.1 h
  refine ⟨h1, fun i => ?_⟩
  have hr : (0#32 : BitVec 32).toInt ≤ (v120 i).toInt ∧ (srcRow a4 i).toInt < (100000#32 : BitVec 32).toInt :=
    all_cmp _ _ _ _ _ _ _ h2 i
  rw [toInt_zero, toInt_cap] at hr
  exact hr

/-- The part before it: the conjunction so far, the second node-id vector tested against the zero vector
    handed in, and row 0 of both edge lists. -/
private theorem part6_one (a2 : IVec S100000 32) (a3 a4 : IVec S2x400000 32) (v100 : IVec S_ 1) (v101 : IVec S100000 32)
    (h : fn_part6 (F := F) a2 a3 a4 v100 v101 ix0 = 1#1) :
    v100 ix0 = 1#1 ∧ (∀ i : S100000.Idx, (v101 i).toInt ≤ (a2 i).toInt ∧ (a2 i).toInt < 100000)
      ∧ (∀ i : S400000.Idx, 0 ≤ (srcRow a3 i).toInt ∧ (srcRow a3 i).toInt < 100000)
      ∧ (∀ i : S400000.Idx, 0 ≤ (srcRow a4 i).toInt ∧ (srcRow a4 i).toInt < 100000) := by
  obtain ⟨h118, h4⟩ := part7_one (F := F) a4 _ _ h
  obtain ⟨h107, h117⟩ := IntOp.andi_eq_one.1 h118
  obtain ⟨h100, h106⟩ := IntOp.andi_eq_one.1 h107
  refine ⟨h100, fun i => ?_, fun i => ?_, fun i => h4 i⟩
  · have hr : (v101 i).toInt ≤ (a2 i).toInt ∧ (a2 i).toInt < (100000#32 : BitVec 32).toInt :=
      all_cmp _ _ _ _ _ _ _ h106 i
    rw [toInt_cap] at hr
    exact hr
  · have hr : (0#32 : BitVec 32).toInt ≤ (srcRow a3 i).toInt ∧ (srcRow a3 i).toInt < (100000#32 : BitVec 32).toInt :=
      all_cmp _ _ _ _ _ _ _ h117 i
    rw [toInt_zero, toInt_cap] at hr
    exact hr

/-- The part where the integer conjuncts begin: all four ranges. -/
private theorem part5_one (a1 a2 : IVec S100000 32) (a3 a4 : IVec S2x400000 32) (a22 : FVec F S128 .f32) (v83 : IVec S_ 1)
    (v84 : FVec F S128x128 .f32) (c32 : FVec F S_ .f32)
    (h : fn_part5 (F := F) a1 a2 a3 a4 a22 v83 v84 c32 ix0 = 1#1) :
    (∀ i : S100000.Idx, 0 ≤ (a1 i).toInt ∧ (a1 i).toInt < 100000)
      ∧ (∀ i : S100000.Idx, 0 ≤ (a2 i).toInt ∧ (a2 i).toInt < 100000)
      ∧ (∀ i : S400000.Idx, 0 ≤ (srcRow a3 i).toInt ∧ (srcRow a3 i).toInt < 100000)
      ∧ (∀ i : S400000.Idx, 0 ≤ (srcRow a4 i).toInt ∧ (srcRow a4 i).toInt < 100000) := by
  obtain ⟨h100, h2, h3, h4⟩ := part6_one (F := F) a2 a3 a4 _ _ h
  obtain ⟨_, h99⟩ := IntOp.andi_eq_one.1 h100
  refine ⟨fun i => ?_, fun i => ?_, h3, h4⟩
  · have hr : (0#32 : BitVec 32).toInt ≤ (a1 i).toInt ∧ (a1 i).toInt < (100000#32 : BitVec 32).toInt :=
      all_cmp _ _ _ _ _ _ _ h99 i
    rw [toInt_zero, toInt_cap] at hr
    exact hr
  · have hr : (0#32 : BitVec 32).toInt ≤ (a2 i).toInt ∧ (a2 i).toInt < 100000 := h2 i
    rw [toInt_zero] at hr
    exact hr

/-- Under the precondition every node id and every source id is a signed word in 0 … 99999. -/
theorem ranges (a0 : FVec F S100000x64 .f32) (a1 : IVec S100000 32) (a2 : IVec S100000 32) (a3 : IVec S2x400000 32) (a4 : IVec S2x400000 32) (a5 : FVec F S100000x128 .f32) (a6 : FVec F S100000x128 .f32) (a7 : FVec F S64x128 .f32) (a8 : FVec F S128 .f32) (a9 : FVec F S128x32 .f32) (a10 : FVec F S32 .f32) (a11 : FVec F S128x128 .f32) (a12 : FVec F S128x128 .f32) (a13 : FVec F S128 .f32) (a14 : FVec F S128x128 .f32) (a15 : FVec F S128x128 .f32) (a16 : FVec F S128 .f32) (a17 : FVec F S128x128 .f32) (a18 : FVec F S128x128 .f32) (a19 : FVec F S128 .f32) (a20 : FVec F S128x128 .f32) (a21 : FVec F S128x128 .f32) (a22 : FVec F S128 .f32)
    (h : fn (F := F) a0 a1 a2 a3 a4 a5 a6 a7 a8 a9 a10 a11 a12 a13 a14 a15 a16 a17 a18 a19 a20 a21 a22 = fun _ => 1#1) :
    (∀ i : S100000.Idx, 0 ≤ (a1 i).toInt ∧ (a1 i).toInt < 100000)
    ∧ (∀ i : S100000.Idx, 0 ≤ (a2 i).toInt ∧ (a2 i).toInt < 100000)
    ∧ (∀ i : S400000.Idx, 0 ≤ (srcRow a3 i).toInt ∧ (srcRow a3 i).toInt < 100000)
    ∧ (∀ i : S400000.Idx, 0 ≤ (srcRow a4 i).toInt ∧ (srcRow a4 i).toInt < 100000) := by
  have h0 : fn (F := F) a0 a1 a2 a3 a4 a5 a6 a7 a8 a9 a10 a11 a12 a13 a14 a15 a16 a17 a18 a19 a20 a21 a22 ix0 = 1#1 :=
    congrFun h ix0
  exact part5_one a1 a2 a3 a4 a22 _ _ _ h0

end Cert.PreRange

end
-- ==== Proof.lean ====
/-
  The certificate. The kernel attempt is a heterogeneous two-layer GraphSAGE forward pass — a material encoding, the
  element embedding rows, two layer-1 SAGE combines and a layer-2 material combine fused with the output projection
  as four Pallas calls, the gathers and segment sums between them on the host — against its plain jnp reference.

  Frames: the two kernel programs' frames are generated; the reference's is its generated run with the result dropped.
  The idealization's ledger is empty. Equivalence over the extended reals: under the precondition (every float input
  finite, every gather index in range — the latter is what is used) the idealized kernel program's result buffer is
  `KOut.out` of the arguments (the fold of buffer contents walked back to the launch, `KTrace.result`, on the run that
  names the result, `KRun.run_value`), the reference's is its last stage `val_main_v130` of the same arguments (its
  generated run), and the two are one function (`Bridge.out_eq`): a take at in-range indices is the reference's
  clamped gather, the segment sums are one scatter-add, `a · (1 / d)` is `a / d` for the clipped degree `d`, a nonzero
  real, and the dense stages are sums over the contracted coordinate on both sides.
-/
import proofs.«415858_j28896539968211_2_alg».proof.Defs
import proofs.«415858_j28896539968211_2_alg».proof.Proof.Gen.Kernel.Frame
import proofs.«415858_j28896539968211_2_alg».proof.Proof.Gen.KernelIdeal.Frame
import proofs.«415858_j28896539968211_2_alg».proof.Proof.Gen.ReferenceIdeal.Run
import proofs.«415858_j28896539968211_2_alg».proof.Proof.Gen.ReferenceIdeal.Read
import proofs.«415858_j28896539968211_2_alg».proof.Proof.Gen.Pre_finite_inputs
import proofs.«415858_j28896539968211_2_alg».proof.Proof.KRun
import proofs.«415858_j28896539968211_2_alg».proof.Proof.KTrace
import proofs.«415858_j28896539968211_2_alg».proof.Proof.Bridge
import proofs.«415858_j28896539968211_2_alg».proof.Proof.PreRange
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments alone: generated. -/
theorem frame_kernel : Cert.frame_Kernel := fun m ρ _ => Cert.Kernel.Gen.frame m ρ

/-- So does the idealized one. -/
theorem frame_kernelIdeal : Cert.frame_KernelIdeal := fun m ρ _ => Cert.KernelIdeal.Gen.frame m ρ

/-- The reference's frame is its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Run from memories that agree on the arguments, both idealized programs end with the same result array. -/
theorem algebraic : Cert.algebraic_KernelIdeal_ReferenceIdeal := by
  intro m ρ m' ρ' hpre hagree
  refine ⟨fun c => Cert.KernelIdeal.KOut.out (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)), ?_, ?_⟩
  · exact (θ_run Cert.KernelIdeal.defs _ _).mono
      (fun r h c => ⟨(h c).1.trans (Cert.KernelIdeal.KTrace.result m ρ c), (h c).2⟩)
      (Cert.KernelIdeal.KRun.run_value (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11, e12, e13, e14, e15, e16, e17, e18, e19, e20, e21, e22⟩ := hagree c
    obtain ⟨h1, h2, h3, h4⟩ := Cert.PreRange.ranges _ _ _ _ _ _ _ _ _ _ _ _ _ _ _ _ _ _ _ _ _ _ _ (hpre c)
    rw [Cert.ReferenceIdeal.Read.val_main_v130_eq, e0, e1, e2, e3, e4, e5, e6, e7, e8, e9, e10, e11, e12, e13, e14, e15, e16, e20, e21, e22]
    exact (Cert.Bridge.out_eq _ _ _ _ _ _ _ _ _ _ _ _ _ _ _ _ _ _ _ _ h1 h2 h3 h4).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
